-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩

class Facts : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_0_0 : S2x1600000.Slices ![0, 0] S1x1600000
  bcast_S_S50000x3 : S_.BroadcastsInDim S50000x3 (![] : Fin 0 → Fin S50000x3.rank)
  reducesTo_S50000x3_S_d0_1 : S50000x3.ReducesTo [0, 1] S_
  h_S_ : 0 < S_.numel
  bcast_S_S2x1600000 : S_.BroadcastsInDim S2x1600000 (![] : Fin 0 → Fin S2x1600000.rank)
  reducesTo_S2x1600000_S_d0_1 : S2x1600000.ReducesTo [0, 1] S_
  reducesTo_S1600000x3_S1600000_d1 : S1600000x3.ReducesTo [1] S1600000
  reducesTo_S1600000_S_d0 : S1600000.ReducesTo [0] S_
  gather_S50000x3_S1600000x1_S1600000x3_1_0_n_n_0_1_13_wf : GatherDims.WF S50000x3 S1600000x1 S1600000x3 [1] [0] [] [0] [] 1 ![1, 3]

variable [Facts]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def fn_part2 {F : FTy → Type} [FloatOps F] (main_v18 : FVec F S1600000x3 .f32) (main_v35 : IVec S_ 1) : IVec S_ 1 :=
  let main_v36 : FVec F S1600000x3 .f32 := mulf main_v18 main_v18
  let main_cst_10 : FVec F S_ .f32 := constant S_ .f32 0x00000000#32
  let main_v37 : FVec F S1600000 .f32 := (fun x v => Host.reduceAdd x v reducesTo_S1600000x3_S1600000_d1 h_S_) main_v36 main_cst_10
  let main_cst_11 : FVec F S_ .f32 := constant S_ .f32 0x00000000#32
  let main_v38 : FVec F S1600000 .f32 := broadcastInDim S1600000 ![] bcast_S_S1600000 main_cst_11
  let main_v39 : IVec S1600000 1 := cmpf .ogt main_v37 main_v38
  let main_c_12 : IVec S_ 1 := constantI S_ 1 1#1
  let main_v40 : IVec S_ 1 := (fun x v => Host.reduce IntOp.andi x v reducesTo_S1600000_S_d0 h_S_) main_v39 main_c_12
  let main_v41 : IVec S_ 1 := andi main_v35 main_v40
  main_v41

def fn_part1 {F : FTy → Type} [FloatOps F] (main_arg1 : FVec F S50000x3 .f32) (main_arg2 : IVec S2x1600000 32) (main_v18 : FVec F S1600000x3 .f32) (main_v19 : FVec F S50000x3 .f32) : IVec S_ 1 :=
  let main_cst : FVec F S_ .f32 := constant S_ .f32 0x7F800000#32
  let main_v20 : FVec F S50000x3 .f32 := broadcastInDim S50000x3 ![] bcast_S_S50000x3 main_cst
  let main_v21 : IVec S50000x3 1 := cmpf .olt main_v19 main_v20
  let main_c_3 : IVec S_ 1 := constantI S_ 1 1#1
  let main_v22 : IVec S_ 1 := (fun x v => Host.reduce IntOp.andi x v reducesTo_S50000x3_S_d0_1 h_S_) main_v21 main_c_3
  let main_v23 : FVec F S50000x3 .f32 := Host.absf main_arg1
  let main_cst_4 : FVec F S_ .f32 := constant S_ .f32 0x7F800000#32
  let main_v24 : FVec F S50000x3 .f32 := broadcastInDim S50000x3 ![] bcast_S_S50000x3 main_cst_4
  let main_v25 : IVec S50000x3 1 := cmpf .olt main_v23 main_v24
  let main_c_5 : IVec S_ 1 := constantI S_ 1 1#1
  let main_v26 : IVec S_ 1 := (fun x v => Host.reduce IntOp.andi x v reducesTo_S50000x3_S_d0_1 h_S_) main_v25 main_c_5
  let main_v27 : IVec S_ 1 := andi main_v22 main_v26
  let main_c_6 : IVec S_ 32 := constantI S_ 32 0#32
  let main_v28 : IVec S2x1600000 32 := broadcastInDim S2x1600000 ![] bcast_S_S2x1600000 main_c_6
  let main_v29 : IVec S2x1600000 1 := cmpi .sge main_arg2 main_v28
  let main_c_7 : IVec S_ 1 := constantI S_ 1 1#1
  let main_v30 : IVec S_ 1 := (fun x v => Host.reduce IntOp.andi x v reducesTo_S2x1600000_S_d0_1 h_S_) main_v29 main_c_7
  let main_v31 : IVec S_ 1 := andi main_v27 main_v30
  let main_c_8 : IVec S_ 32 := constantI S_ 32 50000#32
  let main_v32 : IVec S2x1600000 32 := broadcastInDim S2x1600000 ![] bcast_S_S2x1600000 main_c_8
  let main_v33 : IVec S2x1600000 1 := cmpi .slt main_arg2 main_v32
  let main_c_9 : IVec S_ 1 := constantI S_ 1 1#1
  let main_v34 : IVec S_ 1 := (fun x v => Host.reduce IntOp.andi x v reducesTo_S2x1600000_S_d0_1 h_S_) main_v33 main_c_9
  let main_v35 : IVec S_ 1 := andi main_v31 main_v34
  fn_part2 (F := F) main_v18 main_v35

def fn {F : FTy → Type} [FloatOps F] (main_arg0 : FVec F S50000x3 .f32) (main_arg1 : FVec F S50000x3 .f32) (main_arg2 : IVec S2x1600000 32) : IVec S_ 1 :=
  let main_v0 : IVec S1x1600000 32 := (extractStridedSlice S1x1600000 ![1, 0] · slices_S2x1600000_S1x1600000_1_0) main_arg2
  let main_v1 : IVec S1600000 32 := shapeCast S1600000 main_v0 shapeCasts_S1x1600000_S1600000
  let main_c : IVec S_ 32 := constantI S_ 32 0#32
  let main_v2 : IVec S1600000 32 := broadcastInDim S1600000 ![] bcast_S_S1600000 main_c
  let main_v3 : IVec S1600000 1 := cmpi .slt main_v1 main_v2
  let main_c_0 : IVec S_ 32 := constantI S_ 32 50000#32
  let main_v4 : IVec S1600000 32 := broadcastInDim S1600000 ![] bcast_S_S1600000 main_c_0
  let main_v5 : IVec S1600000 32 := addi main_v1 main_v4
  let main_v6 : IVec S1600000 32 := select main_v3 main_v5 main_v1
  let main_v7 : IVec S1600000x1 32 := broadcastInDim S1600000x1 ![0] bcast_S1600000_S1600000x1_0 main_v6
  let main_v8 : FVec F S1600000x3 .f32 := (fun x i => Host.gather gather_S50000x3_S1600000x1_S1600000x3_1_0_n_n_0_1_13 x i) main_arg0 main_v7
  let main_v9 : IVec S1x1600000 32 := (extractStridedSlice S1x1600000 ![0, 0] · slices_S2x1600000_S1x1600000_0_0) main_arg2
  let main_v10 : IVec S1600000 32 := shapeCast S1600000 main_v9 shapeCasts_S1x1600000_S1600000
  let main_c_1 : IVec S_ 32 := constantI S_ 32 0#32
  let main_v11 : IVec S1600000 32 := broadcastInDim S1600000 ![] bcast_S_S1600000 main_c_1
  let main_v12 : IVec S1600000 1 := cmpi .slt main_v10 main_v11
  let main_c_2 : IVec S_ 32 := constantI S_ 32 50000#32
  let main_v13 : IVec S1600000 32 := broadcastInDim S1600000 ![] bcast_S_S1600000 main_c_2
  let main_v14 : IVec S1600000 32 := addi main_v10 main_v13
  let main_v15 : IVec S1600000 32 := select main_v12 main_v14 main_v10
  let main_v16 : IVec S1600000x1 32 := broadcastInDim S1600000x1 ![0] bcast_S1600000_S1600000x1_0 main_v15
  let main_v17 : FVec F S1600000x3 .f32 := (fun x i => Host.gather gather_S50000x3_S1600000x1_S1600000x3_1_0_n_n_0_1_13 x i) main_arg0 main_v16
  let main_v18 : FVec F S1600000x3 .f32 := subf main_v8 main_v17
  let main_v19 : FVec F S50000x3 .f32 := Host.absf main_arg0
  fn_part1 (F := F) main_arg1 main_arg2 main_v18 main_v19
-- ==== Kernel.lean ====
abbrev S50000x3 : Shape := ⟨2, ![50000, 3]⟩
abbrev S2x1600000 : Shape := ⟨2, ![2, 1600000]⟩
abbrev S1x1600000 : Shape := ⟨2, ![1, 1600000]⟩
abbrev S1600000 : Shape := ⟨1, ![1600000]⟩
abbrev S50000x6 : Shape := ⟨2, ![50000, 6]⟩
abbrev S6x50000 : Shape := ⟨2, ![6, 50000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S6x1600000 : Shape := ⟨2, ![6, 1600000]⟩
abbrev S1600000x27 : Shape := ⟨2, ![1600000, 27]⟩
abbrev S6x16000 : Shape := ⟨2, ![6, 16000]⟩
abbrev S16000x27 : Shape := ⟨2, ![16000, 27]⟩
abbrev S1x16000 : Shape := ⟨2, ![1, 16000]⟩
abbrev S16000 : Shape := ⟨1, ![16000]⟩
abbrev S16000x1 : Shape := ⟨2, ![16000, 1]⟩

abbrev nBuf : Space → Nat
  | .hbm => 56
  | .vmem => 6
  | .smem => 0
  | _ => 0

abbrev bufTy : (tb : Table) → Fin (tcTables nBuf tb) → BufTy
  | .hbm, ⟨0, _⟩ => ⟨S50000x3, .f32⟩
  | .hbm, ⟨1, _⟩ => ⟨S50000x3, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S50000x6, .f32⟩
  | .hbm, ⟨8, _⟩ => ⟨S6x50000, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1, .i32⟩
  | .hbm, ⟨18, _⟩ => ⟨S_, .i32⟩
  | .hbm, ⟨19, _⟩ => ⟨S1600000x1, .i32⟩
  | .hbm, ⟨20, _⟩ => ⟨S1600000x1, .i1⟩
  | .hbm, ⟨21, _⟩ => ⟨S1x1, .i32⟩
  | .hbm, ⟨22, _⟩ => ⟨S1600000x1, .i32⟩
  | .hbm, ⟨23, _⟩ => ⟨S1600000x1, .i1⟩
  | .hbm, ⟨24, _⟩ => ⟨S1600000x1, .i1⟩
  | .hbm, ⟨25, _⟩ => ⟨S_, .i1⟩
  | .hbm, ⟨26, _⟩ => ⟨S1600000, .i1⟩
  | .hbm, ⟨27, _⟩ => ⟨S6x1600000, .f32⟩
  | .hbm, ⟨28, _⟩ => ⟨S6x1600000, .i1⟩
  | .hbm, ⟨29, _⟩ => ⟨S_, .f32⟩
  | .hbm, ⟨30, _⟩ => ⟨S6x1600000, .f32⟩
  | .hbm, ⟨31, _⟩ => ⟨S6x1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1, .i32⟩
  | .hbm, ⟨41, _⟩ => ⟨S_, .i32⟩
  | .hbm, ⟨42, _⟩ => ⟨S1600000x1, .i32⟩
  | .hbm, ⟨43, _⟩ => ⟨S1600000x1, .i1⟩
  | .hbm, ⟨44, _⟩ => ⟨S1x1, .i32⟩
  | .hbm, ⟨45, _⟩ => ⟨S1600000x1, .i32⟩
  | .hbm, ⟨46, _⟩ => ⟨S1600000x1, .i1⟩
  | .hbm, ⟨47, _⟩ => ⟨S1600000x1, .i1⟩
  | .hbm, ⟨48, _⟩ => ⟨S_, .i1⟩
  | .hbm, ⟨49, _⟩ => ⟨S1600000, .i1⟩
  | .hbm, ⟨50, _⟩ => ⟨S6x1600000, .f32⟩
  | .hbm, ⟨51, _⟩ => ⟨S6x1600000, .i1⟩
  | .hbm, ⟨52, _⟩ => ⟨S_, .f32⟩
  | .hbm, ⟨53, _⟩ => ⟨S6x1600000, .f32⟩
  | .hbm, ⟨54, _⟩ => ⟨S6x1600000, .f32⟩
  | .hbm, ⟨55, _⟩ => ⟨S1600000x27, .f32⟩
  | .local _ .vmem, ⟨0, _⟩ => ⟨S6x16000, .f32⟩
  | .local _ .vmem, ⟨1, _⟩ => ⟨S6x16000, .f32⟩
  | .local _ .vmem, ⟨2, _⟩ => ⟨S6x16000, .f32⟩
  | .local _ .vmem, ⟨3, _⟩ => ⟨S6x16000, .f32⟩
  | .local _ .vmem, ⟨4, _⟩ => ⟨S16000x27, .f32⟩
  | .local _ .vmem, ⟨5, _⟩ => ⟨S16000x27, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v6 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v7 : Ref sig .tc := ⟨.hbm, 54, rfl⟩
abbrev main_v8 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x27 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S50000x3_S50000x3_S50000x6_d1 : Shape.Concatenates [S50000x3, S50000x3] S50000x6 1
  transposes_S50000x6_S6x50000_1_0 : S50000x6.Transposes [1, 0] S6x50000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S6x1600000_1 : S1600000.BroadcastsInDim S6x1600000 (![1] : Fin 1 → Fin S6x1600000.rank)
  bcast_S_S6x1600000 : S_.BroadcastsInDim S6x1600000 (![] : Fin 0 → Fin S6x1600000.rank)
  inb_S6x16000_S6x16000_0_0 : ∀ a, (![0, 0] : Fin 2 → Nat) a + S6x16000.size a ≤ S6x16000.size a
  h_S6x16000 : 0 < S6x16000.numel
  shapeCasts_S6x16000_S6x16000 : S6x16000.ShapeCasts S6x16000
  slices_S6x16000_o0_0_S1x16000 : S6x16000.Slices ![0, 0] S1x16000
  shapeCasts_S1x16000_S16000 : S1x16000.ShapeCasts S16000
  slices_S6x16000_o1_0_S1x16000 : S6x16000.Slices ![1, 0] S1x16000
  slices_S6x16000_o2_0_S1x16000 : S6x16000.Slices ![2, 0] S1x16000
  slices_S6x16000_o3_0_S1x16000 : S6x16000.Slices ![3, 0] S1x16000
  slices_S6x16000_o4_0_S1x16000 : S6x16000.Slices ![4, 0] S1x16000
  slices_S6x16000_o5_0_S1x16000 : S6x16000.Slices ![5, 0] S1x16000
  shapeCasts_S16000_S16000x1 : S16000.ShapeCasts S16000x1
  concatenates_S16000x1_S16000x1_S16000x1_S16000x1_S16000x1_S16000x1_S16000x1_S16000x1_S16000x1_S16000x1_S16000x1_S16000x1_S16000x1_S16000x1_S16000x1_S16000x1_S16000x1_S16000x1_S16000x1_S16000x1_S16000x1_S16000x1_S16000x1_S16000x1_S16000x1_S16000x1_S16000x1_S16000x27_d1 : Shape.Concatenates [S16000x1, S16000x1, S16000x1, S16000x1, S16000x1, S16000x1, S16000x1, S16000x1, S16000x1, S16000x1, S16000x1, S16000x1, S16000x1, S16000x1, S16000x1, S16000x1, S16000x1, S16000x1, S16000x1, S16000x1, S16000x1, S16000x1, S16000x1, S16000x1, S16000x1, S16000x1, S16000x1] S16000x27 1
  inb_S16000x27_S16000x27_0_0 : ∀ a, (![0, 0] : Fin 2 → Nat) a + S16000x27.size a ≤ S16000x27.size a
  h_S16000x27 : 0 < S16000x27.numel
  gather_S6x50000_S1600000x1_S6x1600000_0_1_n_n_1_1_61_wf : GatherDims.WF S6x50000 S1600000x1 S6x1600000 [0] [1] [] [1] [] 1 ![6, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x16000.size a ≤ S6x1600000.size a
  hwx0_0 : ∀ i : grid0.Coords, EltTy.bits .f32 = 32 ∨ (Rect.block (s := S6x1600000) S6x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x16000.size a ≤ S6x1600000.size a
  hwx0_1 : ∀ i : grid0.Coords, EltTy.bits .f32 = 32 ∨ (Rect.block (s := S6x1600000) S6x16000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x27.size a ≤ S1600000x27.size a
  hwx0_2 : ∀ i : grid0.Coords, EltTy.bits .f32 = 32 ∨ (Rect.block (s := S1600000x27) S16000x27.size (cc0_transform_2 i) (hinb0_2 i)).WholeWords (EltTy.packing .f32)

variable [Facts₀]

def gather_S6x50000_S1600000x1_S6x1600000_0_1_n_n_1_1_61 : GatherDims S6x50000 S1600000x1 S6x1600000 where
  offsetDims := [0]
  collapsedSliceDims := [1]
  operandBatchingDims := []
  startIndicesBatchingDims := []
  startIndexMap := [1]
  indexVectorDim := 1
  sliceSizes := ![6, 1]
  wf := gather_S6x50000_S1600000x1_S6x1600000_0_1_n_n_1_1_61_wf

abbrev win0_0 : Pipeline.Window sig grid0 :=
  Pipeline.Window.ofSpec (Memref.whole main_v6) S6x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S6x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S16000x27.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x3 : Shape := ⟨2, ![50000, 3]⟩
abbrev S2x1600000 : Shape := ⟨2, ![2, 1600000]⟩
abbrev S27 : Shape := ⟨1, ![27]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S1600000x9 : Shape := ⟨2, ![1600000, 9]⟩
abbrev S50000x1 : Shape := ⟨2, ![50000, 1]⟩
abbrev S50000 : Shape := ⟨1, ![50000]⟩
abbrev S50000x9 : Shape := ⟨2, ![50000, 9]⟩
abbrev S1600000x27 : Shape := ⟨2, ![1600000, 27]⟩
abbrev S27x1 : Shape := ⟨2, ![27, 1]⟩

abbrev nBuf : Space → Nat
  | .hbm => 172
  | .vmem => 0
  | .smem => 0
  | _ => 0

abbrev hbmTy0_0 (i : Nat) : BufTy := match i % 128 with
  | 0 => ⟨S50000x3, .f32⟩
  | 1 => ⟨S50000x3, .f32⟩
  | 2 => ⟨S2x1600000, .i32⟩
  | 3 => ⟨S27, .i32⟩
  | 4 => ⟨S27, .i1⟩
  | 5 => ⟨S1x1600000, .i32⟩
  | 6 => ⟨S1600000, .i32⟩
  | 7 => ⟨S1x1600000, .i32⟩
  | 8 => ⟨S1600000, .i32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x3, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x3, .f32⟩
  | 27 => ⟨S1600000x3, .f32⟩
  | 28 => ⟨S1600000x3, .f32⟩
  | 29 => ⟨S_, .f32⟩
  | 30 => ⟨S1600000, .f32⟩
  | 31 => ⟨S1600000x1, .f32⟩
  | 32 => ⟨S1600000x1, .f32⟩
  | 33 => ⟨S1600000x3, .f32⟩
  | 34 => ⟨S1600000x3, .f32⟩
  | 35 => ⟨S1600000x1, .f32⟩
  | 36 => ⟨S1600000, .f32⟩
  | 37 => ⟨S1600000x1, .f32⟩
  | 38 => ⟨S1600000, .f32⟩
  | 39 => ⟨S1600000x1, .f32⟩
  | 40 => ⟨S1600000, .f32⟩
  | 41 => ⟨S_, .f32⟩
  | 42 => ⟨S1600000, .f32⟩
  | 43 => ⟨S_, .f32⟩
  | 44 => ⟨S1600000, .f32⟩
  | 45 => ⟨S1600000, .f32⟩
  | 46 => ⟨S_, .f32⟩
  | 47 => ⟨S1600000, .f32⟩
  | 48 => ⟨S1600000, .f32⟩
  | 49 => ⟨S_, .f32⟩
  | 50 => ⟨S1600000, .f32⟩
  | 51 => ⟨S1600000, .f32⟩
  | 52 => ⟨S_, .f32⟩
  | 53 => ⟨S1600000, .f32⟩
  | 54 => ⟨S1600000, .f32⟩
  | 55 => ⟨S1600000, .f32⟩
  | 56 => ⟨S_, .f32⟩
  | 57 => ⟨S1600000, .f32⟩
  | 58 => ⟨S1600000, .f32⟩
  | 59 => ⟨S1600000, .f32⟩
  | 60 => ⟨S1600000, .f32⟩
  | 61 => ⟨S1600000, .f32⟩
  | 62 => ⟨S1600000, .f32⟩
  | 63 => ⟨S1600000, .f32⟩
  | 64 => ⟨S_, .f32⟩
  | 65 => ⟨S1600000, .f32⟩
  | 66 => ⟨S1600000, .f32⟩
  | 67 => ⟨S1600000, .f32⟩
  | 68 => ⟨S_, .f32⟩
  | 69 => ⟨S1600000, .f32⟩
  | 70 => ⟨S1600000, .f32⟩
  | 71 => ⟨S_, .f32⟩
  | 72 => ⟨S1600000, .f32⟩
  | 73 => ⟨S1600000, .f32⟩
  | 74 => ⟨S1600000, .f32⟩
  | 75 => ⟨S1600000, .f32⟩
  | 76 => ⟨S1600000, .f32⟩
  | 77 => ⟨S1600000, .f32⟩
  | 78 => ⟨S_, .f32⟩
  | 79 => ⟨S1600000, .f32⟩
  | 80 => ⟨S1600000, .f32⟩
  | 81 => ⟨S1600000x1, .f32⟩
  | 82 => ⟨S1600000x1, .f32⟩
  | 83 => ⟨S1600000x1, .f32⟩
  | 84 => ⟨S1600000x1, .f32⟩
  | 85 => ⟨S1600000x1, .f32⟩
  | 86 => ⟨S1600000x1, .f32⟩
  | 87 => ⟨S1600000x1, .f32⟩
  | 88 => ⟨S1600000x1, .f32⟩
  | 89 => ⟨S1600000x1, .f32⟩
  | 90 => ⟨S1600000x9, .f32⟩
  | 91 => ⟨S50000x1, .f32⟩
  | 92 => ⟨S50000, .f32⟩
  | 93 => ⟨S50000x1, .f32⟩
  | 94 => ⟨S50000, .f32⟩
  | 95 => ⟨S50000x1, .f32⟩
  | 96 => ⟨S50000, .f32⟩
  | 97 => ⟨S_, .f32⟩
  | 98 => ⟨S50000, .f32⟩
  | 99 => ⟨S_, .f32⟩
  | 100 => ⟨S50000, .f32⟩
  | 101 => ⟨S50000, .f32⟩
  | 102 => ⟨S_, .f32⟩
  | 103 => ⟨S50000, .f32⟩
  | 104 => ⟨S50000, .f32⟩
  | 105 => ⟨S_, .f32⟩
  | 106 => ⟨S50000, .f32⟩
  | 107 => ⟨S50000, .f32⟩
  | 108 => ⟨S_, .f32⟩
  | 109 => ⟨S50000, .f32⟩
  | 110 => ⟨S50000, .f32⟩
  | 111 => ⟨S50000, .f32⟩
  | 112 => ⟨S_, .f32⟩
  | 113 => ⟨S50000, .f32⟩
  | 114 => ⟨S50000, .f32⟩
  | 115 => ⟨S50000, .f32⟩
  | 116 => ⟨S50000, .f32⟩
  | 117 => ⟨S50000, .f32⟩
  | 118 => ⟨S50000, .f32⟩
  | 119 => ⟨S50000, .f32⟩
  | 120 => ⟨S_, .f32⟩
  | 121 => ⟨S50000, .f32⟩
  | 122 => ⟨S50000, .f32⟩
  | 123 => ⟨S50000, .f32⟩
  | 124 => ⟨S_, .f32⟩
  | 125 => ⟨S50000, .f32⟩
  | 126 => ⟨S50000, .f32⟩
  | 127 => ⟨S_, .f32⟩
  | _ => ⟨S50000x3, .f32⟩

abbrev hbmTy0_1 (i : Nat) : BufTy := match i % 128 with
  | 0 => ⟨S50000, .f32⟩
  | 1 => ⟨S50000, .f32⟩
  | 2 => ⟨S50000, .f32⟩
  | 3 => ⟨S50000, .f32⟩
  | 4 => ⟨S50000, .f32⟩
  | 5 => ⟨S50000, .f32⟩
  | 6 => ⟨S_, .f32⟩
  | 7 => ⟨S50000, .f32⟩
  | 8 => ⟨S50000, .f32⟩
  | 9 => ⟨S50000x1, .f32⟩
  | 10 => ⟨S50000x1, .f32⟩
  | 11 => ⟨S50000x1, .f32⟩
  | 12 => ⟨S50000x1, .f32⟩
  | 13 => ⟨S50000x1, .f32⟩
  | 14 => ⟨S50000x1, .f32⟩
  | 15 => ⟨S50000x1, .f32⟩
  | 16 => ⟨S50000x1, .f32⟩
  | 17 => ⟨S50000x1, .f32⟩
  | 18 => ⟨S50000x9, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x9, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x9, .f32⟩
  | 37 => ⟨S1600000x27, .f32⟩
  | 38 => ⟨S_, .i32⟩
  | 39 => ⟨S27, .i32⟩
  | 40 => ⟨S27, .i32⟩
  | 41 => ⟨S27, .i32⟩
  | 42 => ⟨S27x1, .i32⟩
  | 43 => ⟨S1600000x27, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_call0_v2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_13 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_14 : Ref sig .tc := ⟨.hbm, 97, rfl⟩
abbrev main_v74 : Ref sig .tc := ⟨.hbm, 98, rfl⟩
abbrev main_cst_15 : Ref sig .tc := ⟨.hbm, 99, rfl⟩
abbrev main_v75 : Ref sig .tc := ⟨.hbm, 100, rfl⟩
abbrev main_v76 : Ref sig .tc := ⟨.hbm, 101, rfl⟩
abbrev main_cst_16 : Ref sig .tc := ⟨.hbm, 102, rfl⟩
abbrev main_v77 : Ref sig .tc := ⟨.hbm, 103, rfl⟩
abbrev main_v78 : Ref sig .tc := ⟨.hbm, 104, rfl⟩
abbrev main_cst_17 : Ref sig .tc := ⟨.hbm, 105, rfl⟩
abbrev main_v79 : Ref sig .tc := ⟨.hbm, 106, rfl⟩
abbrev main_v80 : Ref sig .tc := ⟨.hbm, 107, rfl⟩
abbrev main_cst_18 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_19 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_20 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_21 : Ref sig .tc := ⟨.hbm, 124, rfl⟩
abbrev main_v94 : Ref sig .tc := ⟨.hbm, 125, rfl⟩
abbrev main_v95 : Ref sig .tc := ⟨.hbm, 126, rfl⟩
abbrev main_cst_22 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_23 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_c_24 : Ref sig .tc := ⟨.hbm, 147, rfl⟩
abbrev main_v114 : Ref sig .tc := ⟨.hbm, 148, rfl⟩
abbrev main_v115 : Ref sig .tc := ⟨.hbm, 149, rfl⟩
abbrev main_c_25 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_c_26 : Ref sig .tc := ⟨.hbm, 156, rfl⟩
abbrev main_v121 : Ref sig .tc := ⟨.hbm, 157, rfl⟩
abbrev main_v122 : Ref sig .tc := ⟨.hbm, 158, rfl⟩
abbrev main_c_27 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_c_28 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  bcast_S1600000x1_S1600000x3_0_1 : S1600000x1.BroadcastsInDim S1600000x3 (![0, 1] : Fin 2 → Fin S1600000x3.rank)
  slices_S1600000x3_S1600000x1_0_0 : S1600000x3.Slices ![0, 0] S1600000x1
  shapeCasts_S1600000x1_S1600000 : S1600000x1.ShapeCasts S1600000
  slices_S1600000x3_S1600000x1_0_1 : S1600000x3.Slices ![0, 1] S1600000x1
  slices_S1600000x3_S1600000x1_0_2 : S1600000x3.Slices ![0, 2] S1600000x1
  concatenates_S1600000x1_S1600000x1_S1600000x1_S1600000x1_S1600000x1_S1600000x1_S1600000x1_S1600000x1_S1600000x1_S1600000x9_d1 : Shape.Concatenates [S1600000x1, S1600000x1, S1600000x1, S1600000x1, S1600000x1, S1600000x1, S1600000x1, S1600000x1, S1600000x1] S1600000x9 1
  slices_S50000x3_S50000x1_0_0 : S50000x3.Slices ![0, 0] S50000x1
  shapeCasts_S50000x1_S50000 : S50000x1.ShapeCasts S50000
  slices_S50000x3_S50000x1_0_1 : S50000x3.Slices ![0, 1] S50000x1
  slices_S50000x3_S50000x1_0_2 : S50000x3.Slices ![0, 2] S50000x1
  bcast_S_S50000 : S_.BroadcastsInDim S50000 (![] : Fin 0 → Fin S50000.rank)
  bcast_S50000_S50000x1_0 : S50000.BroadcastsInDim S50000x1 (![0] : Fin 1 → Fin S50000x1.rank)
  concatenates_S50000x1_S50000x1_S50000x1_S50000x1_S50000x1_S50000x1_S50000x1_S50000x1_S50000x1_S50000x9_d1 : Shape.Concatenates [S50000x1, S50000x1, S50000x1, S50000x1, S50000x1, S50000x1, S50000x1, S50000x1, S50000x1] S50000x9 1
  concatenates_S1600000x9_S1600000x9_S1600000x9_S1600000x27_d1 : Shape.Concatenates [S1600000x9, S1600000x9, S1600000x9] S1600000x27 1
  bcast_S_S27 : S_.BroadcastsInDim S27 (![] : Fin 0 → Fin S27.rank)
  bcast_S27_S27x1_0 : S27.BroadcastsInDim S27x1 (![0] : Fin 1 → Fin S27x1.rank)
  gather_S50000x3_S1600000x1_S1600000x3_1_0_n_n_0_1_13_wf : GatherDims.WF S50000x3 S1600000x1 S1600000x3 [1] [0] [] [0] [] 1 ![1, 3]
  gather_S50000x9_S1600000x1_S1600000x9_1_0_n_n_0_1_19_wf : GatherDims.WF S50000x9 S1600000x1 S1600000x9 [1] [0] [] [0] [] 1 ![1, 9]
  gather_S1600000x27_S27x1_S1600000x27_0_1_n_n_1_1_16000001_wf : GatherDims.WF S1600000x27 S27x1 S1600000x27 [0] [1] [] [1] [] 1 ![1600000, 1]

variable [Facts₀]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def gather_S50000x9_S1600000x1_S1600000x9_1_0_n_n_0_1_19 : GatherDims S50000x9 S1600000x1 S1600000x9 where
  offsetDims := [1]
  collapsedSliceDims := [0]
  operandBatchingDims := []
  startIndicesBatchingDims := []
  startIndexMap := [0]
  indexVectorDim := 1
  sliceSizes := ![1, 9]
  wf := gather_S50000x9_S1600000x1_S1600000x9_1_0_n_n_0_1_19_wf
def gather_S1600000x27_S27x1_S1600000x27_0_1_n_n_1_1_16000001 : GatherDims S1600000x27 S27x1 S1600000x27 where
  offsetDims := [0]
  collapsedSliceDims := [1]
  operandBatchingDims := []
  startIndicesBatchingDims := []
  startIndexMap := [1]
  indexVectorDim := 1
  sliceSizes := ![1600000, 1]
  wf := gather_S1600000x27_S27x1_S1600000x27_0_1_n_n_1_1_16000001_wf

class Facts : Prop extends Facts₀ where

variable [Facts]
-- ==== Proof.Spec.lean ====
/-
  The edge harmonics as mathematics, with no program in sight.

  A graph on 50000 nodes carries a position and a spin in ℝ³ at every node, and 1600000 directed edges, edge `e`
  running from node `row e` to node `col e`.  Each edge gets 27 numbers: the nine real spherical harmonics of
  degree ≤ 2 (component normalisation) of three vectors — the UNIT vector along `pos (col e) − pos (row e)`, the spin
  at `col e` and the spin at `row e`, the spins as they are — laid out degree by degree: the three degree-0 values,
  then the three degree-1 triples, then the three degree-2 quintets, within a degree in the order direction, spin at
  the head, spin at the tail.

  Everything is over the extended reals, where division has corners: `a / 0` is `±∞` by the sign of `a` and `0 / 0`
  is `⊥`, while `0 · ⊤ = 0`.  So dividing by the length and multiplying by its reciprocal are the same function only
  where the length is not zero; `directionRecip_eq` is that statement, and it is the one law this certificate needs.
-/
import Idealize.ShloMosaic.PureOps.Ideal
import Idealize.ShloMosaic.Lib.ValueIdx
import Idealize.ShloMosaic.Lib.IdealHost

noncomputable section

namespace EdgeHarmonics

open Idealize.ShloMosaic Idealize.ShloMosaic.ValueIdx

/-! ## One vector's nine harmonics -/

/-- The real spherical harmonics of degree 0, 1, 2 of `v = (x, y, z)`, not normalised, in the order
    `1; √3·x, √3·y, √3·z; √15·x·z, √15·x·y, √5·(y² − ½(x² + z²)), √15·y·z, (√15/2)·(z² − x²)`.
    The irrational factors are the single-precision words both programs carry (the same word on both sides, never
    evaluated): `0x3FDDB3D7` for √3, `0x4077DEF6` for √15, `0x400F1BBD` for √5, `0x3FF7DEF6` for √15/2. -/
def harm (v : Fin 3 → EReal) : Fin 9 → EReal :=
  ![Ideal.ofBits .f32 0x3F800000#32,
    Ideal.ofBits .f32 0x3FDDB3D7#32 * v 0,
    Ideal.ofBits .f32 0x3FDDB3D7#32 * v 1,
    Ideal.ofBits .f32 0x3FDDB3D7#32 * v 2,
    Ideal.ofBits .f32 0x4077DEF6#32 * v 0 * v 2,
    Ideal.ofBits .f32 0x4077DEF6#32 * v 0 * v 1,
    Ideal.ofBits .f32 0x400F1BBD#32 * (v 1 * v 1 - Ideal.ofBits .f32 0x3F000000#32 * (v 0 * v 0 + v 2 * v 2)),
    Ideal.ofBits .f32 0x4077DEF6#32 * v 1 * v 2,
    Ideal.ofBits .f32 0x3FF7DEF6#32 * (v 2 * v 2 - v 0 * v 0)]

/-! ## The unit vector, two ways -/

/-- The squared length of `d`, summed left to right. -/
def sqLen (d : Fin 3 → EReal) : EReal := d 0 * d 0 + d 1 * d 1 + d 2 * d 2

/-- `d` divided by its length, component by component. -/
def direction (d : Fin 3 → EReal) : Fin 3 → EReal := fun a => Ideal.div (d a) (Ideal.sqrt (sqLen d))

/-- `d` times the reciprocal of its length, component by component. -/
def directionRecip (d : Fin 3 → EReal) : Fin 3 → EReal :=
  fun a => d a * Ideal.div (Ideal.ofBits .f32 0x3F800000#32) (Ideal.sqrt (sqLen d))

/-! ## One edge's 27 numbers -/

/-- The 27 numbers of an edge with unit direction `n`, spin `sc` at its head and spin `sr` at its tail. -/
def edge27 (n sc sr : Fin 3 → EReal) : Fin 27 → EReal :=
  ![harm n 0, harm sc 0, harm sr 0,
    harm n 1, harm n 2, harm n 3, harm sc 1, harm sc 2, harm sc 3, harm sr 1, harm sr 2, harm sr 3,
    harm n 4, harm n 5, harm n 6, harm n 7, harm n 8,
    harm sc 4, harm sc 5, harm sc 6, harm sc 7, harm sc 8,
    harm sr 4, harm sr 5, harm sr 6, harm sr 7, harm sr 8]

/-- A node's six numbers: position then spin. -/
def node6 (pos spin : (⟨2, ![50000, 3]⟩ : Shape).Idx → EReal) (n : Fin 50000) : Fin 6 → EReal :=
  ![pos (ix2 n 0), pos (ix2 n 1), pos (ix2 n 2), spin (ix2 n 0), spin (ix2 n 1), spin (ix2 n 2)]

/-- The 27 numbers of an edge from the six numbers `r` of its tail and the six `c` of its head, the unit vector
    taken by the reciprocal of the length. -/
def edge27OfNodes (r c : Fin 6 → EReal) : Fin 27 → EReal :=
  edge27 (directionRecip ![c 0 - r 0, c 1 - r 1, c 2 - r 2]) ![c 3, c 4, c 5] ![r 3, r 4, r 5]

/-! ## Which node an index word names -/

/-- An index word read as Python reads a subscript: a negative one counts from the end. -/
def wrapWord (x : BitVec 32) : BitVec 32 := Scalar.select (IntOp.cmpi .slt x 0#32) (IntOp.addi x 50000#32) x

/-- The node a gather reads for the index word `x`: the wrapped word as a signed number, clamped into the table. -/
def nodeOf (x : BitVec 32) : Fin 50000 := ⟨min (wrapWord x).toInt.toNat 49999, by omega⟩

/-! ## The whole result -/

/-- The result array, index by index: row `e` holds the 27 numbers of edge `e`, whose tail is named by
    `ei[0, e]` and whose head by `ei[1, e]`. -/
def target (pos spin : (⟨2, ![50000, 3]⟩ : Shape).Idx → EReal) (ei : (⟨2, ![2, 1600000]⟩ : Shape).Idx → BitVec 32) :
    (⟨2, ![1600000, 27]⟩ : Shape).Idx → EReal := fun j =>
  edge27
    (direction fun a => pos (ix2 (nodeOf (ei (ix2 1 (j 0)))) a) - pos (ix2 (nodeOf (ei (ix2 0 (j 0)))) a))
    (fun a => spin (ix2 (nodeOf (ei (ix2 1 (j 0)))) a))
    (fun a => spin (ix2 (nodeOf (ei (ix2 0 (j 0)))) a))
    (j 1)

/-- The squared length of edge `e`'s vector. -/
def edgeSqLen (pos : (⟨2, ![50000, 3]⟩ : Shape).Idx → EReal) (ei : (⟨2, ![2, 1600000]⟩ : Shape).Idx → BitVec 32)
    (e : Fin 1600000) : EReal :=
  sqLen fun a => pos (ix2 (nodeOf (ei (ix2 1 e))) a) - pos (ix2 (nodeOf (ei (ix2 0 e))) a)

/-! ## The law -/

/-- The word `0x3F800000` is the number one. -/
theorem ofBits_one : Ideal.ofBits .f32 0x3F800000#32 = (1 : EReal) :=
  -- sign 0, exponent field 127 (the bias), fraction 0: 2²³ · 2^(127 − 127 − 23) = 1
  Ideal.ofBits_one_f32

/-- A positive squared length has a non-zero root. -/
theorem sqrt_ne_zero {s : EReal} (h : 0 < s) : Ideal.sqrt s ≠ 0 := by
  induction s using EReal.rec with
  | bot => exact absurd h not_lt_bot
  | top => rw [Ideal.sqrt_top]; exact EReal.top_ne_zero
  | coe r =>
    -- a positive real has a positive root
    have hr : 0 < r := EReal.coe_pos.mp h
    rw [Ideal.sqrt_coe, if_neg (not_lt.mpr hr.le)]
    exact fun e => (Real.sqrt_pos.mpr hr).ne' (EReal.coe_eq_zero.mp e)

/-- Off a zero length, multiplying by the reciprocal of the length IS dividing by it: `x · (1 · ℓ⁻¹) = x · ℓ⁻¹`. -/
theorem directionRecip_eq (d : Fin 3 → EReal) (h : 0 < sqLen d) : directionRecip d = direction d := by
  funext a
  unfold directionRecip direction
  rw [ofBits_one]
  exact Ideal.mul_one_div (sqrt_ne_zero h)

end EdgeHarmonics

end
-- ==== Proof.LibGatherAxis.lean ====
/-
  A gather out of a two-dimensional table along ONE of its axes, read at an index.

  Two shapes of `stablehlo.gather`, both with a single index component per result row or column and the gathered axis
  collapsed.  ROWS: `table[idx]` for a table `[N, C]` and indices `[E, 1]` is the `[E, C]` array whose row `e` is
  the table's row `idx[e, 0]`.  COLUMNS: `table[:, idx]` for a table `[R, N]` and indices `[E, 1]` is the `[R, E]`
  array whose column `e` is the table's column `idx[e, 0]`.  In both the index word is read as a signed number and
  clamped into `[0, N − 1]`, as StableHLO clamps every start index so that the slice fits.
-/
import Idealize.ShloMosaic.PureOps
import Idealize.ShloMosaic.Lib.ValueIdx

noncomputable section

namespace Idealize.ShloMosaic.GatherAxis

open Idealize.ShloMosaic Idealize.ShloMosaic.ValueIdx

variable {α : Type}

/-- The dimension numbers of a gather of ROWS: offset axis 1 (a whole row of `C`), axis 0 collapsed and indexed. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A GATHER OF ROWS READ AT `(e, a)`: the table at row `idx[e, 0]` (signed, clamped into `[0, N − 1]`), column `a`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (a : Fin C) :
    Host.gather (rowsDims N C E wf) x idx (ix2 e a)
      = x (ix2 ⟨min (idx (ix2 e 0)).toInt.toNat (N - 1), by omega⟩ a) := by
  unfold Host.gather
  congr 1
  funext b
  refine Fin.ext ?_
  match b with
  | ⟨0, _⟩ =>
    -- the indexed axis: the clamped start index alone, no batch and no offset part
    show (rowsDims N C E wf).start (ix2 e a) idx 0 + (rowsDims N C E wf).batchCoord (ix2 e a) 0
      + (rowsDims N C E wf).offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e a) ⟨List.idxOf (0 : Fin 2) (rowsDims N C E wf).startIndexMap,
        List.idxOf_lt_length_iff.2 (List.mem_singleton.mpr rfl)⟩ = ix2 e 0 := by
      funext c; refine Fin.ext ?_
      match c with
      | ⟨0, _⟩ => rfl
      | ⟨1, _⟩ => rfl
    rw [hsi]
    rfl
  | ⟨1, _⟩ =>
    -- the offset axis: start 0, no batch part, the result's own coordinate on axis 1
    show (rowsDims N C E wf).start (ix2 e a) idx 1 + (rowsDims N C E wf).batchCoord (ix2 e a) 1
      + (rowsDims N C E wf).offCoord (ix2 e a) 1 = a.val
    rw [GatherDims.batchCoord_eq_zero _ _ _ List.not_mem_nil]
    unfold GatherDims.start
    rw [dif_neg (show (1 : Fin 2) ∉ (rowsDims N C E wf).startIndexMap from
      fun h => absurd (List.mem_singleton.mp h) (show ¬((1 : Fin 2) = 0) by decide))]
    simp only [Nat.add_zero, Nat.zero_add]
    unfold GatherDims.offCoord
    rw [dif_pos (show (1 : Fin 2) ∈ (rowsDims N C E wf).sKept from (GatherDims.mem_sKept _ _).mpr
      ⟨fun h => absurd (List.mem_singleton.mp h) (show ¬((1 : Fin 2) = 0) by decide), List.not_mem_nil⟩)]
    rfl

/-- The dimension numbers of a gather of COLUMNS: offset axis 0 (a whole column of `R`), axis 1 collapsed and indexed. -/
abbrev colsDims (R N E : Nat)
    (wf : GatherDims.WF ⟨2, ![R, N]⟩ ⟨2, ![E, 1]⟩ ⟨2, ![R, E]⟩ [0] [1] [] [1] [] 1 ![R, 1]) :
    GatherDims ⟨2, ![R, N]⟩ ⟨2, ![E, 1]⟩ ⟨2, ![R, E]⟩ where
  offsetDims := [0]
  collapsedSliceDims := [1]
  operandBatchingDims := []
  startIndicesBatchingDims := []
  startIndexMap := [1]
  indexVectorDim := 1
  sliceSizes := ![R, 1]
  wf := wf

/-- A GATHER OF COLUMNS READ AT `(k, e)`: the table at row `k`, column `idx[e, 0]` (signed, clamped into `[0, N − 1]`). -/
theorem gather_cols_apply {R N E w : Nat} (hN : 0 < N)
    (wf : GatherDims.WF ⟨2, ![R, N]⟩ ⟨2, ![E, 1]⟩ ⟨2, ![R, E]⟩ [0] [1] [] [1] [] 1 ![R, 1])
    (x : (⟨2, ![R, N]⟩ : Shape).Idx → α) (idx : IVec ⟨2, ![E, 1]⟩ w) (k : Fin R) (e : Fin E) :
    Host.gather (colsDims R N E wf) x idx (ix2 k e)
      = x (ix2 k ⟨min (idx (ix2 e 0)).toInt.toNat (N - 1), by omega⟩) := by
  unfold Host.gather
  congr 1
  funext b
  refine Fin.ext ?_
  match b with
  | ⟨0, _⟩ =>
    -- the offset axis: start 0, no batch part, the result's own coordinate on axis 0
    show (colsDims R N E wf).start (ix2 k e) idx 0 + (colsDims R N E wf).batchCoord (ix2 k e) 0
      + (colsDims R N E wf).offCoord (ix2 k e) 0 = k.val
    rw [GatherDims.batchCoord_eq_zero _ _ _ List.not_mem_nil]
    unfold GatherDims.start
    rw [dif_neg (show (0 : Fin 2) ∉ (colsDims R N E wf).startIndexMap from
      fun h => absurd (List.mem_singleton.mp h) (show ¬((0 : Fin 2) = 1) by decide))]
    simp only [Nat.add_zero, Nat.zero_add]
    unfold GatherDims.offCoord
    rw [dif_pos (show (0 : Fin 2) ∈ (colsDims R N E wf).sKept from (GatherDims.mem_sKept _ _).mpr
      ⟨fun h => absurd (List.mem_singleton.mp h) (show ¬((0 : Fin 2) = 1) by decide), List.not_mem_nil⟩)]
    rfl
  | ⟨1, _⟩ =>
    -- the indexed axis: the clamped start index alone, no batch and no offset part
    show (colsDims R N E wf).start (ix2 k e) idx 1 + (colsDims R N E wf).batchCoord (ix2 k e) 1
      + (colsDims R N E wf).offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims R N E wf).startIndexMap from List.mem_singleton.mpr rfl)]
    have hsi : (colsDims R N E wf).siIdx (ix2 k e) ⟨List.idxOf (1 : Fin 2) (colsDims R N E wf).startIndexMap,
        List.idxOf_lt_length_iff.2 (List.mem_singleton.mpr rfl)⟩ = ix2 e 0 := by
      funext c; refine Fin.ext ?_
      match c with
      | ⟨0, _⟩ => rfl
      | ⟨1, _⟩ => rfl
    rw [hsi]
    rfl

end Idealize.ShloMosaic.GatherAxis

end
-- ==== Proof.KernelHost.lean ====
/-
  What the kernel's region finds in its two input arrays.

  Before the region the host lays the positions and spins side by side, one row of six numbers per node, turns the
  table on its side (six rows, one column per node), and takes from it, for every edge, the column of the edge's tail
  (into the first array) and of its head (into the second).  The take tests the index against the table's range and
  would fill a column with a junk value where the test fails; where every index is in range the test always passes,
  and column `e` of the first array is the six numbers of node `row e`, of the second those of node `col e`.
-/
import proofs.«410445_j87213605913075_3_alg».proof.Proof.Gen.KernelIdeal.Frame
import proofs.«410445_j87213605913075_3_alg».proof.Proof.Spec
import proofs.«410445_j87213605913075_3_alg».proof.Proof.LibGatherAxis
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Run

noncomputable section

namespace Cert.KernelIdeal.HostStage

open Cert.KernelIdeal Cert.KernelIdeal.Gen Idealize.ShloMosaic Idealize.ShloMosaic.TcCoe Idealize.SL.Sem
open Idealize.ShloMosaic.ValueIdx EdgeHarmonics

/-! ## The host's operations as terms

Each of the two arrays is one composed term over the three arguments: the node table on its side, a row of the edge
list as a flat array of index words, and the take of the table's columns at those words. -/

/-- The node table on its side: positions and spins side by side, six numbers a node, then transposed to six rows
    with one column per node. -/
def table (pos spin : Vec Ideal S50000x3 .f32) : Vec Ideal S6x50000 .f32 :=
  transpose S6x50000 [1, 0]
    (concatenate S50000x6 1 [⟨S50000x3, pos⟩, ⟨S50000x3, spin⟩] Gen.concatenates_S50000x3_S50000x3_S50000x6_d1)
    Gen.transposes_S50000x6_S6x50000_1_0

/-- Row `r` of the edge list (cut out by the slice fact `h`), as a flat array of index words. -/
def edgeRow (r : Nat) (h : S2x1600000.Slices ![r, 0] S1x1600000) (ei : IVec S2x1600000 32) : IVec S1600000 32 :=
  shapeCast S1600000 (extractStridedSlice S1x1600000 ![r, 0] ei h) Gen.shapeCasts_S1x1600000_S1600000

/-- The index words with the negative ones wrapped by the table's length, as a column. -/
def wrapCol (idx : IVec S1600000 32) : IVec S1600000x1 32 :=
  broadcastInDim S1600000x1 ![0] Gen.bcast_S1600000_S1600000x1_0
    (select (cmpi .slt idx (broadcastInDim S1600000 ![] Gen.bcast_S_S1600000 (constantI S_ 32 0#32)))
      (addi idx (broadcastInDim S1600000 ![] Gen.bcast_S_S1600000 (constantI S_ 32 50000#32))) idx)

/-- Per edge, whether the wrapped index lies in the table's range `[0, 49999]`: the two comparisons joined, then
    reduced by `and` across the column's one entry. -/
def inRange (w : IVec S1600000x1 32) : IVec S1600000 1 :=
  Host.reduce IntOp.andi
    (andi (cmpi .sge w (broadcastInDim S1600000x1 ![] Gen.bcast_S_S1600000x1 (constantI S_ 32 0#32)))
      (cmpi .sle w (broadcastInDim S1600000x1 ![0, 1] Gen.bcast_S1x1_S1600000x1_0_1
        (broadcastInDim S1x1 ![1] Gen.bcast_S1_S1x1_1 (constantI S1 32 49999#32)))))
    (constantI S_ 1 1#1) Gen.reducesTo_S1600000x1_S1600000_d1 Gen.h_S_

/-- The take: for every index word the table's column it names, or a column of junk where the range test fails. -/
def take (T : Vec Ideal S6x50000 .f32) (idx : IVec S1600000 32) : Vec Ideal S6x1600000 .f32 :=
  select (broadcastInDim S6x1600000 ![1] Gen.bcast_S1600000_S6x1600000_1 (inRange (wrapCol idx)))
    (Host.gather gather_S6x50000_S1600000x1_S6x1600000_0_1_n_n_1_1_61 T (wrapCol idx))
    (broadcastInDim S6x1600000 ![] Gen.bcast_S_S6x1600000 (constant (F := Ideal) S_ .f32 0x7FC00000#32))

/-! ## Words -/

/-- An index word already in the table's range is left alone by the wrap. -/
theorem wrapWord_of_inRange (x : BitVec 32) (h : 0 ≤ x.toInt ∧ x.toInt < 50000) : wrapWord x = x := by
  unfold wrapWord Scalar.select
  rw [if_neg]
  intro hc
  have := IntOp.cmpi_slt.mp hc
  have h0 : (0#32 : BitVec 32).toInt = 0 := by decide
  omega

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 by decide]
    exact foldl_andi_one f l fun n hn => h n (List.mem_cons_of_mem _ hn)

/-! ## The pieces of the take, read at an index -/

/-- The wrapped column at row `e` is the wrapped word of entry `e`. -/
theorem wrapCol_apply (idx : IVec S1600000 32) (e : Fin 1600000) :
    wrapCol idx (ix2 e 0) = wrapWord (idx (ix1 e)) := by
  unfold wrapCol
  rw [broadcastInDim_apply _ _ _ (ix2 e 0) (ix1 e) (fun a => match a with | ⟨0, _⟩ => rfl)]
  rfl

/-- The only column index that reduces into entry `e` is `(e, 0)`. -/
theorem drop_eq (i : S1600000x1.Idx) (e : Fin 1600000)
    (hi : Shape.ReducesTo.drop Gen.reducesTo_S1600000x1_S1600000_d1 i = ix1 e) : i = ix2 e 0 := by
  rw [eq_ix2 i]
  have h1 : i 1 = (0 : Fin 1) := Fin.ext (by have := idx2_lt1 i; show (i 1).val = 0; omega)
  have h0 : i 0 = e := by
    have := congrFun hi 0
    exact Fin.ext (congrArg Fin.val this)
  rw [h0, h1]
  rfl

/-- Where the wrapped index at `e` is in range the range bit at `e` is set. -/
theorem inRange_apply (w : IVec S1600000x1 32) (e : Fin 1600000)
    (h : 0 ≤ (w (ix2 e 0)).toInt ∧ (w (ix2 e 0)).toInt < 50000) : inRange w (ix1 e) = 1#1 := by
  unfold inRange
  rw [Host.reduce_eq_foldl]
  refine foldl_andi_one _ _ fun i hi => ?_
  have hd := (List.mem_filter.mp hi).2
  obtain rfl := drop_eq i e (of_decide_eq_true hd)
  refine IntOp.andi_eq_one.mpr ⟨IntOp.cmpi_sge.mpr ?_, IntOp.cmpi_sle.mpr ?_⟩
  · show (0#32 : BitVec 32).toInt ≤ _
    have h0 : (0#32 : BitVec 32).toInt = 0 := by decide
    omega
  · show _ ≤ (49999#32 : BitVec 32).toInt
    have h0 : (49999#32 : BitVec 32).toInt = 49999 := by decide
    omega

/-- The range bits spread down the six rows: at `(a, e)` the bit of entry `e`. -/
theorem mask_apply (r : IVec S1600000 1) (a : Fin 6) (e : Fin 1600000) :
    broadcastInDim S6x1600000 ![1] Gen.bcast_S1600000_S6x1600000_1 r (ix2 a e) = r (ix1 e) :=
  broadcastInDim_apply _ _ _ (ix2 a e) (ix1 e) (fun b => match b with | ⟨0, _⟩ => rfl)

/-- The gathered columns at `(a, e)`: row `a` of the table at the column the index word names, clamped. -/
theorem gather_apply (T : Vec Ideal S6x50000 .f32) (w : IVec S1600000x1 32) (a : Fin 6) (e : Fin 1600000) :
    Host.gather gather_S6x50000_S1600000x1_S6x1600000_0_1_n_n_1_1_61 T w (ix2 a e)
      = T (ix2 a ⟨min (w (ix2 e 0)).toInt.toNat 49999, by omega⟩) :=
  GatherAxis.gather_cols_apply (R := 6) (N := 50000) (E := 1600000) (by decide)
    Gen.gather_S6x50000_S1600000x1_S6x1600000_0_1_n_n_1_1_61_wf T w a e

/-- The take at `(a, e)` where entry `e` is in range: row `a` of the table at the column of the node it names. -/
theorem take_apply (T : Vec Ideal S6x50000 .f32) (idx : IVec S1600000 32) (a : Fin 6) (e : Fin 1600000)
    (h : 0 ≤ (idx (ix1 e)).toInt ∧ (idx (ix1 e)).toInt < 50000) :
    take T idx (ix2 a e) = T (ix2 a (nodeOf (idx (ix1 e)))) := by
  have hw : wrapCol idx (ix2 e 0) = idx (ix1 e) := by rw [wrapCol_apply, wrapWord_of_inRange _ h]
  unfold take
  rw [select_apply, mask_apply, inRange_apply _ e (by rw [hw]; exact h), select_one, gather_apply]
  exact congrArg (fun k => T (ix2 a k)) (Fin.ext (by
    show min (wrapCol idx (ix2 e 0)).toInt.toNat 49999 = min (wrapWord (idx (ix1 e))).toInt.toNat 49999
    rw [wrapCol_apply]))

/-! ## The table -/

/-- The positions and spins side by side, at a column among the first three: the position's. -/
theorem concat_left (pos spin : Vec Ideal S50000x3 .f32) (n : Fin 50000) (a : Fin 6) (k : Fin 3) (ha : a.val = k.val) :
    concatenate S50000x6 1 [⟨S50000x3, pos⟩, ⟨S50000x3, spin⟩] Gen.concatenates_S50000x3_S50000x3_S50000x6_d1 (ix2 n a)
      = pos (ix2 n k) :=
  concatenate_pair_apply_left 1 pos spin _ (ix2 n a) rfl (ix2 n k)
    (fun b => match b with | ⟨0, _⟩ => rfl | ⟨1, _⟩ => ha.symm)

/-- … at a column among the last three: the spin's. -/
theorem concat_right (pos spin : Vec Ideal S50000x3 .f32) (n : Fin 50000) (a : Fin 6) (k : Fin 3) (ha : a.val = k.val + 3) :
    concatenate S50000x6 1 [⟨S50000x3, pos⟩, ⟨S50000x3, spin⟩] Gen.concatenates_S50000x3_S50000x3_S50000x6_d1 (ix2 n a)
      = spin (ix2 n k) :=
  concatenate_pair_apply_right 1 pos spin _ (ix2 n a) rfl rfl (ix2 n k)
    (fun b => match b with | ⟨0, _⟩ => fun _ => rfl | ⟨1, _⟩ => fun hb => absurd rfl hb) ha.symm

/-- The table on its side at `(a, n)` is number `a` of node `n`. -/
theorem table_apply (pos spin : Vec Ideal S50000x3 .f32) (a : Fin 6) (n : Fin 50000) :
    table pos spin (ix2 a n) = node6 pos spin n a := by
  unfold table
  rw [transpose_ix2_apply]
  match a with
  | ⟨0, _⟩ => exact concat_left pos spin n _ 0 rfl
  | ⟨1, _⟩ => exact concat_left pos spin n _ 1 rfl
  | ⟨2, _⟩ => exact concat_left pos spin n _ 2 rfl
  | ⟨3, _⟩ => exact concat_right pos spin n _ 0 rfl
  | ⟨4, _⟩ => exact concat_right pos spin n _ 1 rfl
  | ⟨5, _⟩ => exact concat_right pos spin n _ 2 rfl

/-- Row `r` of the edge list at `e`. -/
theorem edgeRow_apply (r : Fin 2) (h : S2x1600000.Slices ![r.val, 0] S1x1600000) (ei : IVec S2x1600000 32) (e : Fin 1600000) :
    edgeRow r.val h ei (ix1 e) = ei (ix2 r e) := by
  unfold edgeRow
  rw [shapeCast_1a_a_apply, slice2_axis0_apply r.val ei h 0 e r (by simp)]

/-- Row 0 of the edge list at `e`: the tail's index word. -/
theorem row0_apply (ei : IVec S2x1600000 32) (e : Fin 1600000) :
    edgeRow 0 Gen.slices_S2x1600000_S1x1600000_0_0 ei (ix1 e) = ei (ix2 0 e) :=
  edgeRow_apply 0 _ ei e

/-- Row 1 of the edge list at `e`: the head's index word. -/
theorem row1_apply (ei : IVec S2x1600000 32) (e : Fin 1600000) :
    edgeRow 1 Gen.slices_S2x1600000_S1x1600000_1_0 ei (ix1 e) = ei (ix2 1 e) :=
  edgeRow_apply 1 _ ei e

/-! ## The two arrays as those terms, and read at an index -/

variable (m : (ℓ : Loc nD τ sig) → Buf (Elt Ideal) ℓ)

/-- What one array holds after the host's line of operations: each operation's result at its own array, the arrays it
    does not write as they were, down to the three arguments. -/
local macro "host_value" : tactic =>
  `(tactic| (
    dsimp only [Gen.V]
    simp only [Gen.hostOps0, Gen.hostOps0_1, Gen.hostOps0_2, List.flatten_cons, List.flatten_nil, List.append_nil,
      List.cons_append, List.nil_append]
    dsimp only [StableHlo.TRef.nullary, StableHlo.TRef.unary, StableHlo.TRef.binary, StableHlo.TRef.ternary,
      StableHlo.TRef.toBuf, StableHlo.TRef.ofBuf, cast_eq]
    open Idealize.ShloMosaic.StableHlo in after_results_simp
    repeat (first
      | (rw [StableHlo.reshape_result_ne]; rotate_left; decide)
      | (rw [StableHlo.unary_result_ne]; rotate_left; decide))
    rfl))

/-- The tails' array is the take of the table at row 0 of the edge list. -/
theorem v6_eq (c : Dev nD) :
    (V (F := Ideal) m c main_v6 : S6x1600000.Idx → EReal)
      = take (table (m ((c : Thread nD τ).loc main_arg0)) (m ((c : Thread nD τ).loc main_arg1)))
          (edgeRow 0 Gen.slices_S2x1600000_S1x1600000_0_0 (m ((c : Thread nD τ).loc main_arg2))) := by
  host_value

/-- The heads' array is the take of the table at row 1 of the edge list. -/
theorem v7_eq (c : Dev nD) :
    (V (F := Ideal) m c main_v7 : S6x1600000.Idx → EReal)
      = take (table (m ((c : Thread nD τ).loc main_arg0)) (m ((c : Thread nD τ).loc main_arg1)))
          (edgeRow 1 Gen.slices_S2x1600000_S1x1600000_1_0 (m ((c : Thread nD τ).loc main_arg2))) := by
  host_value

/-- THE TAILS' ARRAY AT `(a, e)`: where edge `e`'s tail index is in range, number `a` of node `row e`. -/
theorem tail_nodes (c : Dev nD) (a : Fin 6) (e : Fin 1600000)
    (h : 0 ≤ ((m ((c : Thread nD τ).loc main_arg2) : IVec S2x1600000 32) (ix2 0 e)).toInt
      ∧ ((m ((c : Thread nD τ).loc main_arg2) : IVec S2x1600000 32) (ix2 0 e)).toInt < 50000) :
    (V (F := Ideal) m c main_v6 : S6x1600000.Idx → EReal) (ix2 a e)
      = node6 (m ((c : Thread nD τ).loc main_arg0)) (m ((c : Thread nD τ).loc main_arg1))
          (nodeOf ((m ((c : Thread nD τ).loc main_arg2) : IVec S2x1600000 32) (ix2 0 e))) a := by
  rw [v6_eq m c, take_apply _ _ a e (by rw [row0_apply]; exact h), table_apply, row0_apply]

/-- THE HEADS' ARRAY AT `(a, e)`: where edge `e`'s head index is in range, number `a` of node `col e`. -/
theorem head_nodes (c : Dev nD) (a : Fin 6) (e : Fin 1600000)
    (h : 0 ≤ ((m ((c : Thread nD τ).loc main_arg2) : IVec S2x1600000 32) (ix2 1 e)).toInt
      ∧ ((m ((c : Thread nD τ).loc main_arg2) : IVec S2x1600000 32) (ix2 1 e)).toInt < 50000) :
    (V (F := Ideal) m c main_v7 : S6x1600000.Idx → EReal) (ix2 a e)
      = node6 (m ((c : Thread nD τ).loc main_arg0)) (m ((c : Thread nD τ).loc main_arg1))
          (nodeOf ((m ((c : Thread nD τ).loc main_arg2) : IVec S2x1600000 32) (ix2 1 e))) a := by
  rw [v7_eq m c, take_apply _ _ a e (by rw [row1_apply]; exact h), table_apply, row1_apply]

end Cert.KernelIdeal.HostStage

end
-- ==== Proof.KernelBody.lean ====
/-
  What the kernel's body leaves in its output block, index by index.

  At a grid point the body holds two blocks of 6 × 16000 numbers, `x0` (the tails' positions and spins, one column per
  edge) and `x1` (the heads'), and writes a block of 16000 × 27: row `r` is the 27 numbers of the edge whose tail is
  column `r` of `x0` and whose head is column `r` of `x1`, the unit vector taken by the reciprocal of the length.

  The argument has two layers.  LAYOUT: the stored block is 27 columns of height 16000 set side by side, so its entry
  `(r, k)` is entry `r` of column `k`; and row `a` of an input block, read as a vector, has entry `r` equal to the
  block's entry `(a, r)`.  ARITHMETIC: every column is an entrywise expression of rows of `x0` and `x1`, so its entry
  `r` is that expression of the two blocks' column `r` — and it is, operation for operation, the expression
  `EdgeHarmonics.edge27OfNodes` writes down.  No law of arithmetic is used anywhere.
-/
import proofs.«410445_j87213605913075_3_alg».proof.Proof.Gen.KernelIdeal.Frame
import proofs.«410445_j87213605913075_3_alg».proof.Proof.Spec
import Idealize.ShloMosaic.Lib.Pipeline.Value
import Idealize.ShloMosaic.Lib.ValueIdx
import Idealize.ShloMosaic.Lib.ValueLayout

noncomputable section

namespace Cert.KernelIdeal.Body

open Cert.KernelIdeal Cert.KernelIdeal.Gen Idealize.ShloMosaic Idealize.ShloMosaic.ValueIdx EdgeHarmonics

/-! ## Layout -/

/-- The block's zero offsets are the constant zero. -/
theorem offsets_zero : (![0, 0] : Fin 2 → Nat) = fun _ => 0 :=
  funext fun a => match a with | ⟨0, _⟩ => rfl | ⟨1, _⟩ => rfl

/-- A vector of length `a` viewed as a column `[a, 1]` reads, at `(i, u)`, the vector at `i`: both sit at row-major
    position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector of length 16000 viewed as a column reads the vector. -/
theorem column_apply (v : FVec Ideal S16000 .f32) (r : Fin 16000) (u : Fin 1) :
    shapeCast S16000x1 v shapeCasts_S16000_S16000x1 (ix2 r u) = v (ix1 r) :=
  shapeCast_a_a1_apply v _ r u

/-- THE STORED BLOCK IS ITS 27 COLUMNS SIDE BY SIDE: a concatenation along the second axis of 27 pieces of width one
    reads, at `(r, k)`, piece `k` at `(r, 0)`, and that piece is a vector viewed as a column. -/
theorem pay1_apply (v83 v86 v89 v98 v101 v106 v109 v112 v121 v124 v129 : FVec Ideal S16000 .f32)
    (w0 w1 w2 w3 w4 w5 w6 w7 w8 w9 w10 w11 w12 w13 w14 w15 : FVec Ideal S16000 .f32) (r : Fin 16000) (k : Fin 27) :
    k0_pay1 v83 v86 v89 v98 v101 v106 v109 v112 v121 v124 v129 (k0_pay45 w0) (k0_pay46 w1) (k0_pay47 w2) (k0_pay48 w3)
        (k0_pay49 w4) (k0_pay50 w5) (k0_pay51 w6) (k0_pay52 w7) (k0_pay53 w8) (k0_pay54 w9) (k0_pay55 w10) (k0_pay56 w11)
        (k0_pay57 w12) (k0_pay58 w13) (k0_pay59 w14) (k0_pay60 w15) (ix2 r k)
      = ![w0, w1, w2, w3, w4, w5, w6, w7, w8, w9, w10, w11, w12, w13, w14, w15,
          v83, v86, v89, v98, v101, v106, v109, v112, v121, v124, v129] k (ix1 r) := by
  unfold k0_pay1
  show concatenate S16000x27 1 (List.ofFn fun n : Fin 27 => (⟨S16000x1, shapeCast S16000x1
      (![w0, w1, w2, w3, w4, w5, w6, w7, w8, w9, w10, w11, w12, w13, w14, w15,
          v83, v86, v89, v98, v101, v106, v109, v112, v121, v124, v129] n) shapeCasts_S16000_S16000x1⟩ :
        (s : Shape) × (s.Idx → EReal))) _ (ix2 r k) = _
  refine (concatenate_ofFn_unit_apply (t := S16000x27) (s₁ := S16000x1) 1 _ _ rfl rfl (ix2 r k) k rfl (ix2 r 0)
    (fun b hb => match b with | ⟨0, _⟩ => rfl | ⟨1, _⟩ => (hb (Fin.ext rfl)).elim)).trans ?_
  exact column_apply _ r 0

/-- ROW `a` OF AN INPUT BLOCK, cut out as `[1, 16000]` and read as a vector, is at `r` the block at `(a, r)`. -/
theorem row_apply (x : Vec Ideal S6x16000 .f32) (a : Nat) (ha : a < 6) (hs : S6x16000.Slices ![a, 0] S1x16000)
    (r : Fin 16000) :
    shapeCast S16000 (extractStridedSlice S1x16000 ![a, 0] (shapeCast S6x16000 x shapeCasts_S6x16000_S6x16000) hs)
      shapeCasts_S1x16000_S16000 (ix1 r) = x (ix2 ⟨a, ha⟩ r) :=
  (shapeCast_1a_a_apply _ _ r).trans ((slice2_axis0_apply a _ hs 0 r ⟨a, ha⟩ rfl).trans (by rw [shapeCast_self]))

/-- The difference of row `a` of the heads' block and row `a` of the tails'. -/
theorem rowDiff_apply (x0 x1 : Vec Ideal S6x16000 .f32) (a : Nat) (ha : a < 6) (hs : S6x16000.Slices ![a, 0] S1x16000)
    (r : Fin 16000) :
    subf (F := Ideal) (φ := .f32)
        (shapeCast S16000 (extractStridedSlice S1x16000 ![a, 0] (shapeCast S6x16000 x1 shapeCasts_S6x16000_S6x16000) hs)
          shapeCasts_S1x16000_S16000)
        (shapeCast S16000 (extractStridedSlice S1x16000 ![a, 0] (shapeCast S6x16000 x0 shapeCasts_S6x16000_S6x16000) hs)
          shapeCasts_S1x16000_S16000) (ix1 r)
      = x1 (ix2 ⟨a, ha⟩ r) - x0 (ix2 ⟨a, ha⟩ r) :=
  congrArg₂ (· - ·) (row_apply x1 a ha hs r) (row_apply x0 a ha hs r)

/-! ## The rows the columns are made of -/

section Rows
variable (x0 x1 : Vec Ideal S6x16000 .f32) (r : Fin 16000)

/-- The tail's spin, rows 3, 4, 5 of `x0`. -/
theorem tail3 : k0_pay4 (F := Ideal) x0 (ix1 r) = x0 (ix2 3 r) := row_apply x0 3 (by decide) _ r
theorem tail4 : k0_pay5 (F := Ideal) x0 (ix1 r) = x0 (ix2 4 r) := row_apply x0 4 (by decide) _ r
theorem tail5 : k0_pay6 (F := Ideal) x0 (ix1 r) = x0 (ix2 5 r) := row_apply x0 5 (by decide) _ r
/-- The head's spin, rows 3, 4, 5 of `x1`. -/
theorem head3 : k0_pay7 (F := Ideal) x1 (ix1 r) = x1 (ix2 3 r) := row_apply x1 3 (by decide) _ r
theorem head4 : k0_pay8 (F := Ideal) x1 (ix1 r) = x1 (ix2 4 r) := row_apply x1 4 (by decide) _ r
theorem head5 : k0_pay9 (F := Ideal) x1 (ix1 r) = x1 (ix2 5 r) := row_apply x1 5 (by decide) _ r

/-- The edge's vector at column `r`: the head's position less the tail's. -/
abbrev edgeVec : Fin 3 → EReal :=
  ![x1 (ix2 0 r) - x0 (ix2 0 r), x1 (ix2 1 r) - x0 (ix2 1 r), x1 (ix2 2 r) - x0 (ix2 2 r)]

/-- Its three coordinates, rows 0, 1, 2 of `x1` less those of `x0`. -/
theorem diff0 : k0_pay10 (F := Ideal) x0 x1 (ix1 r) = x1 (ix2 0 r) - x0 (ix2 0 r) :=
  rowDiff_apply x0 x1 0 (by decide) _ r
theorem diff1 : k0_pay11 (F := Ideal) x0 x1 (ix1 r) = x1 (ix2 1 r) - x0 (ix2 1 r) :=
  rowDiff_apply x0 x1 1 (by decide) _ r
theorem diff2 : k0_pay12 (F := Ideal) x0 x1 (ix1 r) = x1 (ix2 2 r) - x0 (ix2 2 r) :=
  rowDiff_apply x0 x1 2 (by decide) _ r

/-- The reciprocal of its length: one over the root of the squares summed left to right. -/
theorem recip_apply : k0_pay13 (F := Ideal) x0 x1 (ix1 r)
    = Ideal.div (Ideal.ofBits .f32 0x3F800000#32) (Ideal.sqrt (sqLen (edgeVec x0 x1 r))) := by
  show Ideal.div (Ideal.ofBits .f32 0x3F800000#32) (Ideal.sqrt
    (k0_pay10 x0 x1 (ix1 r) * k0_pay10 x0 x1 (ix1 r) + k0_pay11 x0 x1 (ix1 r) * k0_pay11 x0 x1 (ix1 r)
      + k0_pay12 x0 x1 (ix1 r) * k0_pay12 x0 x1 (ix1 r))) = _
  rw [diff0, diff1, diff2]
  rfl

/-- The unit vector along the edge, each coordinate times that reciprocal. -/
theorem unit0 : k0_pay14 (F := Ideal) x0 x1 (ix1 r) = directionRecip (edgeVec x0 x1 r) 0 := by
  show k0_pay10 x0 x1 (ix1 r) * k0_pay13 x0 x1 (ix1 r) = _
  rw [diff0, recip_apply]
  rfl
theorem unit1 : k0_pay15 (F := Ideal) x0 x1 (ix1 r) = directionRecip (edgeVec x0 x1 r) 1 := by
  show k0_pay11 x0 x1 (ix1 r) * k0_pay13 x0 x1 (ix1 r) = _
  rw [diff1, recip_apply]
  rfl
theorem unit2 : k0_pay16 (F := Ideal) x0 x1 (ix1 r) = directionRecip (edgeVec x0 x1 r) 2 := by
  show k0_pay12 x0 x1 (ix1 r) * k0_pay13 x0 x1 (ix1 r) = _
  rw [diff2, recip_apply]
  rfl

end Rows

/-! ## The block -/

/-- THE BODY'S OUTPUT BLOCK AT `(r, k)`: number `k` of the edge whose tail's six numbers are column `r` of `x0` and
    whose head's are column `r` of `x1`. -/
theorem out_apply (x0 x1 : Vec Ideal S6x16000 .f32) (r : Fin 16000) (k : Fin 27) :
    out0_2 (F := Ideal) x0 x1 (ix2 r k) = edge27OfNodes (fun a => x0 (ix2 a r)) (fun a => x1 (ix2 a r)) k := by
  unfold out0_2
  rw [View.canon_unit_zero offsets_zero]
  simp only [View.ld_unit_zero (S := S6x16000) offsets_zero]
  rw [pay1_apply]
  match k with
  -- degree 0: the constant, three times
  | ⟨0, _⟩ => rfl
  | ⟨1, _⟩ => rfl
  | ⟨2, _⟩ => rfl
  -- degree 1 of the unit vector: √3 · n
  | ⟨3, _⟩ =>
    show Ideal.ofBits .f32 0x3FDDB3D7#32 * k0_pay14 x0 x1 (ix1 r) = _
    rw [unit0]; rfl
  | ⟨4, _⟩ =>
    show Ideal.ofBits .f32 0x3FDDB3D7#32 * k0_pay15 x0 x1 (ix1 r) = _
    rw [unit1]; rfl
  | ⟨5, _⟩ =>
    show Ideal.ofBits .f32 0x3FDDB3D7#32 * k0_pay16 x0 x1 (ix1 r) = _
    rw [unit2]; rfl
  -- degree 1 of the head's spin
  | ⟨6, _⟩ =>
    show Ideal.ofBits .f32 0x3FDDB3D7#32 * k0_pay7 x1 (ix1 r) = _
    rw [head3]; rfl
  | ⟨7, _⟩ =>
    show Ideal.ofBits .f32 0x3FDDB3D7#32 * k0_pay8 x1 (ix1 r) = _
    rw [head4]; rfl
  | ⟨8, _⟩ =>
    show Ideal.ofBits .f32 0x3FDDB3D7#32 * k0_pay9 x1 (ix1 r) = _
    rw [head5]; rfl
  -- degree 1 of the tail's spin
  | ⟨9, _⟩ =>
    show Ideal.ofBits .f32 0x3FDDB3D7#32 * k0_pay4 x0 (ix1 r) = _
    rw [tail3]; rfl
  | ⟨10, _⟩ =>
    show Ideal.ofBits .f32 0x3FDDB3D7#32 * k0_pay5 x0 (ix1 r) = _
    rw [tail4]; rfl
  | ⟨11, _⟩ =>
    show Ideal.ofBits .f32 0x3FDDB3D7#32 * k0_pay6 x0 (ix1 r) = _
    rw [tail5]; rfl
  -- degree 2 of the unit vector: √15·x·z, √15·x·y, √5·(y² − ½(x² + z²)), √15·y·z, (√15/2)·(z² − x²)
  | ⟨12, _⟩ =>
    show Ideal.ofBits .f32 0x4077DEF6#32 * k0_pay14 x0 x1 (ix1 r) * k0_pay16 x0 x1 (ix1 r) = _
    rw [unit0, unit2]; rfl
  | ⟨13, _⟩ =>
    show Ideal.ofBits .f32 0x4077DEF6#32 * k0_pay14 x0 x1 (ix1 r) * k0_pay15 x0 x1 (ix1 r) = _
    rw [unit0, unit1]; rfl
  | ⟨14, _⟩ =>
    show Ideal.ofBits .f32 0x400F1BBD#32 * (k0_pay15 x0 x1 (ix1 r) * k0_pay15 x0 x1 (ix1 r)
      - Ideal.ofBits .f32 0x3F000000#32 * (k0_pay14 x0 x1 (ix1 r) * k0_pay14 x0 x1 (ix1 r)
        + k0_pay16 x0 x1 (ix1 r) * k0_pay16 x0 x1 (ix1 r))) = _
    rw [unit0, unit1, unit2]; rfl
  | ⟨15, _⟩ =>
    show Ideal.ofBits .f32 0x4077DEF6#32 * k0_pay15 x0 x1 (ix1 r) * k0_pay16 x0 x1 (ix1 r) = _
    rw [unit1, unit2]; rfl
  | ⟨16, _⟩ =>
    show Ideal.ofBits .f32 0x3FF7DEF6#32 * (k0_pay16 x0 x1 (ix1 r) * k0_pay16 x0 x1 (ix1 r)
      - k0_pay14 x0 x1 (ix1 r) * k0_pay14 x0 x1 (ix1 r)) = _
    rw [unit0, unit2]; rfl
  -- degree 2 of the head's spin
  | ⟨17, _⟩ =>
    show Ideal.ofBits .f32 0x4077DEF6#32 * k0_pay7 x1 (ix1 r) * k0_pay9 x1 (ix1 r) = _
    rw [head3, head5]; rfl
  | ⟨18, _⟩ =>
    show Ideal.ofBits .f32 0x4077DEF6#32 * k0_pay7 x1 (ix1 r) * k0_pay8 x1 (ix1 r) = _
    rw [head3, head4]; rfl
  | ⟨19, _⟩ =>
    show Ideal.ofBits .f32 0x400F1BBD#32 * (k0_pay8 x1 (ix1 r) * k0_pay8 x1 (ix1 r)
      - Ideal.ofBits .f32 0x3F000000#32 * (k0_pay7 x1 (ix1 r) * k0_pay7 x1 (ix1 r)
        + k0_pay9 x1 (ix1 r) * k0_pay9 x1 (ix1 r))) = _
    rw [head3, head4, head5]; rfl
  | ⟨20, _⟩ =>
    show Ideal.ofBits .f32 0x4077DEF6#32 * k0_pay8 x1 (ix1 r) * k0_pay9 x1 (ix1 r) = _
    rw [head4, head5]; rfl
  | ⟨21, _⟩ =>
    show Ideal.ofBits .f32 0x3FF7DEF6#32 * (k0_pay9 x1 (ix1 r) * k0_pay9 x1 (ix1 r)
      - k0_pay7 x1 (ix1 r) * k0_pay7 x1 (ix1 r)) = _
    rw [head3, head5]; rfl
  -- degree 2 of the tail's spin
  | ⟨22, _⟩ =>
    show Ideal.ofBits .f32 0x4077DEF6#32 * k0_pay4 x0 (ix1 r) * k0_pay6 x0 (ix1 r) = _
    rw [tail3, tail5]; rfl
  | ⟨23, _⟩ =>
    show Ideal.ofBits .f32 0x4077DEF6#32 * k0_pay4 x0 (ix1 r) * k0_pay5 x0 (ix1 r) = _
    rw [tail3, tail4]; rfl
  | ⟨24, _⟩ =>
    show Ideal.ofBits .f32 0x400F1BBD#32 * (k0_pay5 x0 (ix1 r) * k0_pay5 x0 (ix1 r)
      - Ideal.ofBits .f32 0x3F000000#32 * (k0_pay4 x0 (ix1 r) * k0_pay4 x0 (ix1 r)
        + k0_pay6 x0 (ix1 r) * k0_pay6 x0 (ix1 r))) = _
    rw [tail3, tail4, tail5]; rfl
  | ⟨25, _⟩ =>
    show Ideal.ofBits .f32 0x4077DEF6#32 * k0_pay5 x0 (ix1 r) * k0_pay6 x0 (ix1 r) = _
    rw [tail4, tail5]; rfl
  | ⟨26, _⟩ =>
    show Ideal.ofBits .f32 0x3FF7DEF6#32 * (k0_pay6 x0 (ix1 r) * k0_pay6 x0 (ix1 r)
      - k0_pay4 x0 (ix1 r) * k0_pay4 x0 (ix1 r)) = _
    rw [tail3, tail5]; rfl
  | ⟨_ + 27, h⟩ => exact absurd h (Nat.not_lt.2 (Nat.le_add_left _ _))

end Cert.KernelIdeal.Body

end
-- ==== Proof.PreFacts.lean ====
/-
  What the precondition says, decoded.

  The precondition is a printed chain of operations ending in one bit.  That bit is 1 exactly when five things
  hold at once: every position and every spin is finite; every index word, read as a signed number, lies in
  `[0, 50000)`; and for every edge the squared length of `pos (col e) − pos (row e)` is positive.  The last two are
  what the value claim needs: the first keeps every gather inside its table (so that the kernel's range test passes
  and its fill value is never read), the second keeps the length away from zero (so that dividing by it and
  multiplying by its reciprocal agree).
-/
import proofs.«410445_j87213605913075_3_alg».proof.Pre_finite_inputs
import proofs.«410445_j87213605913075_3_alg».proof.Proof.Gen.Pre_finite_inputs
import proofs.«410445_j87213605913075_3_alg».proof.Proof.Spec
import proofs.«410445_j87213605913075_3_alg».proof.Proof.LibGatherAxis
import Idealize.ShloMosaic.Lib.ReduceAll
import Idealize.ShloMosaic.Lib.ValueIdx
import Idealize.ShloMosaic.Lib.ValueLayout
import Idealize.ShloMosaic.Lib.IdealHost
import Idealize.ShloMosaic.Lib.StableHlo.Predicate
import Idealize.ShloMosaic.PureOps.Ideal.Laws

noncomputable section

namespace Cert.Pre_finite_inputs.Decode

open Cert.Pre_finite_inputs Idealize.ShloMosaic Idealize.ShloMosaic.ValueIdx EdgeHarmonics

variable [Facts]

/-- The scalar shape has one index. -/
theorem subsingleton_scalarIdx : Subsingleton S_.Idx := ⟨fun a b => funext fun d => d.elim0⟩

/-! ## Reading the index words -/

/-- Row `k` of the index table, cut out and flattened, reads at `e` the word `ei[k, e]`. -/
theorem rowWords_apply (ei : IVec S2x1600000 32) (o : Nat) (k : Fin 2) (hk : k.val = o)
    (hs : S2x1600000.Slices ![o, 0] S1x1600000) (hc : S1x1600000.ShapeCasts S1600000) (e : Fin 1600000) :
    shapeCast S1600000 (extractStridedSlice S1x1600000 ![o, 0] ei hs) hc (ix1 e) = ei (ix2 k e) := by
  rw [shapeCast_1a_a_apply]
  exact slice2_axis0_apply o ei hs 0 e k (by rw [hk]; rfl)

/-- The subscript rule, word by word: a negative word has 50000 added, any other is kept. -/
theorem wrapped_apply (w : IVec S1600000 32) (hb : S_.BroadcastsInDim S1600000 (![] : Fin 0 → Fin S1600000.rank))
    (i : S1600000.Idx) :
    select (cmpi .slt w (broadcastInDim S1600000 ![] hb (constantI S_ 32 0#32)))
      (addi w (broadcastInDim S1600000 ![] hb (constantI S_ 32 50000#32))) w i = wrapWord (w i) := rfl

/-- A vector stood up as a one-column table reads at `(e, 0)` its entry `e`. -/
theorem column_apply {α : Type} (v : S1600000.Idx → α)
    (hb : S1600000.BroadcastsInDim S1600000x1 (![0] : Fin 1 → Fin S1600000x1.rank)) (e : Fin 1600000) :
    broadcastInDim S1600000x1 ![0] hb v (ix2 e 0) = v (ix1 e) :=
  broadcastInDim_apply _ _ _ _ _ (fun a => by
    match a with
    | ⟨0, _⟩ => rfl)

/-! ## The edge vector -/

/-- The gathered row for the word vector `w`, read at `(e, a)`: the table at the node `w e` names, coordinate `a`. -/
theorem gathered_apply (pos : FVec Ideal S50000x3 .f32) (w : IVec S1600000 32)
    (hb0 : S_.BroadcastsInDim S1600000 (![] : Fin 0 → Fin S1600000.rank))
    (hb : S1600000.BroadcastsInDim S1600000x1 (![0] : Fin 1 → Fin S1600000x1.rank)) (e : Fin 1600000) (a : Fin 3) :
    Host.gather gather_S50000x3_S1600000x1_S1600000x3_1_0_n_n_0_1_13 pos
      (broadcastInDim S1600000x1 ![0] hb
        (select (cmpi .slt w (broadcastInDim S1600000 ![] hb0 (constantI S_ 32 0#32)))
          (addi w (broadcastInDim S1600000 ![] hb0 (constantI S_ 32 50000#32))) w)) (ix2 e a)
      = pos (ix2 (nodeOf (w (ix1 e))) a) := by
  have hg := GatherAxis.gather_rows_apply (N := 50000) (C := 3) (E := 1600000) (by decide)
    Facts.gather_S50000x3_S1600000x1_S1600000x3_1_0_n_n_0_1_13_wf pos
    (broadcastInDim S1600000x1 ![0] hb
      (select (cmpi .slt w (broadcastInDim S1600000 ![] hb0 (constantI S_ 32 0#32)))
        (addi w (broadcastInDim S1600000 ![] hb0 (constantI S_ 32 50000#32))) w)) e a
  refine hg.trans (congrArg (fun n => pos (ix2 n a)) (Fin.ext ?_))
  show min (broadcastInDim S1600000x1 ![0] hb
      (select (cmpi .slt w (broadcastInDim S1600000 ![] hb0 (constantI S_ 32 0#32)))
        (addi w (broadcastInDim S1600000 ![] hb0 (constantI S_ 32 50000#32))) w) (ix2 e 0)).toInt.toNat (50000 - 1)
    = min (wrapWord (w (ix1 e))).toInt.toNat 49999
  rw [column_apply, wrapped_apply]

/-! ## The squared length -/

/-- The index the sum over the second axis inserts at `e` is `(e, a)`. -/
theorem lift_eq (hR : S1600000x3.Reduces [1] S1600000) (e : Fin 1600000) (a : Fin 3) :
    hR.lift (ix1 e) a = ix2 e a := by
  funext b
  match b with
  | ⟨0, _⟩ => exact Fin.ext rfl
  | ⟨1, _⟩ => exact Fin.ext rfl

/-- The squares of a `[E, 3]` table summed along its rows, from zero: at `e` the squared length of row `e`. -/
theorem sumSq_apply (v : FVec Ideal S1600000x3 .f32) (hr : S1600000x3.ReducesTo [1] S1600000) (hu : 0 < S_.numel)
    (e : Fin 1600000) :
    Host.reduceAdd (mulf v v) (constant S_ .f32 0x00000000#32) hr hu (ix1 e) = sqLen fun a => v (ix2 e a) := by
  have hR : S1600000x3.Reduces [1] S1600000 := by decide
  rw [hostReduceAdd_apply, Ideal.hostReduceAdd_single hr hR, constant_apply, Ideal.ofBits_zero_f32, zero_add]
  show ∑ k : Fin 3, mulf v v (hR.lift (ix1 e) k) = _
  rw [Fin.sum_univ_three, lift_eq, lift_eq, lift_eq]
  rfl

/-- The printed table of edge vectors: row `e` is the table's row for the wrapped head word minus its row for the
    wrapped tail word. -/
def edgeTable (pos : FVec Ideal S50000x3 .f32) (ei : IVec S2x1600000 32) : FVec Ideal S1600000x3 .f32 :=
  subf
    (Host.gather gather_S50000x3_S1600000x1_S1600000x3_1_0_n_n_0_1_13 pos
      (broadcastInDim S1600000x1 ![0] Facts.bcast_S1600000_S1600000x1_0
        (select
          (cmpi .slt
            (shapeCast S1600000 (extractStridedSlice S1x1600000 ![1, 0] ei Facts.slices_S2x1600000_S1x1600000_1_0)
              Facts.shapeCasts_S1x1600000_S1600000)
            (broadcastInDim S1600000 ![] Facts.bcast_S_S1600000 (constantI S_ 32 0#32)))
          (addi
            (shapeCast S1600000 (extractStridedSlice S1x1600000 ![1, 0] ei Facts.slices_S2x1600000_S1x1600000_1_0)
              Facts.shapeCasts_S1x1600000_S1600000)
            (broadcastInDim S1600000 ![] Facts.bcast_S_S1600000 (constantI S_ 32 50000#32)))
          (shapeCast S1600000 (extractStridedSlice S1x1600000 ![1, 0] ei Facts.slices_S2x1600000_S1x1600000_1_0)
            Facts.shapeCasts_S1x1600000_S1600000))))
    (Host.gather gather_S50000x3_S1600000x1_S1600000x3_1_0_n_n_0_1_13 pos
      (broadcastInDim S1600000x1 ![0] Facts.bcast_S1600000_S1600000x1_0
        (select
          (cmpi .slt
            (shapeCast S1600000 (extractStridedSlice S1x1600000 ![0, 0] ei Facts.slices_S2x1600000_S1x1600000_0_0)
              Facts.shapeCasts_S1x1600000_S1600000)
            (broadcastInDim S1600000 ![] Facts.bcast_S_S1600000 (constantI S_ 32 0#32)))
          (addi
            (shapeCast S1600000 (extractStridedSlice S1x1600000 ![0, 0] ei Facts.slices_S2x1600000_S1x1600000_0_0)
              Facts.shapeCasts_S1x1600000_S1600000)
            (broadcastInDim S1600000 ![] Facts.bcast_S_S1600000 (constantI S_ 32 50000#32)))
          (shapeCast S1600000 (extractStridedSlice S1x1600000 ![0, 0] ei Facts.slices_S2x1600000_S1x1600000_0_0)
            Facts.shapeCasts_S1x1600000_S1600000))))

/-- Row `e` of the printed table IS edge `e`'s vector: the position of the node its head word names minus that of the
    node its tail word names. -/
theorem edgeTable_apply (pos : FVec Ideal S50000x3 .f32) (ei : IVec S2x1600000 32) (e : Fin 1600000) (a : Fin 3) :
    edgeTable pos ei (ix2 e a)
      = pos (ix2 (nodeOf (ei (ix2 1 e))) a) - pos (ix2 (nodeOf (ei (ix2 0 e))) a) := by
  unfold edgeTable
  rw [subf_apply, gathered_apply, gathered_apply, rowWords_apply ei 1 1 rfl, rowWords_apply ei 0 0 rfl]

/-- The summed squares of row `e` of the printed table are edge `e`'s squared length. -/
theorem sumSq_edgeTable (pos : FVec Ideal S50000x3 .f32) (ei : IVec S2x1600000 32)
    (hr : S1600000x3.ReducesTo [1] S1600000) (hu : 0 < S_.numel) (e : Fin 1600000) :
    Host.reduceAdd (mulf (edgeTable pos ei) (edgeTable pos ei)) (constant S_ .f32 0x00000000#32) hr hu (ix1 e)
      = edgeSqLen pos ei e := by
  rw [sumSq_apply]
  unfold edgeSqLen
  exact congrArg sqLen (funext fun a => edgeTable_apply pos ei e a)

/-! ## The precondition opened -/

/-- The last three of the precondition's five conjuncts, each read element by element: every index word tests at
    least 0, every index word tests below 50000, and every edge's summed squares test greater than 0. -/
theorem tests (pos spin : FVec Ideal S50000x3 .f32) (ei : IVec S2x1600000 32)
    (h : fn (F := Ideal) pos spin ei = fun _ => 1#1) :
    (∀ i, IntOp.cmpi .sge (ei i) 0#32 = 1#1) ∧ (∀ i, IntOp.cmpi .slt (ei i) 50000#32 = 1#1) ∧
      ∀ e : Fin 1600000, cmpf .ogt
        (Host.reduceAdd (mulf (edgeTable pos ei) (edgeTable pos ei)) (constant S_ .f32 0x00000000#32)
          Facts.reducesTo_S1600000x3_S1600000_d1 Facts.h_S_)
        (broadcastInDim S1600000 ![] Facts.bcast_S_S1600000 (constant S_ .f32 0x00000000#32)) (ix1 e) = 1#1 := by
  haveI := subsingleton_scalarIdx
  have h0 := congrFun h ix0
  dsimp only [fn, fn_part1, fn_part2] at h0
  obtain ⟨h1, hE⟩ := IntOp.andi_eq_one.1 h0
  obtain ⟨h2, hD⟩ := IntOp.andi_eq_one.1 h1
  obtain ⟨_, hC⟩ := IntOp.andi_eq_one.1 h2
  have hge := fun i => Host.reduce_andi_all _ _ _ _ _ hC i
  have hlt := fun i => Host.reduce_andi_all _ _ _ _ _ hD i
  have hpos := fun i => Host.reduce_andi_all _ _ _ _ _ hE i
  exact ⟨hge, hlt, fun e => hpos (ix1 e)⟩

/-- EVERY INDEX WORD IS IN RANGE: under the precondition, `0 ≤ ei[k, e] < 50000` as signed numbers. -/
theorem index_range (pos spin : FVec Ideal S50000x3 .f32) (ei : IVec S2x1600000 32)
    (h : fn (F := Ideal) pos spin ei = fun _ => 1#1) (k : Fin 2) (e : Fin 1600000) :
    0 ≤ (ei (ix2 k e)).toInt ∧ (ei (ix2 k e)).toInt < 50000 := by
  obtain ⟨hge, hlt, _⟩ := tests pos spin ei h
  have h0 : (0#32 : BitVec 32).toInt = 0 := by decide
  have h5 : (50000#32 : BitVec 32).toInt = 50000 := by decide
  exact ⟨h0 ▸ IntOp.cmpi_sge.1 (hge (ix2 k e)), h5 ▸ IntOp.cmpi_slt.1 (hlt (ix2 k e))⟩

/-- NO EDGE HAS LENGTH ZERO: under the precondition, the squared length of every edge vector is positive. -/
theorem edge_nonzero (pos spin : FVec Ideal S50000x3 .f32) (ei : IVec S2x1600000 32)
    (h : fn (F := Ideal) pos spin ei = fun _ => 1#1) (e : Fin 1600000) :
    0 < edgeSqLen pos ei e := by
  obtain ⟨_, _, hpos⟩ := tests pos spin ei h
  have he := hpos e
  rw [cmpf_apply, sumSq_edgeTable, broadcastInDim_scalar_apply, constant_apply, Ideal.ofBits_zero_f32,
    Ideal.cmpf_def] at he
  exact of_decide_eq_true ((StableHlo.Predicate.ofBool_eq_one_iff _).1 he)

end Cert.Pre_finite_inputs.Decode

end
-- ==== Proof.KernelArray.lean ====
/-
  The kernel's result array as one function of its arguments, under the precondition.

  The grid has 100 points; point `t` writes rows `16000·t … 16000·t + 15999` of the result, row `r` of its block
  being the 27 numbers of edge `16000·t + r`, computed from column `r` of the two input blocks, which are columns
  `16000·t + r` of the two arrays the host gathered.  The blocks tile the result, so the whole array is the edge
  harmonics — where every index is in range (the gathered columns are then the nodes' six numbers) and no edge has
  length zero (multiplying by the reciprocal of the length is then dividing by it).
-/
import proofs.«410445_j87213605913075_3_alg».proof.Proof.Gen.KernelIdeal.Value
import proofs.«410445_j87213605913075_3_alg».proof.Proof.KernelHost
import proofs.«410445_j87213605913075_3_alg».proof.Proof.KernelBody
import proofs.«410445_j87213605913075_3_alg».proof.Proof.PreFacts
import proofs.«410445_j87213605913075_3_alg».proof.Proof.Spec
import Idealize.ShloMosaic.Lib.Pipeline.Value
import Idealize.ShloMosaic.Lib.ValueIdx

noncomputable section

namespace Cert.KernelIdeal.EdgeValue

open Cert.KernelIdeal Cert.KernelIdeal.Gen Idealize.ShloMosaic Idealize.ShloMosaic.TcCoe Idealize.SL.Sem
open Idealize.ShloMosaic.Pipeline (Dat)
open Idealize.ShloMosaic.ValueIdx EdgeHarmonics

/-! ## One edge, from its two nodes -/

/-- From the six numbers of its tail and of its head an edge's 27 numbers are the harmonics of the unit edge vector and
    of the two spins — off a zero length, where the reciprocal of the length may stand for the division. -/
theorem edge27OfNodes_node6 (pos spin : (⟨2, ![50000, 3]⟩ : Shape).Idx → EReal) (nr nc : Fin 50000)
    (h : 0 < sqLen fun a => pos (ix2 nc a) - pos (ix2 nr a)) :
    edge27OfNodes (node6 pos spin nr) (node6 pos spin nc)
      = edge27 (direction fun a => pos (ix2 nc a) - pos (ix2 nr a)) (fun a => spin (ix2 nc a)) (fun a => spin (ix2 nr a)) := by
  have e1 : (![node6 pos spin nc 0 - node6 pos spin nr 0, node6 pos spin nc 1 - node6 pos spin nr 1,
      node6 pos spin nc 2 - node6 pos spin nr 2] : Fin 3 → EReal) = fun a => pos (ix2 nc a) - pos (ix2 nr a) := by
    funext a; fin_cases a <;> rfl
  have e2 : (![node6 pos spin nc 3, node6 pos spin nc 4, node6 pos spin nc 5] : Fin 3 → EReal) = fun a => spin (ix2 nc a) := by
    funext a; fin_cases a <;> rfl
  have e3 : (![node6 pos spin nr 3, node6 pos spin nr 4, node6 pos spin nr 5] : Fin 3 → EReal) = fun a => spin (ix2 nr a) := by
    funext a; fin_cases a <;> rfl
  unfold edge27OfNodes
  rw [e1, e2, e3, directionRecip_eq _ h]

/-! ## The blocks -/

variable (m : (ℓ : Loc nD τ sig) → Buf (Elt Ideal) ℓ) (ρ : Dev nD → PrngReg)

/-- The three index maps over the 100 grid points: the inputs' blocks move along their long axis with the point, the
    output's along its rows. -/
theorem block_index : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = t.val ∧ win0_2.index t (1 : Fin 2) = 0 :=
  (by decide +kernel : ∀ t : Fin grid0.N, _)

theorem points : cfg0.N = 100 := N_0

/-- Point `t`'s block of a 6 × 1600000 array `A` staged through input window 0, read at `(a, r)`, is `A` at column
    `16000·t + r`: the window's blocks move along the long axis with the point. -/
theorem block0_read (c : Dev nD) (A : Buf (Elt Ideal) ((c : Thread nD τ).loc main_v6)) (t : Fin cfg0.N) (a : Fin 6)
    (r : Fin 16000) (e : Fin 1600000) (he : e.val = 16000 * t.val + r.val) :
    ((cfg0.win 0).blk t).view.read (Elt Ideal) A (ix2 a r) = A (ix2 a e) := by
  obtain ⟨h0, h1, -⟩ := block_index t
  rw [View.read_apply]
  refine congrArg A ?_
  funext b
  apply Fin.ext
  match b with
  | ⟨0, _⟩ => show win0_0.index t (0 : Fin 2) * 6 + 1 * a.val = a.val; rw [h0]; omega
  | ⟨1, _⟩ => show win0_0.index t (1 : Fin 2) * 16000 + 1 * r.val = e.val; rw [h1, he]; omega

/-- The same through input window 1. -/
theorem block1_read (c : Dev nD) (A : Buf (Elt Ideal) ((c : Thread nD τ).loc main_v7)) (t : Fin cfg0.N) (a : Fin 6)
    (r : Fin 16000) (e : Fin 1600000) (he : e.val = 16000 * t.val + r.val) :
    ((cfg0.win 1).blk t).view.read (Elt Ideal) A (ix2 a r) = A (ix2 a e) := by
  obtain ⟨-, -, h0, h1, -⟩ := block_index t
  rw [View.read_apply]
  refine congrArg A ?_
  funext b
  apply Fin.ext
  match b with
  | ⟨0, _⟩ => show win0_1.index t (0 : Fin 2) * 6 + 1 * a.val = a.val; rw [h0]; omega
  | ⟨1, _⟩ => show win0_1.index t (1 : Fin 2) * 16000 + 1 * r.val = e.val; rw [h1, he]; omega

/-- Column `r` of point `t`'s block of the tails' array is column `16000·t + r` of that array. -/
theorem tail_block (c : Dev nD) (t : Fin cfg0.N) (a : Fin 6) (r : Fin 16000) (e : Fin 1600000)
    (he : e.val = 16000 * t.val + r.val) :
    (iblk m c 0 t : Vec Ideal S6x16000 .f32) (ix2 a r) = (V (F := Ideal) m c main_v6 : S6x1600000.Idx → EReal) (ix2 a e) :=
  block0_read c (V (F := Ideal) m c main_v6) t a r e he

/-- The same for the heads' array. -/
theorem head_block (c : Dev nD) (t : Fin cfg0.N) (a : Fin 6) (r : Fin 16000) (e : Fin 1600000)
    (he : e.val = 16000 * t.val + r.val) :
    (iblk m c 1 t : Vec Ideal S6x16000 .f32) (ix2 a r) = (V (F := Ideal) m c main_v7 : S6x1600000.Idx → EReal) (ix2 a e) :=
  block1_read c (V (F := Ideal) m c main_v7) t a r e he

/-- What the write-back of output window 2 takes of a block `X`, read at `(r, k)`, is `X` there: the window's blocks
    tile the array, none is cut. -/
theorem writeback_apply (X : Vec Ideal S16000x27 .f32) (t : Fin cfg0.N) (r : Fin 16000) (k : Fin 27) :
    (cfg0.win 2).cut (grid0.coords t) X (ix2 r k) = X (ix2 r k) := rfl

/-- Row `r`, column `k` of point `t`'s block of the result is row `16000·t + r`, column `k` of the result. -/
theorem out_block_index (t : Fin cfg0.N) (r : Fin 16000) (k : Fin 27) (he : 16000 * t.val + r.val < 1600000) :
    ((cfg0.win 2).blk t).view.emb (ix2 r k) = ix2 (⟨16000 * t.val + r.val, he⟩ : Fin 1600000) k := by
  obtain ⟨-, -, -, -, h0, h1⟩ := block_index t
  funext b
  apply Fin.ext
  match b with
  | ⟨0, _⟩ => show win0_2.index t (0 : Fin 2) * 16000 + 1 * r.val = 16000 * t.val + r.val; rw [h0]; omega
  | ⟨1, _⟩ => show win0_2.index t (1 : Fin 2) * 27 + 1 * k.val = k.val; rw [h1]; omega

/-! ## What a point writes back, and the whole array -/

/-- The arguments as the launch finds them. -/
abbrev posOf (c : Dev nD) : (⟨2, ![50000, 3]⟩ : Shape).Idx → EReal := m ((c.tc : Thread nD τ).loc main_arg0)
abbrev spinOf (c : Dev nD) : (⟨2, ![50000, 3]⟩ : Shape).Idx → EReal := m ((c.tc : Thread nD τ).loc main_arg1)
abbrev indexOf (c : Dev nD) : (⟨2, ![2, 1600000]⟩ : Shape).Idx → BitVec 32 := m ((c.tc : Thread nD τ).loc main_arg2)

/-- WHAT POINT `t` WRITES BACK is block `t` of the edge harmonics, where every index is in range and no edge has
    length zero. -/
theorem flushed_eq (c : Dev nD)
    (hr : ∀ (k : Fin 2) (e : Fin 1600000), 0 ≤ (indexOf m c (ix2 k e)).toInt ∧ (indexOf m c (ix2 k e)).toInt < 50000)
    (hz : ∀ e : Fin 1600000, 0 < edgeSqLen (posOf m c) (indexOf m c) e) (t : Fin cfg0.N) :
    (dats m 0 c).flushed 2 t
      = ((cfg0.win 2).blk t).view.read (Elt Ideal) (target (posOf m c) (spinOf m c) (indexOf m c)) := by
  rw [Cert.KernelIdeal.Value.flushed2]
  have hN : t.val < 100 := Nat.lt_of_lt_of_eq t.isLt points
  funext y
  obtain ⟨r, k, rfl⟩ : ∃ (r : Fin 16000) (k : Fin 27), y = ix2 r k := ⟨y 0, y 1, eq_ix2 y⟩
  have he : 16000 * t.val + r.val < 1600000 := by have := r.isLt; omega
  rw [View.read_apply, out_block_index t r k he]
  refine (writeback_apply (out0_2 (F := Ideal) (iblk m c 0 t) (iblk m c 1 t)) t r k).trans ?_
  rw [Cert.KernelIdeal.Body.out_apply]
  have ht : (fun a => (iblk m c 0 t : Vec Ideal S6x16000 .f32) (ix2 a r))
      = node6 (posOf m c) (spinOf m c) (nodeOf (indexOf m c (ix2 0 ⟨16000 * t.val + r.val, he⟩))) :=
    funext fun a => (tail_block m c t a r ⟨_, he⟩ rfl).trans (Cert.KernelIdeal.HostStage.tail_nodes m c a ⟨_, he⟩ (hr 0 ⟨_, he⟩))
  have hh : (fun a => (iblk m c 1 t : Vec Ideal S6x16000 .f32) (ix2 a r))
      = node6 (posOf m c) (spinOf m c) (nodeOf (indexOf m c (ix2 1 ⟨16000 * t.val + r.val, he⟩))) :=
    funext fun a => (head_block m c t a r ⟨_, he⟩ rfl).trans (Cert.KernelIdeal.HostStage.head_nodes m c a ⟨_, he⟩ (hr 1 ⟨_, he⟩))
  rw [ht, hh, edge27OfNodes_node6 _ _ _ _ (hz ⟨_, he⟩)]
  rfl

/-- Every row of the result lies in the block of the point `row / 16000`. -/
theorem covered (i : S1600000x27.Idx) :
    ∃ t : Fin cfg0.N, (cfg0.win 2).flush t = true ∧ i ∈ ((cfg0.win 2).blk t).view.set := by
  have hi0 : (i 0).val < 1600000 := (i 0).isLt
  have hi1 : (i 1).val < 27 := (i 1).isLt
  let t : Fin cfg0.N := ⟨(i 0).val / 16000, by rw [points]; omega⟩
  obtain ⟨-, -, -, -, h0, h1⟩ := block_index t
  have htv : t.val = (i 0).val / 16000 := rfl
  refine ⟨t, flush0_2 t, ?_⟩
  show i ∈ ((View.whole main_v8).slice (win0_2.rect t)).set
  rw [View.set_slice_whole, Rect.mem_set_unit]
  intro a
  match a with
  | ⟨0, _⟩ =>
    show win0_2.index t (0 : Fin 2) * 16000 ≤ (i 0).val ∧ (i 0).val < win0_2.index t (0 : Fin 2) * 16000 + 16000
    rw [h0, htv]; omega
  | ⟨1, _⟩ =>
    show win0_2.index t (1 : Fin 2) * 27 ≤ (i 1).val ∧ (i 1).val < win0_2.index t (1 : Fin 2) * 27 + 27
    rw [h1]; omega

/-- THE RESULT ARRAY after the run is the edge harmonics of the arguments. -/
theorem final (c : Dev nD)
    (hr : ∀ (k : Fin 2) (e : Fin 1600000), 0 ≤ (indexOf m c (ix2 k e)).toInt ∧ (indexOf m c (ix2 k e)).toInt < 50000)
    (hz : ∀ e : Fin 1600000, 0 < edgeSqLen (posOf m c) (indexOf m c) e) :
    (dats m 0 c).arrAt 2 cfg0.N = target (posOf m c) (spinOf m c) (indexOf m c) :=
  (dats m 0 c).arrAt_eq_of_cover 2 (target (posOf m c) (spinOf m c) (indexOf m c))
    (fun t _ => flushed_eq m c hr hz t) covered

/-! ## The run -/

variable [Cert.Pre_finite_inputs.Facts]

/-- THE KERNEL'S RUN under the precondition: every weakly fair execution of @main terminates with the result array the
    edge harmonics of the arguments' launch contents, the arguments unchanged. -/
theorem run
    (hpre : ∀ c : Dev nD, Cert.Pre_finite_inputs.fn (F := Ideal) (m ((c.tc : Thread nD τ).loc main_arg0))
      (m ((c.tc : Thread nD τ).loc main_arg1)) (m ((c.tc : Thread nD τ).loc main_arg2)) = fun _ => 1#1) :
    θ_run defs (onTc (τ := τ) (main (F := Ideal))) ⟨m, fun _ => 0, ρ⟩ fun r => ∀ c : Dev nD,
      r.2.mem ((c.tc : Thread nD τ).loc main_v8)
          = target (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final m c
      (fun k e => Cert.Pre_finite_inputs.Decode.index_range _ _ _ (hpre c) k e)
      (fun e => Cert.Pre_finite_inputs.Decode.edge_nonzero _ _ _ (hpre c) e)), (h c).2⟩)
    (Cert.KernelIdeal.Value.run_blocks m ρ)

end Cert.KernelIdeal.EdgeValue

end
-- ==== Proof.RefOps.lean ====
import proofs.«410445_j87213605913075_3_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The 64 operations of window 0 of @main, in order. -/
abbrev ops0 : List (HloOp τ sig (Elt F)) :=
  [ StableHlo.nullary main_c (fun i => lit0 (S27.rowMajor i)),
    StableHlo.nullary main_c_0 (constantI S27 1 0#1),
    StableHlo.unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c_1 (constantI S_ 32 0#32),
    StableHlo.unary main_c_1 main_v4 (broadcastInDim S1600000 ![] bcast_S_S1600000 : (⟨S_, .i32⟩ : BufTy).Contents (Elt F) → (⟨S1600000, .i32⟩ : BufTy).Contents (Elt F)),
    StableHlo.binary main_v3 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 50000#32),
    StableHlo.unary main_c_2 main_v6 (broadcastInDim S1600000 ![] bcast_S_S1600000 : (⟨S_, .i32⟩ : BufTy).Contents (Elt F) → (⟨S1600000, .i32⟩ : BufTy).Contents (Elt F)),
    StableHlo.binary main_v3 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v3 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S50000x3_S1600000x1_S1600000x3_1_0_n_n_0_1_13 x i) : (⟨S50000x3, .f32⟩ : BufTy).Contents (Elt F) → (⟨S1600000x1, .i32⟩ : BufTy).Contents (Elt F) → (⟨S1600000x3, .f32⟩ : BufTy).Contents (Elt F)),
    StableHlo.nullary main_c_3 (constantI S_ 32 0#32),
    StableHlo.unary main_c_3 main_v11 (broadcastInDim S1600000 ![] bcast_S_S1600000 : (⟨S_, .i32⟩ : BufTy).Contents (Elt F) → (⟨S1600000, .i32⟩ : BufTy).Contents (Elt F)),
    StableHlo.binary main_v1 main_v11 main_v12 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 50000#32),
    StableHlo.unary main_c_4 main_v13 (broadcastInDim S1600000 ![] bcast_S_S1600000 : (⟨S_, .i32⟩ : BufTy).Contents (Elt F) → (⟨S1600000, .i32⟩ : BufTy).Contents (Elt F)),
    StableHlo.binary main_v1 main_v13 main_v14 (addi : (⟨S1600000, .i32⟩ : BufTy).Contents (Elt F) → (⟨S1600000, .i32⟩ : BufTy).Contents (Elt F) → (⟨S1600000, .i32⟩ : BufTy).Contents (Elt F)),
    StableHlo.ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v15 main_v16 (broadcastInDim S1600000x1 ![0] bcast_S1600000_S1600000x1_0 : (⟨S1600000, .i32⟩ : BufTy).Contents (Elt F) → (⟨S1600000x1, .i32⟩ : BufTy).Contents (Elt F)),
    StableHlo.binary main_arg0 main_v16 main_v17 ((fun x i => Host.gather gather_S50000x3_S1600000x1_S1600000x3_1_0_n_n_0_1_13 x i) : (⟨S50000x3, .f32⟩ : BufTy).Contents (Elt F) → (⟨S1600000x1, .i32⟩ : BufTy).Contents (Elt F) → (⟨S1600000x3, .f32⟩ : BufTy).Contents (Elt F)),
    StableHlo.binary main_v10 main_v17 main_v18 (subf : (⟨S1600000x3, .f32⟩ : BufTy).Contents (Elt F) → (⟨S1600000x3, .f32⟩ : BufTy).Contents (Elt F) → (⟨S1600000x3, .f32⟩ : BufTy).Contents (Elt F)),
    StableHlo.TRef.binary (.of main_v18) (.of main_v18) main_call0.v0 mulf,
    StableHlo.TRef.nullary main_call0.cst (constant S_ .f32 0x00000000#32),
    StableHlo.TRef.binary main_call0.v0 main_call0.cst main_call0.v1 (fun x v => Host.reduceAdd x v reducesTo_S1600000x3_S1600000_d1 h_S_),
    StableHlo.TRef.unary main_call0.v1 main_call0.v2 (broadcastInDim S1600000x1 ![0] bcast_S1600000_S1600000x1_0),
    StableHlo.TRef.unary main_call0.v2 main_call0.v3 Host.sqrt,
    StableHlo.unary main_v19 main_v20 (broadcastInDim S1600000x3 ![0, 1] bcast_S1600000x1_S1600000x3_0_1 : (⟨S1600000x1, .f32⟩ : BufTy).Contents (Elt F) → (⟨S1600000x3, .f32⟩ : BufTy).Contents (Elt F)),
    StableHlo.binary main_v18 main_v20 main_v21 (Host.divf : (⟨S1600000x3, .f32⟩ : BufTy).Contents (Elt F) → (⟨S1600000x3, .f32⟩ : BufTy).Contents (Elt F) → (⟨S1600000x3, .f32⟩ : BufTy).Contents (Elt F)),
    StableHlo.unary main_v21 main_v22 ((extractStridedSlice S1600000x1 ![0, 0] · slices_S1600000x3_S1600000x1_0_0) : (⟨S1600000x3, .f32⟩ : BufTy).Contents (Elt F) → (⟨S1600000x1, .f32⟩ : BufTy).Contents (Elt F)),
    StableHlo.reshape main_v22 main_v23 rfl shapeCasts_S1600000x1_S1600000,
    StableHlo.unary main_v21 main_v24 ((extractStridedSlice S1600000x1 ![0, 1] · slices_S1600000x3_S1600000x1_0_1) : (⟨S1600000x3, .f32⟩ : BufTy).Contents (Elt F) → (⟨S1600000x1, .f32⟩ : BufTy).Contents (Elt F)),
    StableHlo.reshape main_v24 main_v25 rfl shapeCasts_S1600000x1_S1600000,
    StableHlo.unary main_v21 main_v26 ((extractStridedSlice S1600000x1 ![0, 2] · slices_S1600000x3_S1600000x1_0_2) : (⟨S1600000x3, .f32⟩ : BufTy).Contents (Elt F) → (⟨S1600000x1, .f32⟩ : BufTy).Contents (Elt F)),
    StableHlo.reshape main_v26 main_v27 rfl shapeCasts_S1600000x1_S1600000,
    StableHlo.nullary main_cst (constant S_ .f32 0x3F800000#32),
    StableHlo.unary main_cst main_v28 (broadcastInDim S1600000 ![] bcast_S_S1600000 : (⟨S_, .f32⟩ : BufTy).Contents (Elt F) → (⟨S1600000, .f32⟩ : BufTy).Contents (Elt F)),
    StableHlo.nullary main_cst_5 (constant S_ .f32 0x3FDDB3D7#32),
    StableHlo.unary main_cst_5 main_v29 (broadcastInDim S1600000 ![] bcast_S_S1600000 : (⟨S_, .f32⟩ : BufTy).Contents (Elt F) → (⟨S1600000, .f32⟩ : BufTy).Contents (Elt F)),
    StableHlo.binary main_v29 main_v23 main_v30 (mulf : (⟨S1600000, .f32⟩ : BufTy).Contents (Elt F) → (⟨S1600000, .f32⟩ : BufTy).Contents (Elt F) → (⟨S1600000, .f32⟩ : BufTy).Contents (Elt F)),
    StableHlo.nullary main_cst_6 (constant S_ .f32 0x3FDDB3D7#32),
    StableHlo.unary main_cst_6 main_v31 (broadcastInDim S1600000 ![] bcast_S_S1600000 : (⟨S_, .f32⟩ : BufTy).Contents (Elt F) → (⟨S1600000, .f32⟩ : BufTy).Contents (Elt F)),
    StableHlo.binary main_v31 main_v25 main_v32 (mulf : (⟨S1600000, .f32⟩ : BufTy).Contents (Elt F) → (⟨S1600000, .f32⟩ : BufTy).Contents (Elt F) → (⟨S1600000, .f32⟩ : BufTy).Contents (Elt F)),
    StableHlo.nullary main_cst_7 (constant S_ .f32 0x3FDDB3D7#32),
    StableHlo.unary main_cst_7 main_v33 (broadcastInDim S1600000 ![] bcast_S_S1600000 : (⟨S_, .f32⟩ : BufTy).Contents (Elt F) → (⟨S1600000, .f32⟩ : BufTy).Contents (Elt F)),
    StableHlo.binary main_v33 main_v27 main_v34 (mulf : (⟨S1600000, .f32⟩ : BufTy).Contents (Elt F) → (⟨S1600000, .f32⟩ : BufTy).Contents (Elt F) → (⟨S1600000, .f32⟩ : BufTy).Contents (Elt F)),
    StableHlo.nullary main_cst_8 (constant S_ .f32 0x4077DEF6#32),
    StableHlo.unary main_cst_8 main_v35 (broadcastInDim S1600000 ![] bcast_S_S1600000 : (⟨S_, .f32⟩ : BufTy).Contents (Elt F) → (⟨S1600000, .f32⟩ : BufTy).Contents (Elt F)),
    StableHlo.binary main_v35 main_v23 main_v36 (mulf : (⟨S1600000, .f32⟩ : BufTy).Contents (Elt F) → (⟨S1600000, .f32⟩ : BufTy).Contents (Elt F) → (⟨S1600000, .f32⟩ : BufTy).Contents (Elt F)),
    StableHlo.binary main_v36 main_v27 main_v37 (mulf : (⟨S1600000, .f32⟩ : BufTy).Contents (Elt F) → (⟨S1600000, .f32⟩ : BufTy).Contents (Elt F) → (⟨S1600000, .f32⟩ : BufTy).Contents (Elt F)),
    StableHlo.nullary main_cst_9 (constant S_ .f32 0x4077DEF6#32),
    StableHlo.unary main_cst_9 main_v38 (broadcastInDim S1600000 ![] bcast_S_S1600000 : (⟨S_, .f32⟩ : BufTy).Contents (Elt F) → (⟨S1600000, .f32⟩ : BufTy).Contents (Elt F)),
    StableHlo.binary main_v38 main_v23 main_v39 (mulf : (⟨S1600000, .f32⟩ : BufTy).Contents (Elt F) → (⟨S1600000, .f32⟩ : BufTy).Contents (Elt F) → (⟨S1600000, .f32⟩ : BufTy).Contents (Elt F)),
    StableHlo.binary main_v39 main_v25 main_v40 (mulf : (⟨S1600000, .f32⟩ : BufTy).Contents (Elt F) → (⟨S1600000, .f32⟩ : BufTy).Contents (Elt F) → (⟨S1600000, .f32⟩ : BufTy).Contents (Elt F)),
    StableHlo.binary main_v25 main_v25 main_v41 (mulf : (⟨S1600000, .f32⟩ : BufTy).Contents (Elt F) → (⟨S1600000, .f32⟩ : BufTy).Contents (Elt F) → (⟨S1600000, .f32⟩ : BufTy).Contents (Elt F)),
    StableHlo.binary main_v23 main_v23 main_v42 (mulf : (⟨S1600000, .f32⟩ : BufTy).Contents (Elt F) → (⟨S1600000, .f32⟩ : BufTy).Contents (Elt F) → (⟨S1600000, .f32⟩ : BufTy).Contents (Elt F)),
    StableHlo.binary main_v27 main_v27 main_v43 (mulf : (⟨S1600000, .f32⟩ : BufTy).Contents (Elt F) → (⟨S1600000, .f32⟩ : BufTy).Contents (Elt F) → (⟨S1600000, .f32⟩ : BufTy).Contents (Elt F)),
    StableHlo.binary main_v42 main_v43 main_v44 (addf : (⟨S1600000, .f32⟩ : BufTy).Contents (Elt F) → (⟨S1600000, .f32⟩ : BufTy).Contents (Elt F) → (⟨S1600000, .f32⟩ : BufTy).Contents (Elt F)),
    StableHlo.nullary main_cst_10 (constant S_ .f32 0x3F000000#32),
    StableHlo.unary main_cst_10 main_v45 (broadcastInDim S1600000 ![] bcast_S_S1600000 : (⟨S_, .f32⟩ : BufTy).Contents (Elt F) → (⟨S1600000, .f32⟩ : BufTy).Contents (Elt F)),
    StableHlo.binary main_v45 main_v44 main_v46 (mulf : (⟨S1600000, .f32⟩ : BufTy).Contents (Elt F) → (⟨S1600000, .f32⟩ : BufTy).Contents (Elt F) → (⟨S1600000, .f32⟩ : BufTy).Contents (Elt F)) ]

/-- The 60 operations of window 1 of @main, in order. -/
abbrev ops1 : List (HloOp τ sig (Elt F)) :=
  [ StableHlo.binary main_v41 main_v46 main_v47 (subf : (⟨S1600000, .f32⟩ : BufTy).Contents (Elt F) → (⟨S1600000, .f32⟩ : BufTy).Contents (Elt F) → (⟨S1600000, .f32⟩ : BufTy).Contents (Elt F)),
    StableHlo.nullary main_cst_11 (constant S_ .f32 0x400F1BBD#32),
    StableHlo.unary main_cst_11 main_v48 (broadcastInDim S1600000 ![] bcast_S_S1600000 : (⟨S_, .f32⟩ : BufTy).Contents (Elt F) → (⟨S1600000, .f32⟩ : BufTy).Contents (Elt F)),
    StableHlo.binary main_v48 main_v47 main_v49 (mulf : (⟨S1600000, .f32⟩ : BufTy).Contents (Elt F) → (⟨S1600000, .f32⟩ : BufTy).Contents (Elt F) → (⟨S1600000, .f32⟩ : BufTy).Contents (Elt F)),
    StableHlo.nullary main_cst_12 (constant S_ .f32 0x4077DEF6#32),
    StableHlo.unary main_cst_12 main_v50 (broadcastInDim S1600000 ![] bcast_S_S1600000 : (⟨S_, .f32⟩ : BufTy).Contents (Elt F) → (⟨S1600000, .f32⟩ : BufTy).Contents (Elt F)),
    StableHlo.binary main_v50 main_v25 main_v51 (mulf : (⟨S1600000, .f32⟩ : BufTy).Contents (Elt F) → (⟨S1600000, .f32⟩ : BufTy).Contents (Elt F) → (⟨S1600000, .f32⟩ : BufTy).Contents (Elt F)),
    StableHlo.binary main_v51 main_v27 main_v52 (mulf : (⟨S1600000, .f32⟩ : BufTy).Contents (Elt F) → (⟨S1600000, .f32⟩ : BufTy).Contents (Elt F) → (⟨S1600000, .f32⟩ : BufTy).Contents (Elt F)),
    StableHlo.binary main_v27 main_v27 main_v53 (mulf : (⟨S1600000, .f32⟩ : BufTy).Contents (Elt F) → (⟨S1600000, .f32⟩ : BufTy).Contents (Elt F) → (⟨S1600000, .f32⟩ : BufTy).Contents (Elt F)),
    StableHlo.binary main_v23 main_v23 main_v54 (mulf : (⟨S1600000, .f32⟩ : BufTy).Contents (Elt F) → (⟨S1600000, .f32⟩ : BufTy).Contents (Elt F) → (⟨S1600000, .f32⟩ : BufTy).Contents (Elt F)),
    StableHlo.binary main_v53 main_v54 main_v55 (subf : (⟨S1600000, .f32⟩ : BufTy).Contents (Elt F) → (⟨S1600000, .f32⟩ : BufTy).Contents (Elt F) → (⟨S1600000, .f32⟩ : BufTy).Contents (Elt F)),
    StableHlo.nullary main_cst_13 (constant S_ .f32 0x3FF7DEF6#32),
    StableHlo.unary main_cst_13 main_v56 (broadcastInDim S1600000 ![] bcast_S_S1600000 : (⟨S_, .f32⟩ : BufTy).Contents (Elt F) → (⟨S1600000, .f32⟩ : BufTy).Contents (Elt F)),
    StableHlo.binary main_v56 main_v55 main_v57 (mulf : (⟨S1600000, .f32⟩ : BufTy).Contents (Elt F) → (⟨S1600000, .f32⟩ : BufTy).Contents (Elt F) → (⟨S1600000, .f32⟩ : BufTy).Contents (Elt F)),
    StableHlo.unary main_v28 main_v58 (broadcastInDim S1600000x1 ![0] bcast_S1600000_S1600000x1_0 : (⟨S1600000, .f32⟩ : BufTy).Contents (Elt F) → (⟨S1600000x1, .f32⟩ : BufTy).Contents (Elt F)),
    StableHlo.unary main_v30 main_v59 (broadcastInDim S1600000x1 ![0] bcast_S1600000_S1600000x1_0 : (⟨S1600000, .f32⟩ : BufTy).Contents (Elt F) → (⟨S1600000x1, .f32⟩ : BufTy).Contents (Elt F)),
    StableHlo.unary main_v32 main_v60 (broadcastInDim S1600000x1 ![0] bcast_S1600000_S1600000x1_0 : (⟨S1600000, .f32⟩ : BufTy).Contents (Elt F) → (⟨S1600000x1, .f32⟩ : BufTy).Contents (Elt F)),
    StableHlo.unary main_v34 main_v61 (broadcastInDim S1600000x1 ![0] bcast_S1600000_S1600000x1_0 : (⟨S1600000, .f32⟩ : BufTy).Contents (Elt F) → (⟨S1600000x1, .f32⟩ : BufTy).Contents (Elt F)),
    StableHlo.unary main_v37 main_v62 (broadcastInDim S1600000x1 ![0] bcast_S1600000_S1600000x1_0 : (⟨S1600000, .f32⟩ : BufTy).Contents (Elt F) → (⟨S1600000x1, .f32⟩ : BufTy).Contents (Elt F)),
    StableHlo.unary main_v40 main_v63 (broadcastInDim S1600000x1 ![0] bcast_S1600000_S1600000x1_0 : (⟨S1600000, .f32⟩ : BufTy).Contents (Elt F) → (⟨S1600000x1, .f32⟩ : BufTy).Contents (Elt F)),
    StableHlo.unary main_v49 main_v64 (broadcastInDim S1600000x1 ![0] bcast_S1600000_S1600000x1_0 : (⟨S1600000, .f32⟩ : BufTy).Contents (Elt F) → (⟨S1600000x1, .f32⟩ : BufTy).Contents (Elt F)),
    StableHlo.unary main_v52 main_v65 (broadcastInDim S1600000x1 ![0] bcast_S1600000_S1600000x1_0 : (⟨S1600000, .f32⟩ : BufTy).Contents (Elt F) → (⟨S1600000x1, .f32⟩ : BufTy).Contents (Elt F)),
    StableHlo.unary main_v57 main_v66 (broadcastInDim S1600000x1 ![0] bcast_S1600000_S1600000x1_0 : (⟨S1600000, .f32⟩ : BufTy).Contents (Elt F) → (⟨S1600000x1, .f32⟩ : BufTy).Contents (Elt F)),
    StableHlo.nary ![main_v58, main_v59, main_v60, main_v61, main_v62, main_v63, main_v64, main_v65, main_v66] main_v67 (fun u => concatenate S1600000x9 1 [⟨S1600000x1, u 0⟩, ⟨S1600000x1, u 1⟩, ⟨S1600000x1, u 2⟩, ⟨S1600000x1, u 3⟩, ⟨S1600000x1, u 4⟩, ⟨S1600000x1, u 5⟩, ⟨S1600000x1, u 6⟩, ⟨S1600000x1, u 7⟩, ⟨S1600000x1, u 8⟩] concatenates_S1600000x1_S1600000x1_S1600000x1_S1600000x1_S1600000x1_S1600000x1_S1600000x1_S1600000x1_S1600000x1_S1600000x9_d1),
    StableHlo.unary main_arg1 main_v68 ((extractStridedSlice S50000x1 ![0, 0] · slices_S50000x3_S50000x1_0_0) : (⟨S50000x3, .f32⟩ : BufTy).Contents (Elt F) → (⟨S50000x1, .f32⟩ : BufTy).Contents (Elt F)),
    StableHlo.reshape main_v68 main_v69 rfl shapeCasts_S50000x1_S50000,
    StableHlo.unary main_arg1 main_v70 ((extractStridedSlice S50000x1 ![0, 1] · slices_S50000x3_S50000x1_0_1) : (⟨S50000x3, .f32⟩ : BufTy).Contents (Elt F) → (⟨S50000x1, .f32⟩ : BufTy).Contents (Elt F)),
    StableHlo.reshape main_v70 main_v71 rfl shapeCasts_S50000x1_S50000,
    StableHlo.unary main_arg1 main_v72 ((extractStridedSlice S50000x1 ![0, 2] · slices_S50000x3_S50000x1_0_2) : (⟨S50000x3, .f32⟩ : BufTy).Contents (Elt F) → (⟨S50000x1, .f32⟩ : BufTy).Contents (Elt F)),
    StableHlo.reshape main_v72 main_v73 rfl shapeCasts_S50000x1_S50000,
    StableHlo.nullary main_cst_14 (constant S_ .f32 0x3F800000#32),
    StableHlo.unary main_cst_14 main_v74 (broadcastInDim S50000 ![] bcast_S_S50000 : (⟨S_, .f32⟩ : BufTy).Contents (Elt F) → (⟨S50000, .f32⟩ : BufTy).Contents (Elt F)),
    StableHlo.nullary main_cst_15 (constant S_ .f32 0x3FDDB3D7#32),
    StableHlo.unary main_cst_15 main_v75 (broadcastInDim S50000 ![] bcast_S_S50000 : (⟨S_, .f32⟩ : BufTy).Contents (Elt F) → (⟨S50000, .f32⟩ : BufTy).Contents (Elt F)),
    StableHlo.binary main_v75 main_v69 main_v76 (mulf : (⟨S50000, .f32⟩ : BufTy).Contents (Elt F) → (⟨S50000, .f32⟩ : BufTy).Contents (Elt F) → (⟨S50000, .f32⟩ : BufTy).Contents (Elt F)),
    StableHlo.nullary main_cst_16 (constant S_ .f32 0x3FDDB3D7#32),
    StableHlo.unary main_cst_16 main_v77 (broadcastInDim S50000 ![] bcast_S_S50000 : (⟨S_, .f32⟩ : BufTy).Contents (Elt F) → (⟨S50000, .f32⟩ : BufTy).Contents (Elt F)),
    StableHlo.binary main_v77 main_v71 main_v78 (mulf : (⟨S50000, .f32⟩ : BufTy).Contents (Elt F) → (⟨S50000, .f32⟩ : BufTy).Contents (Elt F) → (⟨S50000, .f32⟩ : BufTy).Contents (Elt F)),
    StableHlo.nullary main_cst_17 (constant S_ .f32 0x3FDDB3D7#32),
    StableHlo.unary main_cst_17 main_v79 (broadcastInDim S50000 ![] bcast_S_S50000 : (⟨S_, .f32⟩ : BufTy).Contents (Elt F) → (⟨S50000, .f32⟩ : BufTy).Contents (Elt F)),
    StableHlo.binary main_v79 main_v73 main_v80 (mulf : (⟨S50000, .f32⟩ : BufTy).Contents (Elt F) → (⟨S50000, .f32⟩ : BufTy).Contents (Elt F) → (⟨S50000, .f32⟩ : BufTy).Contents (Elt F)),
    StableHlo.nullary main_cst_18 (constant S_ .f32 0x4077DEF6#32),
    StableHlo.unary main_cst_18 main_v81 (broadcastInDim S50000 ![] bcast_S_S50000 : (⟨S_, .f32⟩ : BufTy).Contents (Elt F) → (⟨S50000, .f32⟩ : BufTy).Contents (Elt F)),
    StableHlo.binary main_v81 main_v69 main_v82 (mulf : (⟨S50000, .f32⟩ : BufTy).Contents (Elt F) → (⟨S50000, .f32⟩ : BufTy).Contents (Elt F) → (⟨S50000, .f32⟩ : BufTy).Contents (Elt F)),
    StableHlo.binary main_v82 main_v73 main_v83 (mulf : (⟨S50000, .f32⟩ : BufTy).Contents (Elt F) → (⟨S50000, .f32⟩ : BufTy).Contents (Elt F) → (⟨S50000, .f32⟩ : BufTy).Contents (Elt F)),
    StableHlo.nullary main_cst_19 (constant S_ .f32 0x4077DEF6#32),
    StableHlo.unary main_cst_19 main_v84 (broadcastInDim S50000 ![] bcast_S_S50000 : (⟨S_, .f32⟩ : BufTy).Contents (Elt F) → (⟨S50000, .f32⟩ : BufTy).Contents (Elt F)),
    StableHlo.binary main_v84 main_v69 main_v85 (mulf : (⟨S50000, .f32⟩ : BufTy).Contents (Elt F) → (⟨S50000, .f32⟩ : BufTy).Contents (Elt F) → (⟨S50000, .f32⟩ : BufTy).Contents (Elt F)),
    StableHlo.binary main_v85 main_v71 main_v86 (mulf : (⟨S50000, .f32⟩ : BufTy).Contents (Elt F) → (⟨S50000, .f32⟩ : BufTy).Contents (Elt F) → (⟨S50000, .f32⟩ : BufTy).Contents (Elt F)),
    StableHlo.binary main_v71 main_v71 main_v87 (mulf : (⟨S50000, .f32⟩ : BufTy).Contents (Elt F) → (⟨S50000, .f32⟩ : BufTy).Contents (Elt F) → (⟨S50000, .f32⟩ : BufTy).Contents (Elt F)),
    StableHlo.binary main_v69 main_v69 main_v88 (mulf : (⟨S50000, .f32⟩ : BufTy).Contents (Elt F) → (⟨S50000, .f32⟩ : BufTy).Contents (Elt F) → (⟨S50000, .f32⟩ : BufTy).Contents (Elt F)),
    StableHlo.binary main_v73 main_v73 main_v89 (mulf : (⟨S50000, .f32⟩ : BufTy).Contents (Elt F) → (⟨S50000, .f32⟩ : BufTy).Contents (Elt F) → (⟨S50000, .f32⟩ : BufTy).Contents (Elt F)),
    StableHlo.binary main_v88 main_v89 main_v90 (addf : (⟨S50000, .f32⟩ : BufTy).Contents (Elt F) → (⟨S50000, .f32⟩ : BufTy).Contents (Elt F) → (⟨S50000, .f32⟩ : BufTy).Contents (Elt F)),
    StableHlo.nullary main_cst_20 (constant S_ .f32 0x3F000000#32),
    StableHlo.unary main_cst_20 main_v91 (broadcastInDim S50000 ![] bcast_S_S50000 : (⟨S_, .f32⟩ : BufTy).Contents (Elt F) → (⟨S50000, .f32⟩ : BufTy).Contents (Elt F)),
    StableHlo.binary main_v91 main_v90 main_v92 (mulf : (⟨S50000, .f32⟩ : BufTy).Contents (Elt F) → (⟨S50000, .f32⟩ : BufTy).Contents (Elt F) → (⟨S50000, .f32⟩ : BufTy).Contents (Elt F)),
    StableHlo.binary main_v87 main_v92 main_v93 (subf : (⟨S50000, .f32⟩ : BufTy).Contents (Elt F) → (⟨S50000, .f32⟩ : BufTy).Contents (Elt F) → (⟨S50000, .f32⟩ : BufTy).Contents (Elt F)),
    StableHlo.nullary main_cst_21 (constant S_ .f32 0x400F1BBD#32),
    StableHlo.unary main_cst_21 main_v94 (broadcastInDim S50000 ![] bcast_S_S50000 : (⟨S_, .f32⟩ : BufTy).Contents (Elt F) → (⟨S50000, .f32⟩ : BufTy).Contents (Elt F)),
    StableHlo.binary main_v94 main_v93 main_v95 (mulf : (⟨S50000, .f32⟩ : BufTy).Contents (Elt F) → (⟨S50000, .f32⟩ : BufTy).Contents (Elt F) → (⟨S50000, .f32⟩ : BufTy).Contents (Elt F)) ]

/-- The 45 operations of window 2 of @main, in order. -/
abbrev ops2 : List (HloOp τ sig (Elt F)) :=
  [ StableHlo.nullary main_cst_22 (constant S_ .f32 0x4077DEF6#32),
    StableHlo.unary main_cst_22 main_v96 (broadcastInDim S50000 ![] bcast_S_S50000 : (⟨S_, .f32⟩ : BufTy).Contents (Elt F) → (⟨S50000, .f32⟩ : BufTy).Contents (Elt F)),
    StableHlo.binary main_v96 main_v71 main_v97 (mulf : (⟨S50000, .f32⟩ : BufTy).Contents (Elt F) → (⟨S50000, .f32⟩ : BufTy).Contents (Elt F) → (⟨S50000, .f32⟩ : BufTy).Contents (Elt F)),
    StableHlo.binary main_v97 main_v73 main_v98 (mulf : (⟨S50000, .f32⟩ : BufTy).Contents (Elt F) → (⟨S50000, .f32⟩ : BufTy).Contents (Elt F) → (⟨S50000, .f32⟩ : BufTy).Contents (Elt F)),
    StableHlo.binary main_v73 main_v73 main_v99 (mulf : (⟨S50000, .f32⟩ : BufTy).Contents (Elt F) → (⟨S50000, .f32⟩ : BufTy).Contents (Elt F) → (⟨S50000, .f32⟩ : BufTy).Contents (Elt F)),
    StableHlo.binary main_v69 main_v69 main_v100 (mulf : (⟨S50000, .f32⟩ : BufTy).Contents (Elt F) → (⟨S50000, .f32⟩ : BufTy).Contents (Elt F) → (⟨S50000, .f32⟩ : BufTy).Contents (Elt F)),
    StableHlo.binary main_v99 main_v100 main_v101 (subf : (⟨S50000, .f32⟩ : BufTy).Contents (Elt F) → (⟨S50000, .f32⟩ : BufTy).Contents (Elt F) → (⟨S50000, .f32⟩ : BufTy).Contents (Elt F)),
    StableHlo.nullary main_cst_23 (constant S_ .f32 0x3FF7DEF6#32),
    StableHlo.unary main_cst_23 main_v102 (broadcastInDim S50000 ![] bcast_S_S50000 : (⟨S_, .f32⟩ : BufTy).Contents (Elt F) → (⟨S50000, .f32⟩ : BufTy).Contents (Elt F)),
    StableHlo.binary main_v102 main_v101 main_v103 (mulf : (⟨S50000, .f32⟩ : BufTy).Contents (Elt F) → (⟨S50000, .f32⟩ : BufTy).Contents (Elt F) → (⟨S50000, .f32⟩ : BufTy).Contents (Elt F)),
    StableHlo.unary main_v74 main_v104 (broadcastInDim S50000x1 ![0] bcast_S50000_S50000x1_0 : (⟨S50000, .f32⟩ : BufTy).Contents (Elt F) → (⟨S50000x1, .f32⟩ : BufTy).Contents (Elt F)),
    StableHlo.unary main_v76 main_v105 (broadcastInDim S50000x1 ![0] bcast_S50000_S50000x1_0 : (⟨S50000, .f32⟩ : BufTy).Contents (Elt F) → (⟨S50000x1, .f32⟩ : BufTy).Contents (Elt F)),
    StableHlo.unary main_v78 main_v106 (broadcastInDim S50000x1 ![0] bcast_S50000_S50000x1_0 : (⟨S50000, .f32⟩ : BufTy).Contents (Elt F) → (⟨S50000x1, .f32⟩ : BufTy).Contents (Elt F)),
    StableHlo.unary main_v80 main_v107 (broadcastInDim S50000x1 ![0] bcast_S50000_S50000x1_0 : (⟨S50000, .f32⟩ : BufTy).Contents (Elt F) → (⟨S50000x1, .f32⟩ : BufTy).Contents (Elt F)),
    StableHlo.unary main_v83 main_v108 (broadcastInDim S50000x1 ![0] bcast_S50000_S50000x1_0 : (⟨S50000, .f32⟩ : BufTy).Contents (Elt F) → (⟨S50000x1, .f32⟩ : BufTy).Contents (Elt F)),
    StableHlo.unary main_v86 main_v109 (broadcastInDim S50000x1 ![0] bcast_S50000_S50000x1_0 : (⟨S50000, .f32⟩ : BufTy).Contents (Elt F) → (⟨S50000x1, .f32⟩ : BufTy).Contents (Elt F)),
    StableHlo.unary main_v95 main_v110 (broadcastInDim S50000x1 ![0] bcast_S50000_S50000x1_0 : (⟨S50000, .f32⟩ : BufTy).Contents (Elt F) → (⟨S50000x1, .f32⟩ : BufTy).Contents (Elt F)),
    StableHlo.unary main_v98 main_v111 (broadcastInDim S50000x1 ![0] bcast_S50000_S50000x1_0 : (⟨S50000, .f32⟩ : BufTy).Contents (Elt F) → (⟨S50000x1, .f32⟩ : BufTy).Contents (Elt F)),
    StableHlo.unary main_v103 main_v112 (broadcastInDim S50000x1 ![0] bcast_S50000_S50000x1_0 : (⟨S50000, .f32⟩ : BufTy).Contents (Elt F) → (⟨S50000x1, .f32⟩ : BufTy).Contents (Elt F)),
    StableHlo.nary ![main_v104, main_v105, main_v106, main_v107, main_v108, main_v109, main_v110, main_v111, main_v112] main_v113 (fun u => concatenate S50000x9 1 [⟨S50000x1, u 0⟩, ⟨S50000x1, u 1⟩, ⟨S50000x1, u 2⟩, ⟨S50000x1, u 3⟩, ⟨S50000x1, u 4⟩, ⟨S50000x1, u 5⟩, ⟨S50000x1, u 6⟩, ⟨S50000x1, u 7⟩, ⟨S50000x1, u 8⟩] concatenates_S50000x1_S50000x1_S50000x1_S50000x1_S50000x1_S50000x1_S50000x1_S50000x1_S50000x1_S50000x9_d1),
    StableHlo.nullary main_c_24 (constantI S_ 32 0#32),
    StableHlo.unary main_c_24 main_v114 (broadcastInDim S1600000 ![] bcast_S_S1600000 : (⟨S_, .i32⟩ : BufTy).Contents (Elt F) → (⟨S1600000, .i32⟩ : BufTy).Contents (Elt F)),
    StableHlo.binary main_v3 main_v114 main_v115 (cmpi .slt : (⟨S1600000, .i32⟩ : BufTy).Contents (Elt F) → (⟨S1600000, .i32⟩ : BufTy).Contents (Elt F) → (⟨S1600000, .i1⟩ : BufTy).Contents (Elt F)),
    StableHlo.nullary main_c_25 (constantI S_ 32 50000#32),
    StableHlo.unary main_c_25 main_v116 (broadcastInDim S1600000 ![] bcast_S_S1600000 : (⟨S_, .i32⟩ : BufTy).Contents (Elt F) → (⟨S1600000, .i32⟩ : BufTy).Contents (Elt F)),
    StableHlo.binary main_v3 main_v116 main_v117 (addi : (⟨S1600000, .i32⟩ : BufTy).Contents (Elt F) → (⟨S1600000, .i32⟩ : BufTy).Contents (Elt F) → (⟨S1600000, .i32⟩ : BufTy).Contents (Elt F)),
    StableHlo.ternary main_v115 main_v117 main_v3 main_v118 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v118 main_v119 (broadcastInDim S1600000x1 ![0] bcast_S1600000_S1600000x1_0 : (⟨S1600000, .i32⟩ : BufTy).Contents (Elt F) → (⟨S1600000x1, .i32⟩ : BufTy).Contents (Elt F)),
    StableHlo.binary main_v113 main_v119 main_v120 ((fun x i => Host.gather gather_S50000x9_S1600000x1_S1600000x9_1_0_n_n_0_1_19 x i) : (⟨S50000x9, .f32⟩ : BufTy).Contents (Elt F) → (⟨S1600000x1, .i32⟩ : BufTy).Contents (Elt F) → (⟨S1600000x9, .f32⟩ : BufTy).Contents (Elt F)),
    StableHlo.nullary main_c_26 (constantI S_ 32 0#32),
    StableHlo.unary main_c_26 main_v121 (broadcastInDim S1600000 ![] bcast_S_S1600000 : (⟨S_, .i32⟩ : BufTy).Contents (Elt F) → (⟨S1600000, .i32⟩ : BufTy).Contents (Elt F)),
    StableHlo.binary main_v1 main_v121 main_v122 (cmpi .slt : (⟨S1600000, .i32⟩ : BufTy).Contents (Elt F) → (⟨S1600000, .i32⟩ : BufTy).Contents (Elt F) → (⟨S1600000, .i1⟩ : BufTy).Contents (Elt F)),
    StableHlo.nullary main_c_27 (constantI S_ 32 50000#32),
    StableHlo.unary main_c_27 main_v123 (broadcastInDim S1600000 ![] bcast_S_S1600000 : (⟨S_, .i32⟩ : BufTy).Contents (Elt F) → (⟨S1600000, .i32⟩ : BufTy).Contents (Elt F)),
    StableHlo.binary main_v1 main_v123 main_v124 (addi : (⟨S1600000, .i32⟩ : BufTy).Contents (Elt F) → (⟨S1600000, .i32⟩ : BufTy).Contents (Elt F) → (⟨S1600000, .i32⟩ : BufTy).Contents (Elt F)),
    StableHlo.ternary main_v122 main_v124 main_v1 main_v125 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v125 main_v126 (broadcastInDim S1600000x1 ![0] bcast_S1600000_S1600000x1_0 : (⟨S1600000, .i32⟩ : BufTy).Contents (Elt F) → (⟨S1600000x1, .i32⟩ : BufTy).Contents (Elt F)),
    StableHlo.binary main_v113 main_v126 main_v127 ((fun x i => Host.gather gather_S50000x9_S1600000x1_S1600000x9_1_0_n_n_0_1_19 x i) : (⟨S50000x9, .f32⟩ : BufTy).Contents (Elt F) → (⟨S1600000x1, .i32⟩ : BufTy).Contents (Elt F) → (⟨S1600000x9, .f32⟩ : BufTy).Contents (Elt F)),
    StableHlo.nary ![main_v67, main_v120, main_v127] main_v128 (fun u => concatenate S1600000x27 1 [⟨S1600000x9, u 0⟩, ⟨S1600000x9, u 1⟩, ⟨S1600000x9, u 2⟩] concatenates_S1600000x9_S1600000x9_S1600000x9_S1600000x27_d1),
    StableHlo.nullary main_c_28 (constantI S_ 32 27#32),
    StableHlo.unary main_c_28 main_v129 (broadcastInDim S27 ![] bcast_S_S27 : (⟨S_, .i32⟩ : BufTy).Contents (Elt F) → (⟨S27, .i32⟩ : BufTy).Contents (Elt F)),
    StableHlo.binary main_c main_v129 main_v130 (addi : (⟨S27, .i32⟩ : BufTy).Contents (Elt F) → (⟨S27, .i32⟩ : BufTy).Contents (Elt F) → (⟨S27, .i32⟩ : BufTy).Contents (Elt F)),
    StableHlo.ternary main_c_0 main_v130 main_c main_v131 (select : (⟨S27, .i1⟩ : BufTy).Contents (Elt F) → (⟨S27, .i32⟩ : BufTy).Contents (Elt F) → (⟨S27, .i32⟩ : BufTy).Contents (Elt F) → (⟨S27, .i32⟩ : BufTy).Contents (Elt F)),
    StableHlo.unary main_v131 main_v132 (broadcastInDim S27x1 ![0] bcast_S27_S27x1_0 : (⟨S27, .i32⟩ : BufTy).Contents (Elt F) → (⟨S27x1, .i32⟩ : BufTy).Contents (Elt F)),
    StableHlo.binary main_v128 main_v132 main_v133 ((fun x i => Host.gather gather_S1600000x27_S27x1_S1600000x27_0_1_n_n_1_1_16000001 x i) : (⟨S1600000x27, .f32⟩ : BufTy).Contents (Elt F) → (⟨S27x1, .i32⟩ : BufTy).Contents (Elt F) → (⟨S1600000x27, .f32⟩ : BufTy).Contents (Elt F)) ]

/-- @main's 169 operations, in order. -/
abbrev ops : List (HloOp τ sig (Elt F)) := ops0 ++ (ops1 ++ ops2)

end Cert.ReferenceIdeal.Run

end
-- ==== Proof.RefTerm.lean ====
/-
  The reference's result as ONE function of its three arguments, built from named stages.

  The reference computes, in order: the edge vectors `pos[col] − pos[row]` (two gathers of rows, the index words
  wrapped as Python wraps a negative subscript); their lengths, the root of the sum of squares along the short
  axis; the unit vectors, the quotient; the nine harmonics of the unit vectors, column by column, set side by
  side; the nine harmonics of every node's spin, gathered at the heads and at the tails; the three tables of nine set
  side by side; and last the columns of that table taken in the degree-by-degree order.
-/
import proofs.«410445_j87213605913075_3_alg».proof.Proof.Gen.ReferenceIdeal

noncomputable section

namespace Cert.ReferenceIdeal.Term

open Cert.ReferenceIdeal Cert.ReferenceIdeal.Gen Idealize.ShloMosaic

variable {F : FTy → Type} [FloatOps F]

/-- Row `k` of the index array, as a vector over the edges. -/
def indexRow0 (ei : IVec S2x1600000 32) : IVec S1600000 32 :=
  shapeCast S1600000 (extractStridedSlice S1x1600000 ![0, 0] ei slices_S2x1600000_S1x1600000_0_0) shapeCasts_S1x1600000_S1600000
def indexRow1 (ei : IVec S2x1600000 32) : IVec S1600000 32 :=
  shapeCast S1600000 (extractStridedSlice S1x1600000 ![1, 0] ei slices_S2x1600000_S1x1600000_1_0) shapeCasts_S1x1600000_S1600000

/-- An index vector wrapped (a negative word counts from the end of the 50000 nodes) and set as a column. -/
def wrapColumn (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 50000#32))) x)

/-- The edge vectors: position at the head minus position at the tail. -/
def edgeVec (pos : FVec F S50000x3 .f32) (ei : IVec S2x1600000 32) : FVec F S1600000x3 .f32 :=
  subf (Host.gather gather_S50000x3_S1600000x1_S1600000x3_1_0_n_n_0_1_13 pos (wrapColumn (indexRow1 ei)))
    (Host.gather gather_S50000x3_S1600000x1_S1600000x3_1_0_n_n_0_1_13 pos (wrapColumn (indexRow0 ei)))

/-- The lengths, as a column: the root of the sum of squares along the short axis. -/
def lengthColumn (v : FVec F S1600000x3 .f32) : FVec F S1600000x1 .f32 :=
  Host.sqrt (broadcastInDim S1600000x1 ![0] bcast_S1600000_S1600000x1_0
    (Host.reduceAdd (mulf v v) (constant S_ .f32 0x00000000#32) reducesTo_S1600000x3_S1600000_d1 h_S_))

/-- The unit vectors: each edge vector divided by its length. -/
def unitVec (v : FVec F S1600000x3 .f32) : FVec F S1600000x3 .f32 :=
  Host.divf v (broadcastInDim S1600000x3 ![0, 1] bcast_S1600000x1_S1600000x3_0_1 (lengthColumn v))

/-- Column `a` of a table of edge vectors. -/
def edgeCol0 (v : FVec F S1600000x3 .f32) : FVec F S1600000 .f32 :=
  shapeCast S1600000 (extractStridedSlice S1600000x1 ![0, 0] v slices_S1600000x3_S1600000x1_0_0) shapeCasts_S1600000x1_S1600000
def edgeCol1 (v : FVec F S1600000x3 .f32) : FVec F S1600000 .f32 :=
  shapeCast S1600000 (extractStridedSlice S1600000x1 ![0, 1] v slices_S1600000x3_S1600000x1_0_1) shapeCasts_S1600000x1_S1600000
def edgeCol2 (v : FVec F S1600000x3 .f32) : FVec F S1600000 .f32 :=
  shapeCast S1600000 (extractStridedSlice S1600000x1 ![0, 2] v slices_S1600000x3_S1600000x1_0_2) shapeCasts_S1600000x1_S1600000

/-- Column `a` of a table of node vectors. -/
def nodeCol0 (s : FVec F S50000x3 .f32) : FVec F S50000 .f32 :=
  shapeCast S50000 (extractStridedSlice S50000x1 ![0, 0] s slices_S50000x3_S50000x1_0_0) shapeCasts_S50000x1_S50000
def nodeCol1 (s : FVec F S50000x3 .f32) : FVec F S50000 .f32 :=
  shapeCast S50000 (extractStridedSlice S50000x1 ![0, 1] s slices_S50000x3_S50000x1_0_1) shapeCasts_S50000x1_S50000
def nodeCol2 (s : FVec F S50000x3 .f32) : FVec F S50000 .f32 :=
  shapeCast S50000 (extractStridedSlice S50000x1 ![0, 2] s slices_S50000x3_S50000x1_0_2) shapeCasts_S50000x1_S50000

/-- A constant spread over the edges, and a vector over the edges set as a column. -/
def edgeConst (b : BitVec 32) : FVec F S1600000 .f32 := broadcastInDim S1600000 ![] bcast_S_S1600000 (constant S_ .f32 b)
def edgeColumn (x : FVec F S1600000 .f32) : FVec F S1600000x1 .f32 := broadcastInDim S1600000x1 ![0] bcast_S1600000_S1600000x1_0 x
def nodeConst (b : BitVec 32) : FVec F S50000 .f32 := broadcastInDim S50000 ![] bcast_S_S50000 (constant S_ .f32 b)
def nodeColumn (x : FVec F S50000 .f32) : FVec F S50000x1 .f32 := broadcastInDim S50000x1 ![0] bcast_S50000_S50000x1_0 x

/-- The nine harmonics of the vectors with components `x, y, z` over the edges, set side by side. -/
def harmEdges (x y z : FVec F S1600000 .f32) : FVec F S1600000x9 .f32 :=
  concatenate S1600000x9 1
    [⟨S1600000x1, edgeColumn (edgeConst 0x3F800000#32)⟩,
     ⟨S1600000x1, edgeColumn (mulf (edgeConst 0x3FDDB3D7#32) x)⟩,
     ⟨S1600000x1, edgeColumn (mulf (edgeConst 0x3FDDB3D7#32) y)⟩,
     ⟨S1600000x1, edgeColumn (mulf (edgeConst 0x3FDDB3D7#32) z)⟩,
     ⟨S1600000x1, edgeColumn (mulf (mulf (edgeConst 0x4077DEF6#32) x) z)⟩,
     ⟨S1600000x1, edgeColumn (mulf (mulf (edgeConst 0x4077DEF6#32) x) y)⟩,
     ⟨S1600000x1, edgeColumn (mulf (edgeConst 0x400F1BBD#32) (subf (mulf y y) (mulf (edgeConst 0x3F000000#32) (addf (mulf x x) (mulf z z)))))⟩,
     ⟨S1600000x1, edgeColumn (mulf (mulf (edgeConst 0x4077DEF6#32) y) z)⟩,
     ⟨S1600000x1, edgeColumn (mulf (edgeConst 0x3FF7DEF6#32) (subf (mulf z z) (mulf x x)))⟩]
    concatenates_S1600000x1_S1600000x1_S1600000x1_S1600000x1_S1600000x1_S1600000x1_S1600000x1_S1600000x1_S1600000x1_S1600000x9_d1

/-- The same over the nodes. -/
def harmNodes (x y z : FVec F S50000 .f32) : FVec F S50000x9 .f32 :=
  concatenate S50000x9 1
    [⟨S50000x1, nodeColumn (nodeConst 0x3F800000#32)⟩,
     ⟨S50000x1, nodeColumn (mulf (nodeConst 0x3FDDB3D7#32) x)⟩,
     ⟨S50000x1, nodeColumn (mulf (nodeConst 0x3FDDB3D7#32) y)⟩,
     ⟨S50000x1, nodeColumn (mulf (nodeConst 0x3FDDB3D7#32) z)⟩,
     ⟨S50000x1, nodeColumn (mulf (mulf (nodeConst 0x4077DEF6#32) x) z)⟩,
     ⟨S50000x1, nodeColumn (mulf (mulf (nodeConst 0x4077DEF6#32) x) y)⟩,
     ⟨S50000x1, nodeColumn (mulf (nodeConst 0x400F1BBD#32) (subf (mulf y y) (mulf (nodeConst 0x3F000000#32) (addf (mulf x x) (mulf z z)))))⟩,
     ⟨S50000x1, nodeColumn (mulf (mulf (nodeConst 0x4077DEF6#32) y) z)⟩,
     ⟨S50000x1, nodeColumn (mulf (nodeConst 0x3FF7DEF6#32) (subf (mulf z z) (mulf x x)))⟩]
    concatenates_S50000x1_S50000x1_S50000x1_S50000x1_S50000x1_S50000x1_S50000x1_S50000x1_S50000x1_S50000x9_d1

/-- Every node's spin harmonics. -/
def spinHarm (spin : FVec F S50000x3 .f32) : FVec F S50000x9 .f32 :=
  harmNodes (nodeCol0 spin) (nodeCol1 spin) (nodeCol2 spin)

/-- The 27 columns before they are reordered: direction, spin at the head, spin at the tail. -/
def grouped (pos spin : FVec F S50000x3 .f32) (ei : IVec S2x1600000 32) : FVec F S1600000x27 .f32 :=
  concatenate S1600000x27 1
    [⟨S1600000x9, harmEdges (edgeCol0 (unitVec (edgeVec pos ei))) (edgeCol1 (unitVec (edgeVec pos ei))) (edgeCol2 (unitVec (edgeVec pos ei)))⟩,
     ⟨S1600000x9, Host.gather gather_S50000x9_S1600000x1_S1600000x9_1_0_n_n_0_1_19 (spinHarm spin) (wrapColumn (indexRow1 ei))⟩,
     ⟨S1600000x9, Host.gather gather_S50000x9_S1600000x1_S1600000x9_1_0_n_n_0_1_19 (spinHarm spin) (wrapColumn (indexRow0 ei))⟩]
    concatenates_S1600000x9_S1600000x9_S1600000x9_S1600000x27_d1

/-- The column order as an index column: the table of 27 words, wrapped (none is negative, so the wrap's test is the
    constant `false`). -/
def columnOrder : IVec S27x1 32 :=
  broadcastInDim S27x1 ![0] bcast_S27_S27x1_0
    (select (constantI S27 1 0#1)
      (addi (fun i => lit0 (S27.rowMajor i)) (broadcastInDim S27 ![] bcast_S_S27 (constantI S_ 32 27#32)))
      (fun i => lit0 (S27.rowMajor i)))

/-- THE REFERENCE'S RESULT: the grouped table's columns in the degree-by-degree order. -/
def result (pos spin : FVec F S50000x3 .f32) (ei : IVec S2x1600000 32) : FVec F S1600000x27 .f32 :=
  Host.gather gather_S1600000x27_S27x1_S1600000x27_0_1_n_n_1_1_16000001 (grouped pos spin ei) columnOrder

end Cert.ReferenceIdeal.Term

end
-- ==== Proof.RefRun.lean ====
/-
  The reference's run: @main is a straight line of host operations, every weakly fair execution of it ends, and it
  ends with the result buffer at the composed function of the three arguments (and the arguments as they were).
-/
import proofs.«410445_j87213605913075_3_alg».proof.Proof.RefOps
import proofs.«410445_j87213605913075_3_alg».proof.Proof.RefTerm
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ## The fold of two lines run one after the other -/

/-- The buffers after two lines run one after the other: the second line's fold over the first's. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-! ## The windows as lines of operations -/

/-- Window 0 of @main is the line of its operations, the call of @norm being the five operations of its body. -/
theorem part0_eq (c : Dev nD) : main_part0 (F := F) c = seq ops0 := rfl
/-- Windows 1 and 2 are the lines of theirs. -/
theorem part1_eq (c : Dev nD) : main_part1 (F := F) c = seq ops1 := rfl
theorem part2_eq (c : Dev nD) : main_part2 (F := F) c = seq ops2 := rfl

/-- @main is its three windows one after the other: one line of 169 operations. -/
theorem main_eq (c : Dev nD) : main (F := F) c = seq ops := by
  show main_part0 c >>= (fun _ => main_part1 c >>= fun _ => main_part2 c) = seq (ops0 ++ (ops1 ++ ops2))
  rw [seq_append, seq_append, part0_eq, part1_eq, part2_eq]

/-- The signature scopes no TensorCore buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches the TensorCore's references only: window by window, then the whole line. -/
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]
theorem ops_sub : (ops : List (HloOp τ sig (Elt F))).Forall fun op => op.bufs ⊆ tcRefs τ sig :=
  List.forall_append.mpr ⟨ops0_sub, List.forall_append.mpr ⟨ops1_sub, ops2_sub⟩⟩

/-! ## Window 0: the unit vectors' columns and the harmonics' first factors -/

/-- The unit vectors along the edges, from the launch contents. -/
local notation "unit[" V "]" => Term.unitVec (Term.edgeVec (V main_arg0) (V main_arg2))

/-- What window 0 leaves in the buffers the later windows read. First the two rows of the index array, the table of
    the column order and its test (the constant `false`). -/
theorem w0_v1 (V : Valuation τ sig (Elt F)) : after ops0 V main_v1 = Term.indexRow0 (V main_arg2) := by
  after_results_simp; rfl
theorem w0_v3 (V : Valuation τ sig (Elt F)) : after ops0 V main_v3 = Term.indexRow1 (V main_arg2) := by
  after_results_simp; rfl
theorem w0_c (V : Valuation τ sig (Elt F)) : after ops0 V main_c = fun i => lit0 (S27.rowMajor i) := by
  after_results_simp; rfl
theorem w0_c0 (V : Valuation τ sig (Elt F)) : after ops0 V main_c_0 = constantI S27 1 0#1 := by
  after_results_simp
set_option maxHeartbeats 1000000 in
/-- Then the three columns `x, y, z` of the unit vectors, the constant one, and the products the harmonics are made of:
    `√3·x, √3·y, √3·z, √15·x·z, √15·x·y, y², ½(x² + z²)`. -/
theorem w0_v23 (V : Valuation τ sig (Elt F)) : after ops0 V main_v23 = Term.edgeCol0 unit[V] := by
  after_results_simp; rfl
set_option maxHeartbeats 1000000 in
theorem w0_v25 (V : Valuation τ sig (Elt F)) : after ops0 V main_v25 = Term.edgeCol1 unit[V] := by
  after_results_simp; rfl
set_option maxHeartbeats 1000000 in
theorem w0_v27 (V : Valuation τ sig (Elt F)) : after ops0 V main_v27 = Term.edgeCol2 unit[V] := by
  after_results_simp; rfl
theorem w0_v28 (V : Valuation τ sig (Elt F)) : after ops0 V main_v28 = Term.edgeConst 0x3F800000#32 := by
  after_results_simp; rfl
set_option maxHeartbeats 1000000 in
theorem w0_v30 (V : Valuation τ sig (Elt F)) :
    after ops0 V main_v30 = mulf (Term.edgeConst 0x3FDDB3D7#32) (Term.edgeCol0 unit[V]) := by
  after_results_simp; rfl
set_option maxHeartbeats 1000000 in
theorem w0_v32 (V : Valuation τ sig (Elt F)) :
    after ops0 V main_v32 = mulf (Term.edgeConst 0x3FDDB3D7#32) (Term.edgeCol1 unit[V]) := by
  after_results_simp; rfl
set_option maxHeartbeats 1000000 in
theorem w0_v34 (V : Valuation τ sig (Elt F)) :
    after ops0 V main_v34 = mulf (Term.edgeConst 0x3FDDB3D7#32) (Term.edgeCol2 unit[V]) := by
  after_results_simp; rfl
set_option maxHeartbeats 1000000 in
theorem w0_v37 (V : Valuation τ sig (Elt F)) :
    after ops0 V main_v37 = mulf (mulf (Term.edgeConst 0x4077DEF6#32) (Term.edgeCol0 unit[V])) (Term.edgeCol2 unit[V]) := by
  after_results_simp; rfl
set_option maxHeartbeats 1000000 in
theorem w0_v40 (V : Valuation τ sig (Elt F)) :
    after ops0 V main_v40 = mulf (mulf (Term.edgeConst 0x4077DEF6#32) (Term.edgeCol0 unit[V])) (Term.edgeCol1 unit[V]) := by
  after_results_simp; rfl
set_option maxHeartbeats 1000000 in
theorem w0_v41 (V : Valuation τ sig (Elt F)) :
    after ops0 V main_v41 = mulf (Term.edgeCol1 unit[V]) (Term.edgeCol1 unit[V]) := by
  after_results_simp; rfl
set_option maxHeartbeats 1000000 in
theorem w0_v46 (V : Valuation τ sig (Elt F)) :
    after ops0 V main_v46
      = mulf (Term.edgeConst 0x3F000000#32)
          (addf (mulf (Term.edgeCol0 unit[V]) (Term.edgeCol0 unit[V])) (mulf (Term.edgeCol2 unit[V]) (Term.edgeCol2 unit[V]))) := by
  after_results_simp; rfl

/-- What window 0 does not write it leaves. -/
theorem w0_arg0 (V : Valuation τ sig (Elt F)) : after ops0 V main_arg0 = V main_arg0 := by after_results_simp
theorem w0_arg1 (V : Valuation τ sig (Elt F)) : after ops0 V main_arg1 = V main_arg1 := by after_results_simp
theorem w0_arg2 (V : Valuation τ sig (Elt F)) : after ops0 V main_arg2 = V main_arg2 := by after_results_simp

/-! ## Window 1: the edge table, and the spin's columns and their harmonics -/

set_option maxHeartbeats 1000000 in
/-- The nine harmonics of the edges, set side by side from what window 0 left. -/
theorem w1_v67 (W : Valuation τ sig (Elt F)) :
    after ops1 W main_v67 =
      concatenate S1600000x9 1
        [⟨S1600000x1, Term.edgeColumn (W main_v28)⟩,
         ⟨S1600000x1, Term.edgeColumn (W main_v30)⟩,
         ⟨S1600000x1, Term.edgeColumn (W main_v32)⟩,
         ⟨S1600000x1, Term.edgeColumn (W main_v34)⟩,
         ⟨S1600000x1, Term.edgeColumn (W main_v37)⟩,
         ⟨S1600000x1, Term.edgeColumn (W main_v40)⟩,
         ⟨S1600000x1, Term.edgeColumn (mulf (Term.edgeConst 0x400F1BBD#32) (subf (W main_v41) (W main_v46)))⟩,
         ⟨S1600000x1, Term.edgeColumn (mulf (mulf (Term.edgeConst 0x4077DEF6#32) (W main_v25)) (W main_v27))⟩,
         ⟨S1600000x1, Term.edgeColumn (mulf (Term.edgeConst 0x3FF7DEF6#32)
            (subf (mulf (W main_v27) (W main_v27)) (mulf (W main_v23) (W main_v23))))⟩]
        concatenates_S1600000x1_S1600000x1_S1600000x1_S1600000x1_S1600000x1_S1600000x1_S1600000x1_S1600000x1_S1600000x1_S1600000x9_d1 := by
  after_results
  rfl

/-- The spin's three columns `x, y, z` over the nodes, the constant one, and the harmonics window 1 finishes:
    `√3·x, √3·y, √3·z, √15·x·z, √15·x·y, √5·(y² − ½(x² + z²))`. -/
theorem w1_v69 (W : Valuation τ sig (Elt F)) : after ops1 W main_v69 = Term.nodeCol0 (W main_arg1) := by
  after_results_simp; rfl
theorem w1_v71 (W : Valuation τ sig (Elt F)) : after ops1 W main_v71 = Term.nodeCol1 (W main_arg1) := by
  after_results_simp; rfl
theorem w1_v73 (W : Valuation τ sig (Elt F)) : after ops1 W main_v73 = Term.nodeCol2 (W main_arg1) := by
  after_results_simp; rfl
theorem w1_v74 (W : Valuation τ sig (Elt F)) : after ops1 W main_v74 = Term.nodeConst 0x3F800000#32 := by
  after_results_simp; rfl
theorem w1_v76 (W : Valuation τ sig (Elt F)) :
    after ops1 W main_v76 = mulf (Term.nodeConst 0x3FDDB3D7#32) (Term.nodeCol0 (W main_arg1)) := by
  after_results_simp; rfl
theorem w1_v78 (W : Valuation τ sig (Elt F)) :
    after ops1 W main_v78 = mulf (Term.nodeConst 0x3FDDB3D7#32) (Term.nodeCol1 (W main_arg1)) := by
  after_results_simp; rfl
theorem w1_v80 (W : Valuation τ sig (Elt F)) :
    after ops1 W main_v80 = mulf (Term.nodeConst 0x3FDDB3D7#32) (Term.nodeCol2 (W main_arg1)) := by
  after_results_simp; rfl
theorem w1_v83 (W : Valuation τ sig (Elt F)) :
    after ops1 W main_v83
      = mulf (mulf (Term.nodeConst 0x4077DEF6#32) (Term.nodeCol0 (W main_arg1))) (Term.nodeCol2 (W main_arg1)) := by
  after_results_simp; rfl
theorem w1_v86 (W : Valuation τ sig (Elt F)) :
    after ops1 W main_v86
      = mulf (mulf (Term.nodeConst 0x4077DEF6#32) (Term.nodeCol0 (W main_arg1))) (Term.nodeCol1 (W main_arg1)) := by
  after_results_simp; rfl
theorem w1_v95 (W : Valuation τ sig (Elt F)) :
    after ops1 W main_v95
      = mulf (Term.nodeConst 0x400F1BBD#32)
          (subf (mulf (Term.nodeCol1 (W main_arg1)) (Term.nodeCol1 (W main_arg1)))
            (mulf (Term.nodeConst 0x3F000000#32)
              (addf (mulf (Term.nodeCol0 (W main_arg1)) (Term.nodeCol0 (W main_arg1)))
                (mulf (Term.nodeCol2 (W main_arg1)) (Term.nodeCol2 (W main_arg1)))))) := by
  after_results_simp; rfl

/-- What window 1 does not write it leaves. -/
theorem w1_v1 (W : Valuation τ sig (Elt F)) : after ops1 W main_v1 = W main_v1 := by after_results_simp
theorem w1_v3 (W : Valuation τ sig (Elt F)) : after ops1 W main_v3 = W main_v3 := by after_results_simp
theorem w1_c (W : Valuation τ sig (Elt F)) : after ops1 W main_c = W main_c := by after_results_simp
theorem w1_c0 (W : Valuation τ sig (Elt F)) : after ops1 W main_c_0 = W main_c_0 := by after_results_simp
theorem w1_arg0 (W : Valuation τ sig (Elt F)) : after ops1 W main_arg0 = W main_arg0 := by after_results_simp
theorem w1_arg1 (W : Valuation τ sig (Elt F)) : after ops1 W main_arg1 = W main_arg1 := by after_results_simp
theorem w1_arg2 (W : Valuation τ sig (Elt F)) : after ops1 W main_arg2 = W main_arg2 := by after_results_simp

/-! ## Window 2: the node table, its rows at the heads and at the tails, the three tables side by side, the columns reordered -/

set_option quotPrecheck false in
/-- The nine harmonics of the spins, set side by side from what window 1 left. -/
local notation "nodeTable[" W "]" =>
  concatenate S50000x9 1
    [⟨S50000x1, Term.nodeColumn (W main_v74)⟩,
     ⟨S50000x1, Term.nodeColumn (W main_v76)⟩,
     ⟨S50000x1, Term.nodeColumn (W main_v78)⟩,
     ⟨S50000x1, Term.nodeColumn (W main_v80)⟩,
     ⟨S50000x1, Term.nodeColumn (W main_v83)⟩,
     ⟨S50000x1, Term.nodeColumn (W main_v86)⟩,
     ⟨S50000x1, Term.nodeColumn (W main_v95)⟩,
     ⟨S50000x1, Term.nodeColumn (mulf (mulf (Term.nodeConst 0x4077DEF6#32) (W main_v71)) (W main_v73))⟩,
     ⟨S50000x1, Term.nodeColumn (mulf (Term.nodeConst 0x3FF7DEF6#32)
        (subf (mulf (W main_v73) (W main_v73)) (mulf (W main_v69) (W main_v69))))⟩]
    concatenates_S50000x1_S50000x1_S50000x1_S50000x1_S50000x1_S50000x1_S50000x1_S50000x1_S50000x1_S50000x9_d1

set_option maxHeartbeats 2000000 in
/-- The result buffer from what windows 0 and 1 left: the edge table beside the node table's rows at the heads and at
    the tails (the index rows wrapped), the 27 columns then taken in the order the table of column numbers gives. -/
theorem w2_v133 (W : Valuation τ sig (Elt F)) :
    after ops2 W main_v133 =
      Host.gather gather_S1600000x27_S27x1_S1600000x27_0_1_n_n_1_1_16000001
        (concatenate S1600000x27 1
          [⟨S1600000x9, W main_v67⟩,
           ⟨S1600000x9, Host.gather gather_S50000x9_S1600000x1_S1600000x9_1_0_n_n_0_1_19 nodeTable[W] (Term.wrapColumn (W main_v3))⟩,
           ⟨S1600000x9, Host.gather gather_S50000x9_S1600000x1_S1600000x9_1_0_n_n_0_1_19 nodeTable[W] (Term.wrapColumn (W main_v1))⟩]
          concatenates_S1600000x9_S1600000x9_S1600000x9_S1600000x27_d1)
        (broadcastInDim S27x1 ![0] bcast_S27_S27x1_0
          (select (W main_c_0) (addi (W main_c) (broadcastInDim S27 ![] bcast_S_S27 (constantI S_ 32 27#32))) (W main_c))) := by
  after_results
  rfl

/-- Window 2 writes no argument. -/
theorem w2_arg0 (W : Valuation τ sig (Elt F)) : after ops2 W main_arg0 = W main_arg0 := by after_results_simp
theorem w2_arg1 (W : Valuation τ sig (Elt F)) : after ops2 W main_arg1 = W main_arg1 := by after_results_simp
theorem w2_arg2 (W : Valuation τ sig (Elt F)) : after ops2 W main_arg2 = W main_arg2 := by after_results_simp

/-! ## The whole line -/

set_option maxHeartbeats 1000000 in
/-- The result buffer after the whole line: window by window, the composed function of the arguments. -/
theorem result_eq (V : Valuation τ sig (Elt F)) :
    after ops V main_v133 = Term.result (V main_arg0) (V main_arg1) (V main_arg2) := by
  show after (ops0 ++ (ops1 ++ ops2)) V main_v133 = _
  rw [after_append, after_append, w2_v133,
    w1_v67, w1_v69, w1_v71, w1_v73, w1_v74, w1_v76, w1_v78, w1_v80, w1_v83, w1_v86, w1_v95, w1_v1, w1_v3, w1_c, w1_c0,
    w0_v23, w0_v25, w0_v27, w0_v28, w0_v30, w0_v32, w0_v34, w0_v37, w0_v40, w0_v41, w0_v46, w0_v1, w0_v3, w0_c, w0_c0,
    w0_arg1]
  rfl

/-- No operation of the line writes an argument. -/
theorem arg0_eq (V : Valuation τ sig (Elt F)) : after ops V main_arg0 = V main_arg0 := by
  show after (ops0 ++ (ops1 ++ ops2)) V main_arg0 = _
  rw [after_append, after_append, w2_arg0, w1_arg0, w0_arg0]
theorem arg1_eq (V : Valuation τ sig (Elt F)) : after ops V main_arg1 = V main_arg1 := by
  show after (ops0 ++ (ops1 ++ ops2)) V main_arg1 = _
  rw [after_append, after_append, w2_arg1, w1_arg1, w0_arg1]
theorem arg2_eq (V : Valuation τ sig (Elt F)) : after ops V main_arg2 = V main_arg2 := by
  show after (ops0 ++ (ops1 ++ ops2)) V main_arg2 = _
  rw [after_append, after_append, w2_arg2, w1_arg2, w0_arg2]

/-- THE REFERENCE'S RUN: from any memory with zero counters every weakly fair execution of @main terminates, the result
    buffer holding the composed function `Term.result` of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v133)
          = Term.result (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v133).trans (result_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.Run

end
-- ==== Proof.RefDirection.lean ====
/-
  The reference's direction harmonics, read at an index.

  The edge vector at `(e, a)` is `pos (col e, a) − pos (row e, a)`, the two rows found by the gathers (index words
  wrapped and clamped).  The length column at `e` is the root of `0 + (v₀² + v₁² + v₂²)`, the host's sum started from
  zero; the unit vector is the quotient.  Column `h` of the table of nine harmonics at row `e` is harmonic `h` of that
  unit vector.
-/
import proofs.«410445_j87213605913075_3_alg».proof.Proof.RefTerm
import proofs.«410445_j87213605913075_3_alg».proof.Proof.Spec
import proofs.«410445_j87213605913075_3_alg».proof.Proof.LibGatherAxis
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx EdgeHarmonics

/-- Row `k` of the index array at edge `e`. -/
theorem indexRow0_apply (ei : IVec S2x1600000 32) (e : Fin 1600000) : Term.indexRow0 ei (ix1 e) = ei (ix2 0 e) := by
  -- the cast [1, E] → [E] reads (0, e); the slice from row 0 reads row 0 + 0
  unfold Term.indexRow0
  rw [shapeCast_1a_a_apply]
  exact slice2_axis0_apply 0 ei _ 0 e 0 rfl
theorem indexRow1_apply (ei : IVec S2x1600000 32) (e : Fin 1600000) : Term.indexRow1 ei (ix1 e) = ei (ix2 1 e) := by
  -- the cast [1, E] → [E] reads (0, e); the slice from row 1 reads row 1 + 0
  unfold Term.indexRow1
  rw [shapeCast_1a_a_apply]
  exact slice2_axis0_apply 1 ei _ 0 e 1 rfl

/-- The wrapped index column at `(e, 0)` is the wrapped word. -/
theorem wrapColumn_apply (x : IVec S1600000 32) (e : Fin 1600000) :
    Term.wrapColumn x (ix2 e 0) = wrapWord (x (ix1 e)) := by
  -- the column [E] → [E, 1] reads the vector at e; compare, add and select are pointwise, the two constants spread
  unfold Term.wrapColumn
  rw [broadcastInDim_apply _ _ _ (ix2 e 0) (ix1 e) (fun a => by match a with | ⟨0, _⟩ => rfl)]
  rfl

/-- A gather of rows of a table of node vectors at a wrapped index column, read at `(e, a)`: the table at the node
    the index word names. -/
theorem gatherNode_apply (pos : FVec Ideal S50000x3 .f32) (x : IVec S1600000 32) (e : Fin 1600000) (a : Fin 3) :
    Host.gather gather_S50000x3_S1600000x1_S1600000x3_1_0_n_n_0_1_13 pos (Term.wrapColumn x) (ix2 e a)
      = pos (ix2 (nodeOf (x (ix1 e))) a) := by
  refine (GatherAxis.gather_rows_apply (N := 50000) (C := 3) (E := 1600000) (by decide)
    gather_S50000x3_S1600000x1_S1600000x3_1_0_n_n_0_1_13_wf pos (Term.wrapColumn x) e a).trans ?_
  -- the row read is the wrapped word, signed, clamped into [0, 50000 − 1]: the node the word names
  refine congrArg (fun n : Fin 50000 => pos (ix2 n a)) (Fin.ext ?_)
  show min (Term.wrapColumn x (ix2 e 0)).toInt.toNat (50000 - 1) = min (wrapWord (x (ix1 e))).toInt.toNat 49999
  exact congrArg (fun w : BitVec 32 => min w.toInt.toNat 49999) (wrapColumn_apply x e)

/-- THE EDGE VECTOR AT `(e, a)`: position at the head minus position at the tail. -/
theorem edgeVec_apply (pos : FVec Ideal S50000x3 .f32) (ei : IVec S2x1600000 32) (e : Fin 1600000) (a : Fin 3) :
    Term.edgeVec (F := Ideal) pos ei (ix2 e a)
      = pos (ix2 (nodeOf (ei (ix2 1 e))) a) - pos (ix2 (nodeOf (ei (ix2 0 e))) a) := by
  unfold Term.edgeVec
  rw [subf_apply, gatherNode_apply, gatherNode_apply, indexRow1_apply, indexRow0_apply]

/-- The host's root at an index is the extended reals' root of the element. -/
theorem hostSqrt_apply {s : Shape} {φ : FTy} (x : FVec Ideal s φ) (i : s.Idx) : Host.sqrt x i = Ideal.sqrt (x i) := rfl

/-- Column `a` of a table of edge vectors at edge `e`. -/
theorem edgeCol0_apply (v : FVec Ideal S1600000x3 .f32) (e : Fin 1600000) : Term.edgeCol0 v (ix1 e) = v (ix2 e 0) := by
  unfold Term.edgeCol0
  rw [shapeCast_apply _ _ (ix1 e) (ix2 e (0 : Fin 1)) (by
    rw [Shape.rowMajor_val_two, Shape.rowMajor_val_one]; show e.val * 1 + 0 = e.val; omega)]
  exact slice2_axis1_apply 0 v _ e 0 0 rfl
theorem edgeCol1_apply (v : FVec Ideal S1600000x3 .f32) (e : Fin 1600000) : Term.edgeCol1 v (ix1 e) = v (ix2 e 1) := by
  unfold Term.edgeCol1
  rw [shapeCast_apply _ _ (ix1 e) (ix2 e (0 : Fin 1)) (by
    rw [Shape.rowMajor_val_two, Shape.rowMajor_val_one]; show e.val * 1 + 0 = e.val; omega)]
  exact slice2_axis1_apply 1 v _ e 0 1 rfl
theorem edgeCol2_apply (v : FVec Ideal S1600000x3 .f32) (e : Fin 1600000) : Term.edgeCol2 v (ix1 e) = v (ix2 e 2) := by
  unfold Term.edgeCol2
  rw [shapeCast_apply _ _ (ix1 e) (ix2 e (0 : Fin 1)) (by
    rw [Shape.rowMajor_val_two, Shape.rowMajor_val_one]; show e.val * 1 + 0 = e.val; omega)]
  exact slice2_axis1_apply 2 v _ e 0 2 rfl

/-- The length column at `(e, 0)`: the root of the squared length of row `e`. -/
theorem lengthColumn_apply (v : FVec Ideal S1600000x3 .f32) (e : Fin 1600000) :
    Term.lengthColumn v (ix2 e 0) = Ideal.sqrt (sqLen fun a => v (ix2 e a)) := by
  -- the root is pointwise; the column [E] → [E, 1] reads the sum at e
  unfold Term.lengthColumn
  rw [hostSqrt_apply, broadcastInDim_apply _ _ _ (ix2 e 0) (ix1 e) (fun a => by match a with | ⟨0, _⟩ => rfl)]
  -- the host's sum along the short axis is its start, the zero word, plus the three squares
  have hR : S1600000x3.Reduces [1] S1600000 := by decide
  rw [hostReduceAdd_apply, Ideal.hostReduceAdd_single _ hR, constant_apply, Ideal.ofBits_zero_f32, zero_add]
  -- the index put back on the summed axis is (e, k)
  have hl : ∀ k : Fin 3, hR.lift (ix1 e) k = ix2 e k := fun k => by
    funext b; refine Fin.ext ?_
    match b with
    | ⟨0, _⟩ => rfl
    | ⟨1, _⟩ => rfl
  refine congrArg Ideal.sqrt ?_
  refine (Fin.sum_univ_three (fun k : Fin 3 => mulf v v (hR.lift (ix1 e) k))).trans ?_
  rw [hl, hl, hl]
  rfl

/-- THE UNIT VECTOR AT `(e, a)`: component `a` of row `e` divided by the row's length. -/
theorem unitVec_apply (v : FVec Ideal S1600000x3 .f32) (e : Fin 1600000) (a : Fin 3) :
    Term.unitVec v (ix2 e a) = direction (fun b => v (ix2 e b)) a := by
  -- the quotient is pointwise; the spread [E, 1] → [E, 3] reads the length column at (e, 0)
  unfold Term.unitVec
  rw [hostDivf_apply, broadcastInDim_apply _ _ _ (ix2 e a) (ix2 e (0 : Fin 1)) (fun b => by
    match b with
    | ⟨0, _⟩ => rfl
    | ⟨1, _⟩ => rfl), lengthColumn_apply]
  rfl

/-- Nine columns set side by side, read at `(e, k)`: column `k` at `(e, 0)`. -/
theorem nineColumns_apply {α : Type} (p0 p1 p2 p3 p4 p5 p6 p7 p8 : S1600000x1.Idx → α)
    (h : Shape.Concatenates [S1600000x1, S1600000x1, S1600000x1, S1600000x1, S1600000x1, S1600000x1, S1600000x1,
      S1600000x1, S1600000x1] S1600000x9 1) (e : Fin 1600000) (k : Fin 9) :
    concatenate S1600000x9 1 [⟨S1600000x1, p0⟩, ⟨S1600000x1, p1⟩, ⟨S1600000x1, p2⟩, ⟨S1600000x1, p3⟩, ⟨S1600000x1, p4⟩,
        ⟨S1600000x1, p5⟩, ⟨S1600000x1, p6⟩, ⟨S1600000x1, p7⟩, ⟨S1600000x1, p8⟩] h (ix2 e k)
      = (![p0, p1, p2, p3, p4, p5, p6, p7, p8] : Fin 9 → S1600000x1.Idx → α) k (ix2 e 0) :=
  -- nine pieces of extent one along axis 1: position k falls in piece k, at offset 0
  concatenate_ofFn_unit_apply (t := S1600000x9) (s₁ := S1600000x1) 1 ![p0, p1, p2, p3, p4, p5, p6, p7, p8] h rfl rfl
    (ix2 e k) k rfl (ix2 e 0) (fun b hb => by
      match b with
      | ⟨0, _⟩ => rfl
      | ⟨1, _⟩ => exact absurd rfl hb)

/-- A vector set as a column, read at `(e, 0)`. -/
theorem edgeColumn_apply (x : FVec Ideal S1600000 .f32) (e : Fin 1600000) : Term.edgeColumn x (ix2 e 0) = x (ix1 e) := by
  unfold Term.edgeColumn
  exact broadcastInDim_apply _ _ _ (ix2 e 0) (ix1 e) (fun a => by match a with | ⟨0, _⟩ => rfl)

/-- A constant word spread over the edges reads the number the word encodes. -/
theorem edgeConst_apply (b : BitVec 32) (i : S1600000.Idx) : Term.edgeConst (F := Ideal) b i = Ideal.ofBits .f32 b := by
  unfold Term.edgeConst
  rw [broadcastInDim_scalar_apply, constant_apply]

/-- THE TABLE OF NINE HARMONICS AT `(e, h)`: harmonic `h` of the vector `(x e, y e, z e)`. -/
theorem harmEdges_apply (x y z : FVec Ideal S1600000 .f32) (e : Fin 1600000) (h : Fin 9) :
    Term.harmEdges x y z (ix2 e h) = harm ![x (ix1 e), y (ix1 e), z (ix1 e)] h := by
  -- column h is piece h at (e, 0), a vector set as a column: the vector at e, a pointwise expression of x, y, z
  unfold Term.harmEdges
  refine (nineColumns_apply _ _ _ _ _ _ _ _ _ _ e h).trans ?_
  match h with
  | ⟨0, _⟩ =>
    show Term.edgeColumn (Term.edgeConst 0x3F800000#32) (ix2 e 0) = Ideal.ofBits .f32 0x3F800000#32
    rw [edgeColumn_apply, edgeConst_apply]
  | ⟨1, _⟩ =>
    show Term.edgeColumn (mulf (Term.edgeConst 0x3FDDB3D7#32) x) (ix2 e 0) = Ideal.ofBits .f32 0x3FDDB3D7#32 * x (ix1 e)
    rw [edgeColumn_apply, mulf_apply, edgeConst_apply]
  | ⟨2, _⟩ =>
    show Term.edgeColumn (mulf (Term.edgeConst 0x3FDDB3D7#32) y) (ix2 e 0) = Ideal.ofBits .f32 0x3FDDB3D7#32 * y (ix1 e)
    rw [edgeColumn_apply, mulf_apply, edgeConst_apply]
  | ⟨3, _⟩ =>
    show Term.edgeColumn (mulf (Term.edgeConst 0x3FDDB3D7#32) z) (ix2 e 0) = Ideal.ofBits .f32 0x3FDDB3D7#32 * z (ix1 e)
    rw [edgeColumn_apply, mulf_apply, edgeConst_apply]
  | ⟨4, _⟩ =>
    show Term.edgeColumn (mulf (mulf (Term.edgeConst 0x4077DEF6#32) x) z) (ix2 e 0)
      = Ideal.ofBits .f32 0x4077DEF6#32 * x (ix1 e) * z (ix1 e)
    rw [edgeColumn_apply, mulf_apply, mulf_apply, edgeConst_apply]
  | ⟨5, _⟩ =>
    show Term.edgeColumn (mulf (mulf (Term.edgeConst 0x4077DEF6#32) x) y) (ix2 e 0)
      = Ideal.ofBits .f32 0x4077DEF6#32 * x (ix1 e) * y (ix1 e)
    rw [edgeColumn_apply, mulf_apply, mulf_apply, edgeConst_apply]
  | ⟨6, _⟩ =>
    show Term.edgeColumn (mulf (Term.edgeConst 0x400F1BBD#32)
        (subf (mulf y y) (mulf (Term.edgeConst 0x3F000000#32) (addf (mulf x x) (mulf z z))))) (ix2 e 0)
      = Ideal.ofBits .f32 0x400F1BBD#32
        * (y (ix1 e) * y (ix1 e) - Ideal.ofBits .f32 0x3F000000#32 * (x (ix1 e) * x (ix1 e) + z (ix1 e) * z (ix1 e)))
    rw [edgeColumn_apply, mulf_apply, subf_apply, mulf_apply, mulf_apply, addf_apply, mulf_apply, mulf_apply,
      edgeConst_apply, edgeConst_apply]
  | ⟨7, _⟩ =>
    show Term.edgeColumn (mulf (mulf (Term.edgeConst 0x4077DEF6#32) y) z) (ix2 e 0)
      = Ideal.ofBits .f32 0x4077DEF6#32 * y (ix1 e) * z (ix1 e)
    rw [edgeColumn_apply, mulf_apply, mulf_apply, edgeConst_apply]
  | ⟨8, _⟩ =>
    show Term.edgeColumn (mulf (Term.edgeConst 0x3FF7DEF6#32) (subf (mulf z z) (mulf x x))) (ix2 e 0)
      = Ideal.ofBits .f32 0x3FF7DEF6#32 * (z (ix1 e) * z (ix1 e) - x (ix1 e) * x (ix1 e))
    rw [edgeColumn_apply, mulf_apply, subf_apply, mulf_apply, mulf_apply, edgeConst_apply]

/-- THE DIRECTION'S HARMONICS AT `(e, h)`: harmonic `h` of the unit vector along edge `e`. -/
theorem direction_harm (pos : FVec Ideal S50000x3 .f32) (ei : IVec S2x1600000 32) (e : Fin 1600000) (h : Fin 9) :
    Term.harmEdges (F := Ideal) (Term.edgeCol0 (Term.unitVec (Term.edgeVec pos ei)))
        (Term.edgeCol1 (Term.unitVec (Term.edgeVec pos ei))) (Term.edgeCol2 (Term.unitVec (Term.edgeVec pos ei))) (ix2 e h)
      = harm (direction fun a => pos (ix2 (nodeOf (ei (ix2 1 e))) a) - pos (ix2 (nodeOf (ei (ix2 0 e))) a)) h := by
  -- the three columns of the unit vectors at e are the three components of the direction of row e of the edge vectors
  rw [harmEdges_apply, edgeCol0_apply, edgeCol1_apply, edgeCol2_apply, unitVec_apply, unitVec_apply, unitVec_apply]
  have hv : (fun b => Term.edgeVec (F := Ideal) pos ei (ix2 e b))
      = fun a => pos (ix2 (nodeOf (ei (ix2 1 e))) a) - pos (ix2 (nodeOf (ei (ix2 0 e))) a) :=
    funext fun b => edgeVec_apply pos ei e b
  rw [hv]
  refine congrArg (fun v => harm v h) (funext fun a => ?_)
  match a with
  | ⟨0, _⟩ => rfl
  | ⟨1, _⟩ => rfl
  | ⟨2, _⟩ => rfl

end Cert.ReferenceIdeal.RefValue

end
-- ==== Proof.RefValue.lean ====
/-
  The reference's result, read index by index, is the edge harmonics.

  Entry `(e, k)` of the reference's result is column `order k` of the grouped table at row `e`; the grouped table is
  three tables of nine columns side by side, each column one harmonic; the direction's harmonics are computed from the
  unit edge vector, a quotient by the root of a three-term sum that the host sums from zero; the spins' harmonics are
  computed for every node and then gathered at the edge's head and tail.  Reading each operation at an index gives the
  27 numbers of `EdgeHarmonics.target`, with no algebra beyond `0 + (a + b + c) = a + b + c`.
-/
import proofs.«410445_j87213605913075_3_alg».proof.Proof.RefTerm
import proofs.«410445_j87213605913075_3_alg».proof.Proof.Spec
import proofs.«410445_j87213605913075_3_alg».proof.Proof.LibGatherAxis
import proofs.«410445_j87213605913075_3_alg».proof.Proof.RefDirection
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx EdgeHarmonics

/-! The lemmas that read one operation at an index, in a namespace of their own. -/
namespace Entry

/-! ## The column order -/

/-- The column of the grouped table that result column `k` shows: the degree-by-degree order. -/
def orderTable : Fin 27 → Fin 27 :=
  ![0, 9, 18, 1, 2, 3, 10, 11, 12, 19, 20, 21, 4, 5, 6, 7, 8, 13, 14, 15, 16, 17, 22, 23, 24, 25, 26]

/-- The order column at `(k, 0)` is the table's word at `k`: the wrap's test is the constant `false`. -/
theorem columnOrder_apply (k : Fin 27) : Term.columnOrder (ix2 k 0) = lit0 k := by
  unfold Term.columnOrder
  rw [broadcastInDim_apply _ _ _ (ix2 k 0) (ix1 k) (fun a => by match a with | ⟨0, _⟩ => rfl)]
  rw [select_apply]
  show Scalar.select 0#1 _ _ = _
  rw [select_zero]
  exact congrArg lit0 (Fin.ext (Shape.rowMajor_val_one (ix1 k)))

/-- The word at `k`, read signed and clamped into the 27 columns, is the order table's entry. -/
theorem order_apply (k : Fin 27) (hlt : min (Term.columnOrder (ix2 k 0)).toInt.toNat (27 - 1) < 27) :
    (⟨min (Term.columnOrder (ix2 k 0)).toInt.toNat (27 - 1), hlt⟩ : Fin 27) = orderTable k := by
  apply Fin.ext
  show min (Term.columnOrder (ix2 k 0)).toInt.toNat (27 - 1) = (orderTable k).val
  rw [columnOrder_apply]
  fin_cases k <;> rfl

/-- ENTRY `(e, k)` OF THE RESULT is the grouped table at row `e`, column `orderTable k`. -/
theorem result_apply (pos spin : FVec Ideal S50000x3 .f32) (ei : IVec S2x1600000 32) (e : Fin 1600000) (k : Fin 27) :
    Term.result (F := Ideal) pos spin ei (ix2 e k) = Term.grouped pos spin ei (ix2 e (orderTable k)) := by
  unfold Term.result
  refine Eq.trans (show _ = Host.gather (GatherAxis.colsDims 1600000 27 27
    gather_S1600000x27_S27x1_S1600000x27_0_1_n_n_1_1_16000001_wf) (Term.grouped pos spin ei) Term.columnOrder (ix2 e k) from rfl) ?_
  rw [GatherAxis.gather_cols_apply (by decide), order_apply]

/-! ## The grouped table: three tables of nine columns side by side -/

/-- The three tables: the direction's harmonics, the spin's at the head, the spin's at the tail. -/
def groupedPieces (pos spin : FVec Ideal S50000x3 .f32) (ei : IVec S2x1600000 32) : Fin 3 → (S1600000x9.Idx → EReal) :=
  ![Term.harmEdges (F := Ideal) (Term.edgeCol0 (Term.unitVec (Term.edgeVec pos ei)))
      (Term.edgeCol1 (Term.unitVec (Term.edgeVec pos ei))) (Term.edgeCol2 (Term.unitVec (Term.edgeVec pos ei))),
    Host.gather gather_S50000x9_S1600000x1_S1600000x9_1_0_n_n_0_1_19 (Term.spinHarm (F := Ideal) spin)
      (Term.wrapColumn (Term.indexRow1 ei)),
    Host.gather gather_S50000x9_S1600000x1_S1600000x9_1_0_n_n_0_1_19 (Term.spinHarm (F := Ideal) spin)
      (Term.wrapColumn (Term.indexRow0 ei))]

/-- The grouped table at column `9 g + h` is table `g` at column `h`. -/
theorem grouped_apply (pos spin : FVec Ideal S50000x3 .f32) (ei : IVec S2x1600000 32) (e : Fin 1600000)
    (g : Fin 3) (h : Fin 9) (k : Fin 27) (hk : k.val = 9 * g.val + h.val) :
    Term.grouped (F := Ideal) pos spin ei (ix2 e k) = groupedPieces pos spin ei g (ix2 e h) := by
  unfold Term.grouped
  exact concatenate_ofFn_apply (t := S1600000x27) (s₁ := S1600000x9) 1 (groupedPieces pos spin ei)
    concatenates_S1600000x9_S1600000x9_S1600000x9_S1600000x27_d1 rfl 9 rfl (ix2 e k) g
    (by show k.val / 9 = g.val; omega) (ix2 e h) (by show h.val = k.val % 9; omega)
    (fun b hb => by
      match b with
      | ⟨0, _⟩ => rfl
      | ⟨1, _⟩ => exact absurd rfl hb)

/-! ## A node table's columns, constants and columns-of-one read at an index -/

/-- Column `a` of a table of node vectors, at node `n`. -/
theorem nodeCol0_apply (s : FVec Ideal S50000x3 .f32) (n : Fin 50000) : Term.nodeCol0 s (ix1 n) = s (ix2 n 0) := by
  unfold Term.nodeCol0
  rw [shapeCast_apply _ _ (ix1 n) (ix2 n (0 : Fin 1)) (by
    rw [Shape.rowMajor_val_two, Shape.rowMajor_val_one]; show n.val * 1 + 0 = n.val; omega)]
  exact slice2_axis1_apply 0 s _ n 0 0 rfl
theorem nodeCol1_apply (s : FVec Ideal S50000x3 .f32) (n : Fin 50000) : Term.nodeCol1 s (ix1 n) = s (ix2 n 1) := by
  unfold Term.nodeCol1
  rw [shapeCast_apply _ _ (ix1 n) (ix2 n (0 : Fin 1)) (by
    rw [Shape.rowMajor_val_two, Shape.rowMajor_val_one]; show n.val * 1 + 0 = n.val; omega)]
  exact slice2_axis1_apply 1 s _ n 0 1 rfl
theorem nodeCol2_apply (s : FVec Ideal S50000x3 .f32) (n : Fin 50000) : Term.nodeCol2 s (ix1 n) = s (ix2 n 2) := by
  unfold Term.nodeCol2
  rw [shapeCast_apply _ _ (ix1 n) (ix2 n (0 : Fin 1)) (by
    rw [Shape.rowMajor_val_two, Shape.rowMajor_val_one]; show n.val * 1 + 0 = n.val; omega)]
  exact slice2_axis1_apply 2 s _ n 0 2 rfl

/-- A constant spread over the nodes reads the number its word encodes. -/
theorem nodeConst_apply (b : BitVec 32) (n : Fin 50000) :
    Term.nodeConst (F := Ideal) b (ix1 n) = Ideal.ofBits .f32 b := by
  unfold Term.nodeConst
  rw [broadcastInDim_scalar_apply]
  rfl

/-- A vector over the nodes set as a column reads the vector. -/
theorem nodeColumn_apply (x : FVec Ideal S50000 .f32) (n : Fin 50000) : Term.nodeColumn x (ix2 n 0) = x (ix1 n) := by
  unfold Term.nodeColumn
  exact broadcastInDim_apply _ _ _ (ix2 n 0) (ix1 n) (fun a => by match a with | ⟨0, _⟩ => rfl)

/-! ## The nine harmonics over the nodes -/

/-- The nine harmonics of the vectors with components `x, y, z` over the nodes, as nine vectors over the nodes:
    the same words and the same association as `harm`. -/
def harmNodeVecs (x y z : FVec Ideal S50000 .f32) : Fin 9 → FVec Ideal S50000 .f32 :=
  ![Term.nodeConst 0x3F800000#32,
    mulf (Term.nodeConst 0x3FDDB3D7#32) x,
    mulf (Term.nodeConst 0x3FDDB3D7#32) y,
    mulf (Term.nodeConst 0x3FDDB3D7#32) z,
    mulf (mulf (Term.nodeConst 0x4077DEF6#32) x) z,
    mulf (mulf (Term.nodeConst 0x4077DEF6#32) x) y,
    mulf (Term.nodeConst 0x400F1BBD#32)
      (subf (mulf y y) (mulf (Term.nodeConst 0x3F000000#32) (addf (mulf x x) (mulf z z)))),
    mulf (mulf (Term.nodeConst 0x4077DEF6#32) y) z,
    mulf (Term.nodeConst 0x3FF7DEF6#32) (subf (mulf z z) (mulf x x))]

/-- Each of the nine vectors at node `n` is that harmonic of `(x n, y n, z n)`: the operations are pointwise. -/
theorem harmNodeVecs_apply (x y z : FVec Ideal S50000 .f32) (n : Fin 50000) (h : Fin 9) :
    harmNodeVecs x y z h (ix1 n) = harm ![x (ix1 n), y (ix1 n), z (ix1 n)] h := by
  fin_cases h <;> rfl

/-- THE NODE TABLE OF HARMONICS AT `(n, h)`: harmonic `h` of the vector with components `x n, y n, z n`. -/
theorem harmNodes_apply (x y z : FVec Ideal S50000 .f32) (n : Fin 50000) (h : Fin 9) :
    Term.harmNodes x y z (ix2 n h) = harm ![x (ix1 n), y (ix1 n), z (ix1 n)] h := by
  unfold Term.harmNodes
  -- column `h` of nine columns of one set side by side is piece `h`, read at its only column
  refine (concatenate_ofFn_unit_apply (t := S50000x9) (s₁ := S50000x1) 1
    (fun h => Term.nodeColumn (harmNodeVecs x y z h))
    concatenates_S50000x1_S50000x1_S50000x1_S50000x1_S50000x1_S50000x1_S50000x1_S50000x1_S50000x1_S50000x9_d1
    rfl rfl (ix2 n h) h rfl (ix2 n 0) (fun b hb => by
      match b with
      | ⟨0, _⟩ => rfl
      | ⟨1, _⟩ => exact absurd rfl hb)).trans ?_
  show Term.nodeColumn (harmNodeVecs x y z h) (ix2 n 0) = _
  rw [nodeColumn_apply, harmNodeVecs_apply]

/-- The row a gather reads for the wrapped word at `(e, 0)` is the node the word names. -/
theorem gathered_node (x : IVec S1600000 32) (e : Fin 1600000)
    (hlt : min (Term.wrapColumn x (ix2 e 0)).toInt.toNat (50000 - 1) < 50000) :
    (⟨min (Term.wrapColumn x (ix2 e 0)).toInt.toNat (50000 - 1), hlt⟩ : Fin 50000) = nodeOf (x (ix1 e)) := by
  apply Fin.ext
  show min (Term.wrapColumn x (ix2 e 0)).toInt.toNat (50000 - 1) = min (wrapWord (x (ix1 e))).toInt.toNat 49999
  rw [wrapColumn_apply]

/-- THE SPIN HARMONICS GATHERED AT AN INDEX COLUMN, at `(e, h)`: harmonic `h` of the spin at the node the word names. -/
theorem spin_harm (spin : FVec Ideal S50000x3 .f32) (x : IVec S1600000 32) (e : Fin 1600000) (h : Fin 9) :
    Host.gather gather_S50000x9_S1600000x1_S1600000x9_1_0_n_n_0_1_19 (Term.spinHarm (F := Ideal) spin)
        (Term.wrapColumn x) (ix2 e h)
      = harm (fun a => spin (ix2 (nodeOf (x (ix1 e))) a)) h := by
  refine Eq.trans (show _ = Host.gather (GatherAxis.rowsDims 50000 9 1600000
    gather_S50000x9_S1600000x1_S1600000x9_1_0_n_n_0_1_19_wf) (Term.spinHarm (F := Ideal) spin) (Term.wrapColumn x)
    (ix2 e h) from rfl) ?_
  rw [GatherAxis.gather_rows_apply (by decide), gathered_node]
  unfold Term.spinHarm
  rw [harmNodes_apply, nodeCol0_apply, nodeCol1_apply, nodeCol2_apply]
  rfl

/-! ## The three vectors of an edge, and the 27 numbers -/

/-- The three vectors whose harmonics edge `e` carries: its unit direction, the spin at its head, the spin at its
    tail. -/
def edgeVectors (pos spin : FVec Ideal S50000x3 .f32) (ei : IVec S2x1600000 32) (e : Fin 1600000) :
    Fin 3 → (Fin 3 → EReal) :=
  ![direction fun a => pos (ix2 (nodeOf (ei (ix2 1 e))) a) - pos (ix2 (nodeOf (ei (ix2 0 e))) a),
    fun a => spin (ix2 (nodeOf (ei (ix2 1 e))) a),
    fun a => spin (ix2 (nodeOf (ei (ix2 0 e))) a)]

/-- Table `g` of the grouped table at `(e, h)` is harmonic `h` of edge `e`'s vector `g`. -/
theorem groupedPieces_apply (pos spin : FVec Ideal S50000x3 .f32) (ei : IVec S2x1600000 32) (e : Fin 1600000)
    (g : Fin 3) (h : Fin 9) :
    groupedPieces pos spin ei g (ix2 e h) = harm (edgeVectors pos spin ei e g) h := by
  match g with
  | ⟨0, _⟩ => exact direction_harm pos ei e h
  | ⟨1, _⟩ =>
    have hs := spin_harm spin (Term.indexRow1 ei) e h
    rw [indexRow1_apply] at hs
    exact hs
  | ⟨2, _⟩ =>
    have hs := spin_harm spin (Term.indexRow0 ei) e h
    rw [indexRow0_apply] at hs
    exact hs

/-- Which of the three tables, and which of its nine columns, result column `k` shows. -/
def groupOf : Fin 27 → Fin 3 :=
  ![0, 1, 2, 0, 0, 0, 1, 1, 1, 2, 2, 2, 0, 0, 0, 0, 0, 1, 1, 1, 1, 1, 2, 2, 2, 2, 2]
def harmOf : Fin 27 → Fin 9 :=
  ![0, 0, 0, 1, 2, 3, 1, 2, 3, 1, 2, 3, 4, 5, 6, 7, 8, 4, 5, 6, 7, 8, 4, 5, 6, 7, 8]

/-- The order table's entry is column `harmOf k` of table `groupOf k`. -/
theorem orderTable_split (k : Fin 27) : (orderTable k).val = 9 * (groupOf k).val + (harmOf k).val := by
  fin_cases k <;> rfl

end Entry

/-- THE REFERENCE COMPUTES THE EDGE HARMONICS, for every input. -/
theorem result_eq_target (pos spin : FVec Ideal S50000x3 .f32) (ei : IVec S2x1600000 32) :
    Term.result (F := Ideal) pos spin ei = target pos spin ei := by
  funext j
  obtain ⟨e, k, rfl⟩ : ∃ (e : Fin 1600000) (k : Fin 27), j = ix2 e k := ⟨j 0, j 1, eq_ix2 j⟩
  rw [Entry.result_apply,
    Entry.grouped_apply pos spin ei e (Entry.groupOf k) (Entry.harmOf k) (Entry.orderTable k) (Entry.orderTable_split k),
    Entry.groupedPieces_apply]
  -- both sides are now harmonic `harmOf k` of vector `groupOf k`: the 27 entries of `edge27`, one by one
  fin_cases k <;> rfl

end Cert.ReferenceIdeal.RefValue

end
-- ==== Proof.lean ====
/-
  The certificate of the edge-harmonics kernel against its reference.

  Both programs compute, for each of 1600000 edges of a graph on 50000 nodes, 27 real spherical harmonics: those of the
  unit vector along the edge and of the spins at its two ends.  The kernel gathers each node's six numbers on the host
  and computes per edge inside its region, taking the unit vector by the reciprocal of the length; the reference divides
  by the length, computes the spins' harmonics once per node and gathers them, and reorders columns at the end.  Over the
  extended reals the two agree wherever every index names a node (the kernel's gather fills with a junk value out of
  range, the reference's clamps) and no edge has length zero (there `0 · (1/0) = 0 · ⊤ = 0` but `0 / 0 = ⊥`): that is the
  precondition.  The frames of the kernel at both instances are its generated frame certificate; the reference's frame
  is its run with the result forgotten; nothing was rewritten by the ideal pass, so `preserves` is trivial; the value
  claim sets the kernel's array (Proof/KernelArray.lean) beside the reference's run (Proof/RefRun.lean) read index by
  index (Proof/RefValue.lean), both the one function `EdgeHarmonics.target` (Proof/Spec.lean).
-/
import proofs.«410445_j87213605913075_3_alg».proof.Defs
import proofs.«410445_j87213605913075_3_alg».proof.Proof.Gen.Kernel
import proofs.«410445_j87213605913075_3_alg».proof.Proof.Gen.Kernel.Skeleton
import proofs.«410445_j87213605913075_3_alg».proof.Proof.Gen.Kernel.Launch
import proofs.«410445_j87213605913075_3_alg».proof.Proof.Gen.Kernel.Points
import proofs.«410445_j87213605913075_3_alg».proof.Proof.Gen.Kernel.Frame
import proofs.«410445_j87213605913075_3_alg».proof.Proof.Gen.KernelIdeal
import proofs.«410445_j87213605913075_3_alg».proof.Proof.Gen.KernelIdeal.Skeleton
import proofs.«410445_j87213605913075_3_alg».proof.Proof.Gen.KernelIdeal.Launch
import proofs.«410445_j87213605913075_3_alg».proof.Proof.Gen.KernelIdeal.Points
import proofs.«410445_j87213605913075_3_alg».proof.Proof.Gen.KernelIdeal.Frame
import proofs.«410445_j87213605913075_3_alg».proof.Proof.Gen.ReferenceIdeal
import proofs.«410445_j87213605913075_3_alg».proof.Proof.Gen.Pre_finite_inputs
import proofs.«410445_j87213605913075_3_alg».proof.Proof.KernelArray
import proofs.«410445_j87213605913075_3_alg».proof.Proof.RefRun
import proofs.«410445_j87213605913075_3_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments alone: its run, the result forgotten. -/
theorem frame_referenceIdeal : Cert.frame_ReferenceIdeal := fun m ρ _ =>
  (θ_run Cert.ReferenceIdeal.defs _ _).mono (fun _ h c => (h c).2) (Cert.ReferenceIdeal.Run.run (F := Ideal) m ρ)

/-- Under the precondition, from memories that agree on the arguments, both programs end with the edge harmonics of
    those arguments in their result arrays. -/
theorem algebraic : Cert.algebraic_KernelIdeal_ReferenceIdeal := by
  intro m ρ m' ρ' hpre hagree
  refine ⟨_, Cert.KernelIdeal.EdgeValue.run m ρ hpre, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2.1, (hagree c).2.2]
  exact Cert.ReferenceIdeal.RefValue.result_eq_target _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
